-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536 : Shape := ⟨1, ![65536]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x256 .f32) (main_arg1 : IVec S65536 32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_c_0 : IVec S_ 32 := constantI S_ 32 0#32
  let main_v4 : IVec S65536 32 := broadcastInDim S65536 ![] bcast_S_S65536 main_c_0
  let main_v5 : IVec S65536 1 := cmpi .sge main_arg1 main_v4
  let main_c_1 : IVec S_ 1 := constantI S_ 1 1#1
  let main_v6 : IVec S_ 1 := (fun x v => Host.reduce IntOp.andi x v reducesTo_S65536_S_d0 h_S_) main_v5 main_c_1
  let main_v7 : IVec S_ 1 := andi main_v3 main_v6
  let main_c_2 : IVec S_ 32 := constantI S_ 32 512#32
  let main_v8 : IVec S65536 32 := broadcastInDim S65536 ![] bcast_S_S65536 main_c_2
  let main_v9 : IVec S65536 1 := cmpi .slt main_arg1 main_v8
  let main_c_3 : IVec S_ 1 := constantI S_ 1 1#1
  let main_v10 : IVec S_ 1 := (fun x v => Host.reduce IntOp.andi x v reducesTo_S65536_S_d0 h_S_) main_v9 main_c_3
  let main_v11 : IVec S_ 1 := andi main_v7 main_v10
  main_v11
-- ==== Kernel.lean ====
abbrev S65536x256 : Shape := ⟨2, ![65536, 256]⟩
abbrev S65536 : Shape := ⟨1, ![65536]⟩
abbrev S65536x1 : Shape := ⟨2, ![65536, 1]⟩
abbrev S2x512x256 : Shape := ⟨3, ![2, 512, 256]⟩
abbrev S4096x256 : Shape := ⟨2, ![4096, 256]⟩
abbrev S4096x1 : Shape := ⟨2, ![4096, 1]⟩
abbrev S1x512x256 : Shape := ⟨3, ![1, 512, 256]⟩
abbrev S512x256 : Shape := ⟨2, ![512, 256]⟩
abbrev S4096x512 : Shape := ⟨2, ![4096, 512]⟩
abbrev S_ : Shape := ⟨0, ![]⟩
abbrev S512 : Shape := ⟨1, ![512]⟩
abbrev S512x1 : Shape := ⟨2, ![512, 1]⟩
abbrev S1x512 : Shape := ⟨2, ![1, 512]⟩
abbrev S2x8x128 : Shape := ⟨3, ![2, 8, 128]⟩
abbrev S2048x256 : Shape := ⟨2, ![2048, 256]⟩
abbrev S2048x1 : Shape := ⟨2, ![2048, 1]⟩
abbrev S1x8x128 : Shape := ⟨3, ![1, 8, 128]⟩
abbrev S8x128 : Shape := ⟨2, ![8, 128]⟩
abbrev S2048x512 : Shape := ⟨2, ![2048, 512]⟩
abbrev S2048 : Shape := ⟨1, ![2048]⟩
abbrev S1 : Shape := ⟨1, ![1]⟩
abbrev S1x1 : Shape := ⟨2, ![1, 1]⟩
abbrev S1x1x1 : Shape := ⟨3, ![1, 1, 1]⟩

abbrev nBuf : Space → Nat
  | .hbm => 31
  | .vmem => 14
  | .smem => 0
  | _ => 0

abbrev bufTy : (tb : Table) → Fin (tcTables nBuf tb) → BufTy
  | .hbm, ⟨0, _⟩ => ⟨S65536x256, .f32⟩
  | .hbm, ⟨1, _⟩ => ⟨S65536, .i32⟩
  | .hbm, ⟨2, _⟩ => ⟨S65536x1, .i32⟩
  | .hbm, ⟨3, _⟩ => ⟨S2x512x256, .f32⟩
  | .hbm, ⟨4, _⟩ => ⟨S_, .f32⟩
  | .hbm, ⟨5, _⟩ => ⟨S512x256, .f32⟩
  | .hbm, ⟨6, _⟩ => ⟨S_, .f32⟩
  | .hbm, ⟨7, _⟩ => ⟨S65536, .f32⟩
  | .hbm, ⟨8, _⟩ => ⟨S_, .f32⟩
  | .hbm, ⟨9, _⟩ => ⟨S512, .f32⟩
  | .hbm, ⟨10, _⟩ => ⟨S65536x1, .i32⟩
  | .hbm, ⟨11, _⟩ => ⟨S512, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S512x1, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512, .f32⟩
  | .hbm, ⟨21, _⟩ => ⟨S512, .f32⟩
  | .hbm, ⟨22, _⟩ => ⟨S1x512, .f32⟩
  | .hbm, ⟨23, _⟩ => ⟨S2x8x128, .f32⟩
  | .hbm, ⟨24, _⟩ => ⟨S1x1x1, .f32⟩
  | .hbm, ⟨25, _⟩ => ⟨S_, .f32⟩
  | .hbm, ⟨26, _⟩ => ⟨S1x1x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x1, .i32⟩
  | .local _ .vmem, ⟨3, _⟩ => ⟨S4096x1, .i32⟩
  | .local _ .vmem, ⟨4, _⟩ => ⟨S1x512x256, .f32⟩
  | .local _ .vmem, ⟨5, _⟩ => ⟨S1x512x256, .f32⟩
  | .local _ .vmem, ⟨6, _⟩ => ⟨S2048x256, .f32⟩
  | .local _ .vmem, ⟨7, _⟩ => ⟨S2048x256, .f32⟩
  | .local _ .vmem, ⟨8, _⟩ => ⟨S2048x1, .i32⟩
  | .local _ .vmem, ⟨9, _⟩ => ⟨S2048x1, .i32⟩
  | .local _ .vmem, ⟨10, _⟩ => ⟨S512x256, .f32⟩
  | .local _ .vmem, ⟨11, _⟩ => ⟨S1x512, .f32⟩
  | .local _ .vmem, ⟨12, _⟩ => ⟨S1x8x128, .f32⟩
  | .local _ .vmem, ⟨13, _⟩ => ⟨S1x8x128, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_cst : Ref sig .tc := ⟨.hbm, 19, rfl⟩
abbrev main_call0_v1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S65536_S65536x1 : S65536.ShapeCasts S65536x1
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x512_d1_w32 : S4096x512.Iotas .tc 32 [1]
  broadcasts_S4096x1_S4096x512 : S4096x1.Broadcasts S4096x512
  natLt_1_32 : 1 < 32
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  reducesTo_S2x512x256_S512x256_d0 : S2x512x256.ReducesTo [0] S512x256
  h_S_ : 0 < S_.numel
  bcast_S_S65536 : S_.BroadcastsInDim S65536 (![] : Fin 0 → Fin S65536.rank)
  bcast_S_S512 : S_.BroadcastsInDim S512 (![] : Fin 0 → Fin S512.rank)
  bcast_S65536_S65536x1_0 : S65536.BroadcastsInDim S65536x1 (![0] : Fin 1 → Fin S65536x1.rank)
  shapeCasts_S512_S512x1 : S512.ShapeCasts S512x1
  bcast_S512x1_S512x256_0_1 : S512x1.BroadcastsInDim S512x256 (![0, 1] : Fin 2 → Fin S512x256.rank)
  reducesTo_S512x256_S512_d1 : S512x256.ReducesTo [1] S512
  shapeCasts_S512_S1x512 : S512.ShapeCasts S1x512
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S2048x256_S2048x256_0_0 : ∀ a, (![0, 0] : Fin 2 → Nat) a + S2048x256.size a ≤ S2048x256.size a
  h_S2048x256 : 0 < S2048x256.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S2048x256_S2048 : S2048x256.Reduces [1] S2048
  shapeCasts_S2048_S2048x1 : S2048.ShapeCasts S2048x1
  broadcasts_S2048x1_S2048x512 : S2048x1.Broadcasts S2048x512
  broadcasts_S1x512_S2048x512 : S1x512.Broadcasts S2048x512
  reduces_S2048x512_S2048 : S2048x512.Reduces [1] S2048
  iota_S2048x512_d1_w32 : S2048x512.Iotas .tc 32 [1]
  reduces_S2048x1_S1 : S2048x1.Reduces [0] S1
  shapeCasts_S1_S1x1 : S1.ShapeCasts S1x1
  shapeCasts_S1x1_S1x1 : S1x1.ShapeCasts S1x1
  broadcasts_S1x1_S8x128 : S1x1.Broadcasts S8x128
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  dot_S4096x512_S4096x256_S512x256_0_0_1_1_n_n_wf : DotDims.WF S4096x512 S4096x256 S512x256 [0] [0] [1] [1] [] []
  scatter_S512_S65536x1_S65536_n_0_0_1_wf : ScatterDims.WF S512 S65536x1 S65536 [] [0] [0] 1
  dot_S2048x256_S512x256_S2048x512_1_1_0_0_n_n_wf : DotDims.WF S2048x256 S512x256 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S65536x1.size a
  hwx0_1 : ∀ i : grid0.Coords, EltTy.bits .i32 = 32 ∨ (Rect.block (s := S65536x1) S4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x256.size a ≤ S2x512x256.size a
  hwx0_2 : ∀ i : grid0.Coords, EltTy.bits .f32 = 32 ∨ (Rect.block (s := S2x512x256) S1x512x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S65536x256.size a
  hwx1_0 : ∀ i : grid1.Coords, EltTy.bits .f32 = 32 ∨ (Rect.block (s := S65536x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S65536x1.size a
  hwx1_1 : ∀ i : grid1.Coords, EltTy.bits .i32 = 32 ∨ (Rect.block (s := S65536x1) S2048x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S512x256.size a
  hwx1_2 : ∀ i : grid1.Coords, EltTy.bits .f32 = 32 ∨ (Rect.block (s := S512x256) S512x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x8x128.size a ≤ S2x8x128.size a
  hwx1_4 : ∀ i : grid1.Coords, EltTy.bits .f32 = 32 ∨ (Rect.block (s := S2x8x128) S1x8x128.size (cc1_transform_4 i) (hinb1_4 i)).WholeWords (EltTy.packing .f32)

variable [Facts₀]

def dot_S4096x512_S4096x256_S512x256_0_0_1_1_n_n : DotDims S4096x512 S4096x256 S512x256 where
  lhsContracting := [0]
  rhsContracting := [0]
  lhsNonContracting := [1]
  rhsNonContracting := [1]
  lhsBatch := []
  rhsBatch := []
  wf := dot_S4096x512_S4096x256_S512x256_0_0_1_1_n_n_wf
def scatter_S512_S65536x1_S65536_n_0_0_1 : ScatterDims S512 S65536x1 S65536 where
  updateWindowDims := []
  insertedWindowDims := [0]
  scatterDimsToOperandDims := [0]
  indexVectorDim := 1
  wf := scatter_S512_S65536x1_S65536_n_0_0_1_wf
def dot_S2048x256_S512x256_S2048x512_1_1_0_0_n_n : DotDims S2048x256 S512x256 S2048x512 where
  lhsContracting := [1]
  rhsContracting := [1]
  lhsNonContracting := [0]
  rhsNonContracting := [0]
  lhsBatch := []
  rhsBatch := []
  wf := dot_S2048x256_S512x256_S2048x512_1_1_0_0_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S512x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x8x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S65536x256 : Shape := ⟨2, ![65536, 256]⟩
abbrev S65536 : Shape := ⟨1, ![65536]⟩
abbrev S_ : Shape := ⟨0, ![]⟩
abbrev S512x256 : Shape := ⟨2, ![512, 256]⟩
abbrev S65536x1 : Shape := ⟨2, ![65536, 1]⟩
abbrev S512 : Shape := ⟨1, ![512]⟩
abbrev S512x1 : Shape := ⟨2, ![512, 1]⟩
abbrev S256x512 : Shape := ⟨2, ![256, 512]⟩
abbrev S65536x512 : Shape := ⟨2, ![65536, 512]⟩
abbrev S1x512 : Shape := ⟨2, ![1, 512]⟩
abbrev S65536x1x1 : Shape := ⟨3, ![65536, 1, 1]⟩
abbrev S1 : Shape := ⟨1, ![1]⟩
abbrev S1x1x1 : Shape := ⟨3, ![1, 1, 1]⟩

abbrev nBuf : Space → Nat
  | .hbm => 78
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536, .i32⟩
  | .hbm, ⟨2, _⟩ => ⟨S_, .f32⟩
  | .hbm, ⟨3, _⟩ => ⟨S512x256, .f32⟩
  | .hbm, ⟨4, _⟩ => ⟨S65536x1, .i32⟩
  | .hbm, ⟨5, _⟩ => ⟨S512x256, .f32⟩
  | .hbm, ⟨6, _⟩ => ⟨S_, .f32⟩
  | .hbm, ⟨7, _⟩ => ⟨S65536, .f32⟩
  | .hbm, ⟨8, _⟩ => ⟨S_, .f32⟩
  | .hbm, ⟨9, _⟩ => ⟨S512, .f32⟩
  | .hbm, ⟨10, _⟩ => ⟨S65536x1, .i32⟩
  | .hbm, ⟨11, _⟩ => ⟨S512, .f32⟩
  | .hbm, ⟨12, _⟩ => ⟨S512x1, .f32⟩
  | .hbm, ⟨13, _⟩ => ⟨S512x256, .f32⟩
  | .hbm, ⟨14, _⟩ => ⟨S512x256, .f32⟩
  | .hbm, ⟨15, _⟩ => ⟨S256x512, .f32⟩
  | .hbm, ⟨16, _⟩ => ⟨S65536x512, .f32⟩
  | .hbm, ⟨17, _⟩ => ⟨S65536x256, .f32⟩
  | .hbm, ⟨18, _⟩ => ⟨S_, .f32⟩
  | .hbm, ⟨19, _⟩ => ⟨S65536, .f32⟩
  | .hbm, ⟨20, _⟩ => ⟨S65536, .f32⟩
  | .hbm, ⟨21, _⟩ => ⟨S512x256, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S65536x1, .f32⟩
  | .hbm, ⟨26, _⟩ => ⟨S1x512, .f32⟩
  | .hbm, ⟨27, _⟩ => ⟨S65536x512, .f32⟩
  | .hbm, ⟨28, _⟩ => ⟨S65536x512, .f32⟩
  | .hbm, ⟨29, _⟩ => ⟨S65536x512, .f32⟩
  | .hbm, ⟨30, _⟩ => ⟨S_, .f32⟩
  | .hbm, ⟨31, _⟩ => ⟨S65536x512, .f32⟩
  | .hbm, ⟨32, _⟩ => ⟨S65536x512, .f32⟩
  | .hbm, ⟨33, _⟩ => ⟨S65536x512, .f32⟩
  | .hbm, ⟨34, _⟩ => ⟨S_, .f32⟩
  | .hbm, ⟨35, _⟩ => ⟨S65536, .f32⟩
  | .hbm, ⟨36, _⟩ => ⟨S_, .f32⟩
  | .hbm, ⟨37, _⟩ => ⟨S65536, .f32⟩
  | .hbm, ⟨38, _⟩ => ⟨S65536, .f32⟩
  | .hbm, ⟨39, _⟩ => ⟨S65536x1, .f32⟩
  | .hbm, ⟨40, _⟩ => ⟨S65536x512, .f32⟩
  | .hbm, ⟨41, _⟩ => ⟨S65536x512, .f32⟩
  | .hbm, ⟨42, _⟩ => ⟨S65536x512, .f32⟩
  | .hbm, ⟨43, _⟩ => ⟨S_, .f32⟩
  | .hbm, ⟨44, _⟩ => ⟨S65536, .f32⟩
  | .hbm, ⟨45, _⟩ => ⟨S65536x1, .f32⟩
  | .hbm, ⟨46, _⟩ => ⟨S65536x1, .f32⟩
  | .hbm, ⟨47, _⟩ => ⟨S65536x512, .f32⟩
  | .hbm, ⟨48, _⟩ => ⟨S65536x512, .f32⟩
  | .hbm, ⟨49, _⟩ => ⟨S65536x1, .i32⟩
  | .hbm, ⟨50, _⟩ => ⟨S_, .i32⟩
  | .hbm, ⟨51, _⟩ => ⟨S65536x1, .i32⟩
  | .hbm, ⟨52, _⟩ => ⟨S65536x1, .i1⟩
  | .hbm, ⟨53, _⟩ => ⟨S_, .i32⟩
  | .hbm, ⟨54, _⟩ => ⟨S65536x1, .i32⟩
  | .hbm, ⟨55, _⟩ => ⟨S65536x1, .i32⟩
  | .hbm, ⟨56, _⟩ => ⟨S65536x1, .i32⟩
  | .hbm, ⟨57, _⟩ => ⟨S65536x1x1, .i32⟩
  | .hbm, ⟨58, _⟩ => ⟨S1, .i32⟩
  | .hbm, ⟨59, _⟩ => ⟨S_, .i32⟩
  | .hbm, ⟨60, _⟩ => ⟨S65536x1x1, .i32⟩
  | .hbm, ⟨61, _⟩ => ⟨S65536x1x1, .i1⟩
  | .hbm, ⟨62, _⟩ => ⟨S1x1x1, .i32⟩
  | .hbm, ⟨63, _⟩ => ⟨S65536x1x1, .i32⟩
  | .hbm, ⟨64, _⟩ => ⟨S65536x1x1, .i1⟩
  | .hbm, ⟨65, _⟩ => ⟨S65536x1x1, .i1⟩
  | .hbm, ⟨66, _⟩ => ⟨S_, .i1⟩
  | .hbm, ⟨67, _⟩ => ⟨S65536x1, .i1⟩
  | .hbm, ⟨68, _⟩ => ⟨S65536x1, .f32⟩
  | .hbm, ⟨69, _⟩ => ⟨S_, .f32⟩
  | .hbm, ⟨70, _⟩ => ⟨S65536x1, .f32⟩
  | .hbm, ⟨71, _⟩ => ⟨S65536x1, .f32⟩
  | .hbm, ⟨72, _⟩ => ⟨S65536, .f32⟩
  | .hbm, ⟨73, _⟩ => ⟨S65536, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v12 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call2_cst : Ref sig .tc := ⟨.hbm, 34, rfl⟩
abbrev main_call2_v0 : Ref sig .tc := ⟨.hbm, 35, rfl⟩
abbrev main_call2_cst_0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_cst_1 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_v22 : Ref sig .tc := ⟨.hbm, 48, rfl⟩
abbrev main_v23 : Ref sig .tc := ⟨.hbm, 49, rfl⟩
abbrev main_call3_c : Ref sig .tc := ⟨.hbm, 50, rfl⟩
abbrev main_call3_v0 : Ref sig .tc := ⟨.hbm, 51, rfl⟩
abbrev main_call3_v1 : Ref sig .tc := ⟨.hbm, 52, rfl⟩
abbrev main_call3_c_0 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_c_1 : Ref sig .tc := ⟨.hbm, 58, rfl⟩
abbrev main_call3_c_2 : Ref sig .tc := ⟨.hbm, 59, rfl⟩
abbrev main_call3_v6 : Ref sig .tc := ⟨.hbm, 60, rfl⟩
abbrev main_call3_v7 : Ref sig .tc := ⟨.hbm, 61, rfl⟩
abbrev main_call3_v8 : Ref sig .tc := ⟨.hbm, 62, rfl⟩
abbrev main_call3_v9 : Ref sig .tc := ⟨.hbm, 63, rfl⟩
abbrev main_call3_v10 : Ref sig .tc := ⟨.hbm, 64, rfl⟩
abbrev main_call3_v11 : Ref sig .tc := ⟨.hbm, 65, rfl⟩
abbrev main_call3_c_3 : Ref sig .tc := ⟨.hbm, 66, rfl⟩
abbrev main_call3_v12 : Ref sig .tc := ⟨.hbm, 67, rfl⟩
abbrev main_call3_v13 : Ref sig .tc := ⟨.hbm, 68, rfl⟩
abbrev main_call3_cst : Ref sig .tc := ⟨.hbm, 69, rfl⟩
abbrev main_call3_v14 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_cst_3 : Ref sig .tc := ⟨.hbm, 74, rfl⟩
abbrev main_v27 : Ref sig .tc := ⟨.hbm, 75, rfl⟩
abbrev main_cst_4 : Ref sig .tc := ⟨.hbm, 76, rfl⟩
abbrev main_v28 : Ref sig .tc := ⟨.hbm, 77, rfl⟩

abbrev nD : Nat := 1
abbrev τ : Topo := Topo.v7x

variable {F : FTy → Type} [FloatOps F]

class Facts₀ : Prop where
  bcast_S_S512x256 : S_.BroadcastsInDim S512x256 (![] : Fin 0 → Fin S512x256.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  transposes_S512x256_S256x512_1_0 : S512x256.Transposes [1, 0] S256x512
  reducesTo_S65536x256_S65536_d1 : S65536x256.ReducesTo [1] S65536
  h_S_ : 0 < S_.numel
  reducesTo_S512x256_S512_d1 : S512x256.ReducesTo [1] S512
  bcast_S512_S1x512_1 : S512.BroadcastsInDim S1x512 (![1] : Fin 1 → Fin S1x512.rank)
  bcast_S65536x1_S65536x512_0_1 : S65536x1.BroadcastsInDim S65536x512 (![0, 1] : Fin 2 → Fin S65536x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  reducesTo_S65536x512_S65536_d1 : S65536x512.ReducesTo [1] S65536
  bcast_S_S65536x1 : S_.BroadcastsInDim S65536x1 (![] : Fin 0 → Fin S65536x1.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  shapeCasts_S65536x1_S65536 : S65536x1.ShapeCasts S65536
  reducesTo_S65536_S_d0 : S65536.ReducesTo [0] S_
  scatter_S512x256_S65536x1_S65536x256_1_0_0_1_wf : ScatterDims.WF S512x256 S65536x1 S65536x256 [1] [0] [0] 1
  scatter_S512_S65536x1_S65536_n_0_0_1_wf : ScatterDims.WF S512 S65536x1 S65536 [] [0] [0] 1
  dot_S65536x256_S256x512_S65536x512_1_0_0_1_n_n_wf : DotDims.WF S65536x256 S256x512 S65536x512 [1] [0] [0] [1] [] []
  gather_S65536x512_S65536x1x1_S65536x1_n_1_0_0_1_2_11_wf : GatherDims.WF S65536x512 S65536x1x1 S65536x1 [] [1] [0] [1] [0] 2 ![1, 1]

variable [Facts₀]

def scatter_S512x256_S65536x1_S65536x256_1_0_0_1 : ScatterDims S512x256 S65536x1 S65536x256 where
  updateWindowDims := [1]
  insertedWindowDims := [0]
  scatterDimsToOperandDims := [0]
  indexVectorDim := 1
  wf := scatter_S512x256_S65536x1_S65536x256_1_0_0_1_wf
def scatter_S512_S65536x1_S65536_n_0_0_1 : ScatterDims S512 S65536x1 S65536 where
  updateWindowDims := []
  insertedWindowDims := [0]
  scatterDimsToOperandDims := [0]
  indexVectorDim := 1
  wf := scatter_S512_S65536x1_S65536_n_0_0_1_wf
def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def gather_S65536x512_S65536x1x1_S65536x1_n_1_0_0_1_2_11 : GatherDims S65536x512 S65536x1x1 S65536x1 where
  offsetDims := []
  collapsedSliceDims := [1]
  operandBatchingDims := [0]
  startIndicesBatchingDims := [0]
  startIndexMap := [1]
  indexVectorDim := 2
  sliceSizes := ![1, 1]
  wf := gather_S65536x512_S65536x1x1_S65536x1_n_1_0_0_1_2_11_wf

class Facts : Prop extends Facts₀ where

variable [Facts]
-- ==== Proof.Spec.lean ====
/-
  The mathematics of the two programs, over the extended reals, free of any program text.

  `x : Fin 65536 → Fin 256 → EReal` are the rows to classify, `lab : Fin 65536 → Fin 512` their labels.
  Both programs form, per label `k`, the sum of the rows carrying it (`segSum`) and how many there are (`count`),
  divide to get a prototype, and score every row against every prototype by cosine similarity with the
  denominator floored at `eps` (`sim`); the loss is the mean over the rows of
  `log (∑ₖ exp simₖ) − sim_{lab}`, computed with the row maximum taken out of the exponent.

  They differ in two places. The kernel divides a label's sum by `max count 1`, the reference by `count`
  itself: for a label no row carries the reference's prototype is `0 / 0`, which here is `⊥`, its norm `⊤`,
  and the similarity against it `(…) · ⊤⁻¹ = 0` (or `0 / eps = 0` for a zero row) — the value the kernel's
  zero prototype gives. And the kernel writes the row's loss as `(M + log Σ) − sim_{lab}` with the label's
  similarity picked out by a sum against an indicator, the reference as `−((sim_{lab} − M) − log Σ)`: equal
  for real similarities.
-/
import Idealize.ShloMosaic.PureOps.Ideal

noncomputable section

namespace Cert.ProtoLoss

open Idealize.ShloMosaic

variable (x : Fin 65536 → Fin 256 → EReal) (lab : Fin 65536 → Fin 512)

/-- The sum of the rows labelled `k`, feature `d`. -/
def segSum (k : Fin 512) (d : Fin 256) : EReal := ∑ n : Fin 65536, if lab n = k then x n d else 0

/-- The number of rows labelled `k`. -/
def count (k : Fin 512) : EReal := ∑ n : Fin 65536, if lab n = k then (1 : EReal) else 0

/-- The kernel computes a label's sum in two halves, one per core: half `q` covers the rows `32768 q … 32768 q + 32767`. -/
def partSum (q : Fin 2) (k : Fin 512) (d : Fin 256) : EReal :=
  ∑ n : Fin 65536, if n.val / 32768 = q.val then (if lab n = k then x n d else 0) else 0

/-- The kernel's prototype: the label's sum over its count, the count floored at one. -/
def protoK (k : Fin 512) (d : Fin 256) : EReal := Ideal.div (segSum x lab k d) (max (count lab k) 1)

/-- The reference's prototype: the label's sum over its count. -/
def protoR (k : Fin 512) (d : Fin 256) : EReal := Ideal.div (segSum x lab k d) (count lab k)

section scores

variable (eps : EReal) (p : Fin 512 → Fin 256 → EReal)

/-- The Euclidean norm of prototype `k`. -/
def normP (k : Fin 512) : EReal := Ideal.sqrt (∑ d : Fin 256, p k d * p k d)

/-- The Euclidean norm of row `n`. -/
def normX (n : Fin 65536) : EReal := Ideal.sqrt (∑ d : Fin 256, x n d * x n d)

/-- Cosine similarity of row `n` and prototype `k`, the denominator floored at `eps`. -/
def sim (n : Fin 65536) (k : Fin 512) : EReal :=
  Ideal.div (∑ d : Fin 256, x n d * p k d) (max (normX x n * normP p k) eps)

/-- The largest of a row of scores. -/
def rowMax (s : Fin 512 → EReal) : EReal := Finset.univ.sup s

/-- `log ∑ₖ exp (sₖ − M)`, `M` the row's maximum. -/
def logSumExp (s : Fin 512 → EReal) : EReal := Ideal.log (∑ k : Fin 512, Ideal.exp (s k - rowMax s))

/-- The kernel's loss of row `n`: `(M + log Σ)` less the label's score, the latter a sum against an indicator. -/
def nllK (n : Fin 65536) : EReal :=
  (rowMax (sim x eps p n) + logSumExp (sim x eps p n)) - ∑ k : Fin 512, if lab n = k then sim x eps p n k else 0

/-- The reference's loss of row `n`: minus the label's entry of the row's log-softmax. -/
def nllR (n : Fin 65536) : EReal :=
  -((sim x eps p n (lab n) - rowMax (sim x eps p n)) - logSumExp (sim x eps p n))

/-- The kernel adds the row losses up in two halves as well: half `q`'s share. -/
def partLoss (q : Fin 2) : EReal :=
  ∑ n : Fin 65536, if n.val / 32768 = q.val then nllK x lab eps p n else 0

end scores

/-- The kernel's result: the mean of its row losses, over its guarded prototypes. `cnt` is the number of rows as
    the programs spell it. -/
def lossK (eps cnt : EReal) : EReal := Ideal.div (∑ n : Fin 65536, nllK x lab eps (protoK x lab) n) cnt

/-- The reference's result: the mean of its row losses, over its unguarded prototypes. -/
def lossR (eps cnt : EReal) : EReal := Ideal.div (∑ n : Fin 65536, nllR x lab eps (protoR x lab) n) cnt

end Cert.ProtoLoss

end
-- ==== Proof.SegmentSum.lean ====
/-
  A segment sum as both programs spell it: a scatter with an adding body, the labels as a [65536, 1] column of start
  indices into axis 0 of the operand. An update lands on the operand row its label names, read as a signed number, and
  is dropped when that number is not a row; so the operand's entry at row `k` gains the sum of the updates whose label
  is `k`. Two shapes: a vector of 65536 updates into 512 bins, and 65536 rows of 256 into 512 rows of 256.
-/
import Idealize.ShloMosaic.PureOps.Ideal
import Idealize.ShloMosaic.Lib.ValueIdx
import Idealize.ShloMosaic.Lib.ValueIdxRank1

noncomputable section

namespace Cert.ProtoLoss.SegmentSum

open Idealize.ShloMosaic Idealize.ShloMosaic.ValueIdx

/-- The dimension numbers of the vector form: no window axes, the operand's one axis inserted and indexed. -/
abbrev vecDims : ScatterDims ⟨1, ![512]⟩ ⟨2, ![65536, 1]⟩ ⟨1, ![65536]⟩ where
  updateWindowDims := []
  insertedWindowDims := [0]
  scatterDimsToOperandDims := [0]
  indexVectorDim := 1

/-- The dimension numbers of the row form: the updates' axis 1 is the window, the operand's axis 0 inserted and indexed. -/
abbrev rowDims : ScatterDims ⟨2, ![512, 256]⟩ ⟨2, ![65536, 1]⟩ ⟨2, ![65536, 256]⟩ where
  updateWindowDims := [1]
  insertedWindowDims := [0]
  scatterDimsToOperandDims := [0]
  indexVectorDim := 1

variable {w : Nat}

/-! ## The vector form -/

/-- The operand's one axis is the axis the start index's single component names. -/
theorem vec_mem : (0 : Fin 1) ∈ vecDims.scatterDimsToOperandDims := List.mem_singleton.mpr rfl

/-- Update `n` reads its start index at row `n` of the label column: the kept axis of the scatter indices takes the
    update's own coordinate, the index vector's axis the component number `0`. -/
theorem vec_siIdx (n : Fin 65536) :
    vecDims.siIdx (ix1 n) ⟨List.idxOf (0 : Fin 1) vecDims.scatterDimsToOperandDims, List.idxOf_lt_length_iff.2 vec_mem⟩
      = ix2 n (0 : Fin 1) := by
  funext b
  match b with
  | ⟨0, _⟩ => rfl
  | ⟨1, _⟩ => rfl

/-- The window of update `n` starts at its label, read signed. -/
theorem vec_start (n : Fin 65536) (idx : IVec ⟨2, ![65536, 1]⟩ w) (a : Fin 1) :
    vecDims.start (ix1 n) idx a = (idx (ix2 n (0 : Fin 1))).toInt := by
  obtain rfl : a = 0 := Subsingleton.elim _ _
  unfold ScatterDims.start
  rw [dif_pos vec_mem, vec_siIdx]

/-- The operand's one axis is inserted, so the window coordinate on it is `0`. -/
theorem vec_window (n : Fin 65536) (a : Fin 1) : vecDims.window (ix1 n) a = 0 := by
  obtain rfl : a = 0 := Subsingleton.elim _ _
  unfold ScatterDims.window
  rw [dif_neg (by decide)]

/-- Update `n` lands on bin `k` exactly when its label, read signed, is `k`. -/
theorem vec_resultIdx (n : Fin 65536) (idx : IVec ⟨2, ![65536, 1]⟩ w) (k : Fin 512) :
    vecDims.resultIdx? (ix1 n) idx = some (ix1 k) ↔ (idx (ix2 n (0 : Fin 1))).toInt = (k.val : ℤ) := by
  unfold ScatterDims.resultIdx?
  simp only [vec_start, vec_window]
  split
  · rename_i h
    rw [Option.some.injEq]
    constructor
    · intro he
      have h1 := congrArg Fin.val (congrFun he 0)
      have h0 := (h 0).1
      simp only [ix1] at h1
      omega
    · intro he
      funext a
      obtain rfl : a = 0 := Subsingleton.elim _ _
      apply Fin.ext
      simp only [ix1]
      omega
  · rename_i h
    constructor
    · intro he; cases he
    · intro he
      exfalso; apply h
      intro a
      obtain rfl : a = 0 := Subsingleton.elim _ _
      have := k.isLt
      refine ⟨by omega, ?_⟩
      show _ < (512 : ℤ)
      omega

/-- The vector form at bin `k`: the operand's entry plus the updates whose label is `k`. -/
theorem scatterAdd_vec (x : (⟨1, ![512]⟩ : Shape).Idx → EReal) (idx : IVec ⟨2, ![65536, 1]⟩ w)
    (upd : (⟨1, ![65536]⟩ : Shape).Idx → EReal) (k : Fin 512) :
    Ideal.hostScatterAdd vecDims x idx upd (ix1 k)
      = x (ix1 k) + ∑ n : Fin 65536, if (idx (ix2 n (0 : Fin 1))).toInt = (k.val : ℤ) then upd (ix1 n) else 0 := by
  unfold Ideal.hostScatterAdd
  refine congrArg (x (ix1 k) + ·) ?_
  -- the filtered sum as a sum of guarded terms, re-indexed by the update's one coordinate
  refine (Finset.sum_filter _ _).trans ?_
  refine (Equiv.sum_comp (idxEquiv1 (n := 65536)).symm _).symm.trans ?_
  refine Finset.sum_congr rfl fun n _ => ?_
  show (if vecDims.resultIdx? (ix1 n) idx = some (ix1 k) then upd (ix1 n) else 0) = _
  simp only [vec_resultIdx]

/-! ## The row form -/

/-- The operand's row axis is the axis the start index's single component names. -/
theorem rows_mem : (0 : Fin 2) ∈ rowDims.scatterDimsToOperandDims := List.mem_singleton.mpr rfl

/-- Update `(n, e)` reads its start index at row `n` of the label column, whatever its column `e`: the updates' one
    scatter axis is axis 0. -/
theorem rows_siIdx (n : Fin 65536) (e : Fin 256) :
    rowDims.siIdx (ix2 n e) ⟨List.idxOf (0 : Fin 2) rowDims.scatterDimsToOperandDims, List.idxOf_lt_length_iff.2 rows_mem⟩
      = ix2 n (0 : Fin 1) := by
  funext b
  match b with
  | ⟨0, _⟩ => rfl
  | ⟨1, _⟩ => rfl

/-- On the row axis the window of update `(n, e)` starts at its label, read signed. -/
theorem rows_start0 (n : Fin 65536) (e : Fin 256) (idx : IVec ⟨2, ![65536, 1]⟩ w) :
    rowDims.start (ix2 n e) idx 0 = (idx (ix2 n (0 : Fin 1))).toInt := by
  unfold ScatterDims.start
  rw [dif_pos rows_mem, rows_siIdx]

/-- The column axis is not indexed: the window starts at `0` there. -/
theorem rows_start1 (n : Fin 65536) (e : Fin 256) (idx : IVec ⟨2, ![65536, 1]⟩ w) :
    rowDims.start (ix2 n e) idx 1 = 0 := by
  unfold ScatterDims.start
  rw [dif_neg (by decide)]

/-- The row axis is inserted: the window coordinate on it is `0`. -/
theorem rows_window0 (n : Fin 65536) (e : Fin 256) : rowDims.window (ix2 n e) 0 = 0 := by
  unfold ScatterDims.window
  rw [dif_neg (by decide)]

/-- The column axis is the operand's one kept axis, matched to the updates' window axis: the window coordinate on it is
    the update's column. -/
theorem rows_window1 (n : Fin 65536) (e : Fin 256) : rowDims.window (ix2 n e) 1 = e.val := by
  unfold ScatterDims.window
  rw [dif_pos (by decide)]
  rfl

/-- Update `(n, e')` lands on `(k, e)` exactly when its label, read signed, is `k` and its column is `e`. -/
theorem rows_resultIdx (n : Fin 65536) (e' : Fin 256) (idx : IVec ⟨2, ![65536, 1]⟩ w) (k : Fin 512) (e : Fin 256) :
    rowDims.resultIdx? (ix2 n e') idx = some (ix2 k e)
      ↔ (idx (ix2 n (0 : Fin 1))).toInt = (k.val : ℤ) ∧ e' = e := by
  unfold ScatterDims.resultIdx?
  split
  · rename_i h
    rw [Option.some.injEq]
    constructor
    · intro he
      have h0 := congrArg Fin.val (congrFun he 0)
      have h1 := congrArg Fin.val (congrFun he 1)
      have g0 := (h 0).1
      simp only [rows_start0, rows_window0, rows_start1, rows_window1, ix2] at h0 h1 g0
      refine ⟨by omega, Fin.ext (by omega)⟩
    · rintro ⟨he, rfl⟩
      funext a
      apply Fin.ext
      match a with
      | ⟨0, _⟩ =>
        show (rowDims.start (ix2 n e') idx 0 + (rowDims.window (ix2 n e') 0 : ℤ)).toNat = k.val
        rw [rows_start0, rows_window0]; omega
      | ⟨1, _⟩ =>
        show (rowDims.start (ix2 n e') idx 1 + (rowDims.window (ix2 n e') 1 : ℤ)).toNat = e'.val
        rw [rows_start1, rows_window1]; omega
  · rename_i h
    constructor
    · intro he; cases he
    · rintro ⟨he, rfl⟩
      exfalso; apply h
      intro a
      have := k.isLt
      have := e'.isLt
      match a with
      | ⟨0, _⟩ =>
        show 0 ≤ rowDims.start (ix2 n e') idx 0 + (rowDims.window (ix2 n e') 0 : ℤ)
          ∧ rowDims.start (ix2 n e') idx 0 + (rowDims.window (ix2 n e') 0 : ℤ) < (512 : ℤ)
        rw [rows_start0, rows_window0]; omega
      | ⟨1, _⟩ =>
        show 0 ≤ rowDims.start (ix2 n e') idx 1 + (rowDims.window (ix2 n e') 1 : ℤ)
          ∧ rowDims.start (ix2 n e') idx 1 + (rowDims.window (ix2 n e') 1 : ℤ) < (256 : ℤ)
        rw [rows_start1, rows_window1]; omega

/-- The row form at row `k`, column `e`: the operand's entry plus column `e` of the update rows whose label is `k`. -/
theorem scatterAdd_rows (x : (⟨2, ![512, 256]⟩ : Shape).Idx → EReal) (idx : IVec ⟨2, ![65536, 1]⟩ w)
    (upd : (⟨2, ![65536, 256]⟩ : Shape).Idx → EReal) (k : Fin 512) (e : Fin 256) :
    Ideal.hostScatterAdd rowDims x idx upd (ix2 k e)
      = x (ix2 k e) + ∑ n : Fin 65536, if (idx (ix2 n (0 : Fin 1))).toInt = (k.val : ℤ) then upd (ix2 n e) else 0 := by
  unfold Ideal.hostScatterAdd
  refine congrArg (x (ix2 k e) + ·) ?_
  -- the filtered sum as a double sum of guarded terms over row and column
  refine (Finset.sum_filter _ _).trans ?_
  refine (sum_idx2 _).trans ?_
  refine Finset.sum_congr rfl fun n _ => ?_
  show (∑ e' : Fin 256, if rowDims.resultIdx? (ix2 n e') idx = some (ix2 k e) then upd (ix2 n e') else 0) = _
  simp only [rows_resultIdx]
  -- within row `n` only column `e` can contribute, and does when the label is `k`
  by_cases hk : (idx (ix2 n (0 : Fin 1))).toInt = (k.val : ℤ)
  · simp only [hk, true_and, if_true]
    exact Finset.sum_ite_eq' Finset.univ e (fun e' => upd (ix2 n e')) |>.trans (if_pos (Finset.mem_univ e))
  · simp only [hk, false_and, if_false]
    exact Finset.sum_const_zero

/-- A label that is the word of a number below 512 reads, signed, as that number. -/
theorem toInt_label (l : Fin 512) : (BitVec.ofNat 32 l.val).toInt = (l.val : ℤ) := by
  have := l.isLt
  rw [BitVec.toInt_eq_toNat_of_lt (by simp [BitVec.toNat_ofNat]; omega)]
  simp [BitVec.toNat_ofNat]; omega

end Cert.ProtoLoss.SegmentSum

end
-- ==== Proof.GlueMath.lean ====
/-
  The host arithmetic around the kernel's two regions, as pure functions of arrays, and what each holds at an index over
  the extended reals.
  * Between the regions: the two per-core halves of the label sums are added (a sum over the leading axis of two), the
    label counts are a segment sum of ones, floored at one, and the quotient is the kernel's prototype; the prototypes'
    norms are the square roots of their rows' sums of squares, laid out as one row.
  * After the second region: entry (0,0,0) and entry (1,0,0) of its result are added and divided by the number of rows.
  Splitting a sum over all rows by the half a row lies in (`sum_halves`) joins the per-core halves to the whole sums.
-/
import proofs.«428232_j56435870269925_3_alg».proof.Proof.Gen.KernelIdeal
import proofs.«428232_j56435870269925_3_alg».proof.Proof.Spec
import proofs.«428232_j56435870269925_3_alg».proof.Proof.SegmentSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Glue

open Cert.KernelIdeal Cert.KernelIdeal.Facts₀ Cert.KernelIdeal.Facts Cert.ProtoLoss
open Idealize.ShloMosaic Idealize.ShloMosaic.ValueIdx

/-! ## The host terms -/

section terms

variable {F : FTy → Type} [FloatOps F]

/-- The label counts: a segment sum of ones. -/
def countsOf (t : (⟨S65536, .i32⟩ : BufTy).Contents (Elt F)) : (⟨S512, .f32⟩ : BufTy).Contents (Elt F) :=
  Host.scatterAdd scatter_S512_S65536x1_S65536_n_0_0_1
    (broadcastInDim S512 ![] bcast_S_S512 (constant S_ .f32 0x00000000#32))
    (broadcastInDim S65536x1 ![0] bcast_S65536_S65536x1_0 t)
    (broadcastInDim S65536 ![] bcast_S_S65536 (constant S_ .f32 0x3F800000#32))

/-- The kernel's prototypes from the two halves `P` of the label sums and the labels `t`. -/
def protosOf (P : (⟨S2x512x256, .f32⟩ : BufTy).Contents (Elt F)) (t : (⟨S65536, .i32⟩ : BufTy).Contents (Elt F)) :
    (⟨S512x256, .f32⟩ : BufTy).Contents (Elt F) :=
  Host.divf (Host.reduceAdd P (constant S_ .f32 0x00000000#32) reducesTo_S2x512x256_S512x256_d0 h_S_)
    (broadcastInDim S512x256 ![0, 1] bcast_S512x1_S512x256_0_1
      (shapeCast S512x1 (maximumf (countsOf t) (broadcastInDim S512 ![] bcast_S_S512 (constant S_ .f32 0x3F800000#32)))
        shapeCasts_S512_S512x1))

/-- The prototypes' norms, as one row. -/
def normsOf (Q : (⟨S512x256, .f32⟩ : BufTy).Contents (Elt F)) : (⟨S1x512, .f32⟩ : BufTy).Contents (Elt F) :=
  shapeCast S1x512 (Host.sqrt (Host.reduceAdd (mulf Q Q) (constant S_ .f32 0x00000000#32) reducesTo_S512x256_S512_d1 h_S_))
    shapeCasts_S512_S1x512

/-- The result from the second region's array `L`: its two cores' totals added, over the number of rows. -/
def meanOf (L : (⟨S2x8x128, .f32⟩ : BufTy).Contents (Elt F)) : (⟨S_, .f32⟩ : BufTy).Contents (Elt F) :=
  Host.divf
    (addf (shapeCast S_ (extractStridedSlice S1x1x1 ![0, 0, 0] L slices_S2x8x128_S1x1x1_0_0_0) shapeCasts_S1x1x1_S_)
      (shapeCast S_ (extractStridedSlice S1x1x1 ![1, 0, 0] L slices_S2x8x128_S1x1x1_1_0_0) shapeCasts_S1x1x1_S_))
    (constant S_ .f32 0x47800000#32)

end terms

/-! ## Words -/

/-- The pattern of 1.0 is the number one. -/
theorem one_word : Ideal.ofBits .f32 0x3F800000#32 = 1 := by
  simp [Ideal.ofBits, Ideal.ieee]
  rw [← EReal.coe_mul, ← EReal.coe_one]
  congr 1
  norm_num

/-- The similarity floor is a positive real. -/
theorem eps_word : ∃ e : ℝ, 0 < e ∧ Ideal.ofBits .f32 0x322BCC77#32 = (e : EReal) := by
  refine ⟨_, ?_, by simp [Ideal.ofBits, Ideal.ieee]; rfl⟩
  positivity

/-! ## A sum over the rows, split by halves -/

/-- Every row lies in exactly one of the two halves, so the two halves' shares add up to the whole sum. -/
theorem sum_halves (f : Fin 65536 → EReal) :
    (∑ n : Fin 65536, if n.val / 32768 = (0 : Fin 2).val then f n else 0)
      + (∑ n : Fin 65536, if n.val / 32768 = (1 : Fin 2).val then f n else 0) = ∑ n : Fin 65536, f n := by
  rw [← Finset.sum_add_distrib]
  refine Finset.sum_congr rfl fun n _ => ?_
  have hn : n.val / 32768 = 0 ∨ n.val / 32768 = 1 := by have := n.isLt; omega
  rcases hn with h | h
  · rw [if_pos (by simpa using h), if_neg (by simp [h]), add_zero]
  · rw [if_neg (by simp [h]), if_pos (by simpa using h), zero_add]

/-! ## The terms at an index -/

variable (x : Fin 65536 → Fin 256 → EReal) (lab : Fin 65536 → Fin 512)

/-- A label's word equals another label's word exactly when the labels are equal. -/
theorem label_test (l k : Fin 512) : ((BitVec.ofNat 32 l.val).toInt = (k.val : ℤ)) ↔ l = k := by
  rw [SegmentSum.toInt_label]
  exact ⟨fun h => Fin.ext (by exact_mod_cast h), fun h => by rw [h]⟩

/-- A host quotient at an index is the quotient of the entries. -/
theorem hostDivf_apply {s : Shape} (A B : FVec Ideal s .f32) (i : s.Idx) : Host.divf A B i = Ideal.div (A i) (B i) := rfl

/-- A host square root at an index is the root of the entry. -/
theorem hostSqrt_apply {s : Shape} (A : FVec Ideal s .f32) (i : s.Idx) : Host.sqrt A i = Ideal.sqrt (A i) := rfl

/-- The counts at label `k`. -/
theorem countsOf_apply (t : (⟨S65536, .i32⟩ : BufTy).Contents (Elt Ideal))
    (ht : ∀ n : Fin 65536, t (ix1 n) = BitVec.ofNat 32 (lab n).val) (k : Fin 512) :
    countsOf (F := Ideal) t (ix1 k) = ProtoLoss.count lab k := by
  unfold countsOf
  simp only [Host.scatterAdd, Ideal.hostScatterAdd_def]
  refine (SegmentSum.scatterAdd_vec _ _ _ k).trans ?_
  rw [broadcastInDim_apply _ bcast_S_S512 _ (ix1 k) ix0 (fun a => a.elim0), constant_apply, Ideal.ofBits_zero_f32, zero_add]
  unfold ProtoLoss.count
  refine Fintype.sum_congr _ _ fun n => ?_
  rw [broadcastInDim_apply _ bcast_S65536_S65536x1_0 t (ix2 n (0 : Fin 1)) (ix1 n) (fun a => match a with
      | ⟨0, _⟩ => by show n.val = if (65536 : Nat) = 1 then 0 else n.val; rw [if_neg (by decide)]),
    broadcastInDim_apply _ bcast_S_S65536 _ (ix1 n) ix0 (fun a => a.elim0), constant_apply, one_word, ht n]
  exact if_congr (label_test (lab n) k) rfl rfl

/-- The two halves of the label sums, added, at (k, d). -/
theorem sums_apply (P : (⟨S2x512x256, .f32⟩ : BufTy).Contents (Elt Ideal))
    (hP : ∀ (q : Fin 2) (k : Fin 512) (d : Fin 256), P (ix3 q k d) = partSum x lab q k d) (k : Fin 512) (d : Fin 256) :
    Host.reduceAdd (F := Ideal) P (constant S_ .f32 0x00000000#32) reducesTo_S2x512x256_S512x256_d0 h_S_ (ix2 k d)
      = segSum x lab k d := by
  simp only [Host.reduceAdd, Ideal.hostReduceAdd_def]
  rw [Ideal.hostReduceAdd_single reducesTo_S2x512x256_S512x256_d0 (by decide), constant_apply, Ideal.ofBits_zero_f32, zero_add]
  erw [Fin.sum_univ_two]
  refine (congrArg₂ (· + ·)
    ((congrArg P (funext fun a => Fin.ext (by match a with | ⟨0, _⟩ => rfl | ⟨1, _⟩ => rfl | ⟨2, _⟩ => rfl))).trans (hP 0 k d))
    ((congrArg P (funext fun a => Fin.ext (by match a with | ⟨0, _⟩ => rfl | ⟨1, _⟩ => rfl | ⟨2, _⟩ => rfl))).trans (hP 1 k d))).trans ?_
  unfold partSum segSum
  exact sum_halves (fun n => if lab n = k then x n d else 0)

/-- The floored counts, as the column the quotient broadcasts, at (k, d). -/
theorem floor_apply (t : (⟨S65536, .i32⟩ : BufTy).Contents (Elt Ideal))
    (ht : ∀ n : Fin 65536, t (ix1 n) = BitVec.ofNat 32 (lab n).val) (k : Fin 512) (d : Fin 256) :
    broadcastInDim S512x256 ![0, 1] bcast_S512x1_S512x256_0_1
      (shapeCast S512x1 (maximumf (countsOf (F := Ideal) t) (broadcastInDim S512 ![] bcast_S_S512 (constant (F := Ideal) S_ .f32 0x3F800000#32)))
        shapeCasts_S512_S512x1) (ix2 k d) = max (ProtoLoss.count lab k) 1 := by
  rw [broadcastInDim_apply _ bcast_S512x1_S512x256_0_1 _ (ix2 k d) (ix2 k (0 : Fin 1)) (fun a => match a with
      | ⟨0, _⟩ => by show k.val = if (512 : Nat) = 1 then 0 else k.val; rw [if_neg (by decide)]
      | ⟨1, _⟩ => by show 0 = if (1 : Nat) = 1 then 0 else d.val; rw [if_pos rfl])]
  rw [shapeCast_apply _ shapeCasts_S512_S512x1 (ix2 k (0 : Fin 1)) (ix1 k) (by
      rw [Shape.rowMajor_val_two, Shape.rowMajor_val_one]; show k.val = k.val * 1 + 0; omega)]
  rw [maximumf_apply, countsOf_apply lab t ht k,
    broadcastInDim_apply _ bcast_S_S512 _ (ix1 k) ix0 (fun a => a.elim0), constant_apply, one_word]

/-- The kernel's prototypes at (k, d), when `P` holds the two halves of the label sums. -/
theorem protosOf_apply (P : (⟨S2x512x256, .f32⟩ : BufTy).Contents (Elt Ideal)) (t : (⟨S65536, .i32⟩ : BufTy).Contents (Elt Ideal))
    (hP : ∀ (q : Fin 2) (k : Fin 512) (d : Fin 256), P (ix3 q k d) = partSum x lab q k d)
    (ht : ∀ n : Fin 65536, t (ix1 n) = BitVec.ofNat 32 (lab n).val) (k : Fin 512) (d : Fin 256) :
    protosOf (F := Ideal) P t (ix2 k d) = protoK x lab k d := by
  unfold protosOf protoK
  rw [hostDivf_apply, sums_apply x lab P hP k d, floor_apply lab t ht k d]

/-- The prototypes' norms at (0, k), for prototypes `Q` with entries `p`. -/
theorem normsOf_apply (Q : (⟨S512x256, .f32⟩ : BufTy).Contents (Elt Ideal)) (p : Fin 512 → Fin 256 → EReal)
    (hQ : ∀ (k : Fin 512) (d : Fin 256), Q (ix2 k d) = p k d) (k : Fin 512) :
    normsOf (F := Ideal) Q (ix2 (0 : Fin 1) k) = normP p k := by
  unfold normsOf normP
  rw [shapeCast_apply _ shapeCasts_S512_S1x512 (ix2 (0 : Fin 1) k) (ix1 k) (by
      rw [Shape.rowMajor_val_two, Shape.rowMajor_val_one]; show k.val = 0 * 512 + k.val; omega),
    hostSqrt_apply]
  refine congrArg Ideal.sqrt ?_
  simp only [Host.reduceAdd, Ideal.hostReduceAdd_def]
  rw [Ideal.hostReduceAdd_single reducesTo_S512x256_S512_d1 (by decide), constant_apply, Ideal.ofBits_zero_f32, zero_add]
  refine Fintype.sum_congr _ _ fun d => ?_
  have e : (Shape.Reduces.lift (s := S512x256) (t := S512) (a := 1) (by decide) (ix1 k) d) = ix2 k d :=
    funext fun a => Fin.ext (by match a with | ⟨0, _⟩ => rfl | ⟨1, _⟩ => rfl)
  rw [mulf_apply]
  erw [e, hQ k d]

/-- The one-element arrays the tail slices out have one index. -/
instance subsingleton_unit3 : Subsingleton S1x1x1.Idx := ⟨fun a b => funext fun d => by
  match d with
  | ⟨0, _⟩ => exact Subsingleton.elim (α := Fin 1) _ _
  | ⟨1, _⟩ => exact Subsingleton.elim (α := Fin 1) _ _
  | ⟨2, _⟩ => exact Subsingleton.elim (α := Fin 1) _ _⟩

/-- Core `q`'s total, picked out of the second region's array by a one-element slice and read as a scalar. -/
theorem pick_apply (L : (⟨S2x8x128, .f32⟩ : BufTy).Contents (Elt Ideal)) (q : Fin 2) (off : Fin 3 → Nat) (hoff : off = ![q.val, 0, 0])
    (h : S2x8x128.Slices off S1x1x1) :
    shapeCast S_ (extractStridedSlice S1x1x1 off L h) shapeCasts_S1x1x1_S_ ix0 = L (ix3 q (0 : Fin 8) (0 : Fin 128)) := by
  subst hoff
  unfold shapeCast
  refine (congrArg _ (Subsingleton.elim _ (ix3 (0 : Fin 1) (0 : Fin 1) (0 : Fin 1)))).trans ?_
  refine extractStridedSlice_apply _ L h _ _ fun a => ?_
  match a with
  | ⟨0, _⟩ => show q.val = q.val + 0; omega
  | ⟨1, _⟩ => show 0 = 0 + 0; rfl
  | ⟨2, _⟩ => show 0 = 0 + 0; rfl

/-- The two halves of the row losses add up to the sum over all rows. -/
theorem partLoss_add (eps : EReal) (p : Fin 512 → Fin 256 → EReal) :
    partLoss x lab eps p 0 + partLoss x lab eps p 1 = ∑ n : Fin 65536, nllK x lab eps p n := by
  unfold partLoss
  exact sum_halves (fun n => nllK x lab eps p n)

/-- The result from the second region's array, when every entry of slab `q` is half `q`'s sum of the row losses over
    the kernel's prototypes: the kernel's mean loss. -/
theorem meanOf_apply (L : (⟨S2x8x128, .f32⟩ : BufTy).Contents (Elt Ideal)) (eps : EReal)
    (hL : ∀ (q : Fin 2) (a : Fin 8) (b : Fin 128), L (ix3 q a b) = partLoss x lab eps (protoK x lab) q) :
    meanOf (F := Ideal) L ix0 = lossK x lab eps (Ideal.ofBits .f32 0x47800000#32) := by
  unfold meanOf lossK
  rw [hostDivf_apply, addf_apply, constant_apply]
  refine congrArg (Ideal.div · _) ?_
  refine (congrArg₂ (· + ·)
    ((pick_apply L 0 ![0, 0, 0] rfl slices_S2x8x128_S1x1x1_0_0_0).trans (hL 0 0 0))
    ((pick_apply L 1 ![1, 0, 0] rfl slices_S2x8x128_S1x1x1_1_0_0).trans (hL 1 0 0))).trans ?_
  exact partLoss_add x lab eps (protoK x lab)

end Cert.KernelIdeal.Glue

end
-- ==== Proof.LibTRefCast.lean ====
/-
  Typed references of a called function's values: a value written through a typed reference and read back through
  the same reference is the value, whatever proofs the two spellings of the reference carry.
-/
import Idealize.ShloMosaic.Lib.StableHlo

namespace Cert.Lib

open Idealize.ShloMosaic Idealize.ShloMosaic.StableHlo

/-- Contents stored at the value's type as contents of the buffer and read back at the value's type are unchanged:
    the two transports along the reference's type equation cancel. -/
theorem ofBuf_toBuf {sig : RefSig} {Val : EltTy → Type} {T : BufTy} (x : TRef sig T) (v : T.Contents Val) :
    x.ofBuf (x.toBuf v) = v := by
  obtain ⟨r, h, a, b⟩ := x
  subst h
  rfl

end Cert.Lib
-- ==== Proof.GlueIn.lean ====
/-
  What the kernel program's buffers hold at the boundaries between its host stretches and its two regions, as the host
  terms of Proof/GlueMath.lean: the rows and the labels reach both regions as launched (the labels as a column), the
  second region's prototypes and norms are `protosOf` and `normsOf` of the first region's result and the labels, and the
  program's result is `meanOf` of the second region's result. A stretch leaves every buffer it does not write; a region
  leaves its input arrays.
-/
import proofs.«428232_j56435870269925_3_alg».proof.Proof.Gen.KernelIdeal.Frame
import proofs.«428232_j56435870269925_3_alg».proof.Proof.GlueMath
import proofs.«428232_j56435870269925_3_alg».proof.Proof.LibTRefCast
import Idealize.ShloMosaic.Lib.StableHlo.Run
import Idealize.ShloMosaic.Lib.Pipeline.Value

set_option maxRecDepth 16384

noncomputable section

namespace Cert.KernelIdeal.Glue

open Cert.KernelIdeal Cert.KernelIdeal.Gen
open Idealize.ShloMosaic Idealize.ShloMosaic.TcCoe Idealize.ShloMosaic.StableHlo Idealize.SL.Sem
open Idealize.ShloMosaic.Pipeline (Dat)

variable {F : FTy → Type} [FloatOps F]
variable (m : (ℓ : Loc nD τ sig) → Buf (Elt F) ℓ) (ρ : Dev nD → PrngReg)

/-- A stretch of host operations leaves a buffer none of them writes. -/
local macro "stretch_keeps " ops:ident : tactic => `(tactic|
  exact StableHlo.after_of_forall_not_mem _ _ (List.forall_iff_forall_mem.mp (by
    simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The first region's entry -/

theorem W1_arg0 (c : Dev nD) : W1 m ρ c (Proc.devRef .tc main_arg0) = m ((c : Thread nD τ).loc main_arg0) :=
  (show StableHlo.after hostOps0 (W0 m ρ c) (Proc.devRef .tc main_arg0) = W0 m ρ c (Proc.devRef .tc main_arg0) by
    stretch_keeps hostOps0).trans rfl

theorem W1_arg1 (c : Dev nD) : W1 m ρ c (Proc.devRef .tc main_arg1) = m ((c : Thread nD τ).loc main_arg1) :=
  (show StableHlo.after hostOps0 (W0 m ρ c) (Proc.devRef .tc main_arg1) = W0 m ρ c (Proc.devRef .tc main_arg1) by
    stretch_keeps hostOps0).trans rfl

/-- The labels enter the regions as a column. -/
theorem W1_v0 (c : Dev nD) : W1 m ρ c (Proc.devRef .tc main_v0)
    = shapeCast S65536x1 (m ((c : Thread nD τ).loc main_arg1)) shapeCasts_S65536_S65536x1 := by
  show StableHlo.after hostOps0 (W0 m ρ c) (Proc.devRef .tc main_v0) = _
  after_results
  rfl

/-! ## Between the regions -/

theorem W2_arg0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))

theorem W2_v0 (c : Dev nD) : W2 m ρ c (Proc.devRef .tc main_v0) = W1 m ρ c (Proc.devRef .tc main_v0) :=
  (W2_arr m ρ c 1).trans (((dat0 (V1 m ρ) c).arrAt_in 1 rfl _).trans (A_eq0 (V1 m ρ) c 1))

theorem W2_arg1 (c : Dev nD) : W2 m ρ c (Proc.devRef .tc main_arg1) = m ((c : Thread nD τ).loc main_arg1) :=
  (W2_of_ne m ρ c main_arg1 (by decide)).trans (W1_arg1 m ρ c)

/-- The first region's result array is what its pipeline leaves. -/
theorem W2_v1 (c : Dev nD) : W2 m ρ c (Proc.devRef .tc main_v1) = (dat0 (V1 m ρ) c).arrAt 2 cfg0.N :=
  W2_arr m ρ c 2

/-- The prototypes the second region is handed. -/
theorem W3_v11 (c : Dev nD) : W3 m ρ c (Proc.devRef .tc main_v11)
    = protosOf (W2 m ρ c (Proc.devRef .tc main_v1)) (W2 m ρ c (Proc.devRef .tc main_arg1)) := by
  show StableHlo.after hostOps1 (W2 m ρ c) (Proc.devRef .tc main_v11) = _
  after_results
  rfl

theorem W5_of_W3 (c : Dev nD) (b : Ref sig .tc)
    (h1 : StableHlo.after hostOps1_1 (W3 m ρ c) (Proc.devRef .tc b) = W3 m ρ c (Proc.devRef .tc b))
    (h2 : StableHlo.after hostOps1_2 (W4 m ρ c) (Proc.devRef .tc b) = W4 m ρ c (Proc.devRef .tc b)) :
    W5 m ρ c (Proc.devRef .tc b) = W3 m ρ c (Proc.devRef .tc b) := h2.trans h1

theorem W3_of_W2 (c : Dev nD) (b : Ref sig .tc)
    (h : StableHlo.after hostOps1 (W2 m ρ c) (Proc.devRef .tc b) = W2 m ρ c (Proc.devRef .tc b)) :
    W3 m ρ c (Proc.devRef .tc b) = W2 m ρ c (Proc.devRef .tc b) := h

theorem W5_v11 (c : Dev nD) : W5 m ρ c (Proc.devRef .tc main_v11) = W3 m ρ c (Proc.devRef .tc main_v11) :=
  W5_of_W3 m ρ c main_v11 (by stretch_keeps hostOps1_1) (by stretch_keeps hostOps1_2)

theorem W5_arg0 (c : Dev nD) : W5 m ρ c (Proc.devRef .tc main_arg0) = m ((c : Thread nD τ).loc main_arg0) :=
  (W5_of_W3 m ρ c main_arg0 (by stretch_keeps hostOps1_1) (by stretch_keeps hostOps1_2)).trans
    ((W3_of_W2 m ρ c main_arg0 (by stretch_keeps hostOps1)).trans ((W2_arg0 m ρ c).trans (W1_arg0 m ρ c)))

theorem W5_v0 (c : Dev nD) : W5 m ρ c (Proc.devRef .tc main_v0)
    = shapeCast S65536x1 (m ((c : Thread nD τ).loc main_arg1)) shapeCasts_S65536_S65536x1 :=
  (W5_of_W3 m ρ c main_v0 (by stretch_keeps hostOps1_1) (by stretch_keeps hostOps1_2)).trans
    ((W3_of_W2 m ρ c main_v0 (by stretch_keeps hostOps1)).trans ((W2_v0 m ρ c).trans (W1_v0 m ρ c)))

/-- Two transports along a typed reference's type equation that are the identity: the called function's argument and
    its result are buffers of the value's own type. -/
theorem ofBuf_v11 (h1 : (main_v11 : Ref sig .tc).ty = (⟨S512x256, .f32⟩ : BufTy)) (h2 h3)
    (v : (⟨S512x256, .f32⟩ : BufTy).Contents (Elt F)) :
    (TRef.of (sig := sig) (T := ⟨S512x256, .f32⟩) main_v11 h1 h2 h3).ofBuf v = v := rfl
theorem toBuf_v12 (h1 : (main_v12 : Ref sig .tc).ty = (⟨S512, .f32⟩ : BufTy)) (h2 h3)
    (v : (⟨S512, .f32⟩ : BufTy).Contents (Elt F)) :
    (TRef.of (sig := sig) (T := ⟨S512, .f32⟩) main_v12 h1 h2 h3).toBuf v = v := rfl

/-- The prototypes' norms the second region is handed. -/
theorem W5_v13 (c : Dev nD) : W5 m ρ c (Proc.devRef .tc main_v13) = normsOf (W3 m ρ c (Proc.devRef .tc main_v11)) := by
  show StableHlo.after hostOps1_2 (StableHlo.after hostOps1_1 (W3 m ρ c)) (Proc.devRef .tc main_v13) = _
  after_results
  simp only [Cert.Lib.ofBuf_toBuf, ofBuf_v11, toBuf_v12]
  rfl

/-! ## After the second region -/

/-- The second region's result array is what its pipeline leaves. -/
theorem W6_v14 (c : Dev nD) : W6 m ρ c (Proc.devRef .tc main_v14) = (dat1 (V5 m ρ) c).arrAt 4 cfg1.N :=
  W6_arr m ρ c 4

/-- The program's result. -/
theorem W7_v20 (c : Dev nD) : W7 m ρ c (Proc.devRef .tc main_v20) = meanOf (W6 m ρ c (Proc.devRef .tc main_v14)) := by
  show StableHlo.after hostOps2 (W6 m ρ c) (Proc.devRef .tc main_v20) = _
  after_results
  rfl

end Cert.KernelIdeal.Glue

end
-- ==== Proof.LibTileSum.lean ====
/-
  Sums over consecutive tiles, and a 0/1 factor in a product of extended reals.

  A kernel that sweeps an axis of T·S elements in S tiles of T produces a sum grouped by tile; a reference sums the
  axis in one go.  `sum_range_tiles` and `sum_fin_tiles` join the two groupings, in any commutative monoid (for the
  extended reals no finiteness is needed).  `indicator_mul` turns the product of a 0/1 factor with an extended real
  into a choice between that real and 0: what a one-hot matrix product contributes term by term.
-/
import Idealize.ShloMosaic.Lib.ValueIdx

noncomputable section

namespace Cert.Lib

/-- A 0/1 factor times an extended real x is x where the factor is 1 and 0 where it is 0 (0 · x = 0 also at ±∞). The
    two conditions may be spelt differently (`hpq`). -/
theorem indicator_mul {p q : Prop} [Decidable p] [Decidable q] (hpq : p ↔ q) (x : EReal) :
    (if p then (1 : EReal) else 0) * x = if q then x else 0 := by
  by_cases h : p
  · rw [if_pos h, if_pos (hpq.mp h), one_mul]
  · rw [if_neg h, if_neg (fun hq => h (hpq.mpr hq)), zero_mul]

/-- A sum over S consecutive stretches of T naturals each is the sum over the first T·S naturals. -/
theorem sum_range_tiles {M : Type*} [AddCommMonoid M] (T : ℕ) (H : ℕ → M) :
    ∀ S : ℕ, ∑ s ∈ Finset.range S, ∑ k ∈ Finset.range T, H (T * s + k) = ∑ e ∈ Finset.range (T * S), H e
  | 0 => by simp
  | S + 1 => by
    rw [Finset.sum_range_succ, sum_range_tiles T H S, Nat.mul_succ, Finset.sum_range_add]

/-- The same with the position inside a tile, and the position on the whole axis, as `Fin` indices: S tiles of T
    elements are the T·S elements. -/
theorem sum_fin_tiles {M : Type*} [AddCommMonoid M] (T S : ℕ) (H : ℕ → M) :
    ∑ s ∈ Finset.range S, ∑ k : Fin T, H (T * s + k.val) = ∑ e : Fin (T * S), H e.val := by
  rw [Fin.sum_univ_eq_sum_range H (T * S), ← sum_range_tiles T H S]
  refine Finset.sum_congr rfl fun s _ => ?_
  exact Fin.sum_univ_eq_sum_range (fun x => H (T * s + x)) T

end Cert.Lib

end
-- ==== Proof.LibSoftmaxRows.lean ====
/-
  Softmax along the rows of a rank-two array, as a vector program spells it, read at an index.

  For an array `s` of shape [a, b] the program takes each row's maximum by a reduction over the second axis from -∞
  (and joins the result with -∞ once more, which changes nothing), views the [a] vector of maxima as an [a, 1] column
  and broadcasts the column across the row, subtracts, exponentiates, sums each row of exponentials from 0 the same
  way, broadcasts the sums, and divides.  At the ideal values every one of these is the textbook operation on the
  extended reals, so entry (i, j) of the result is

      exp (s i j - M i) / ∑ j', exp (s i j' - M i),     M i = max (-∞) (max over j of s i j),

  with the maximum a fold of `max` over the row's coordinates and the quotient the extended reals' `Ideal.div`.
  The two column forms of a layout operation that the reading needs — an [a] vector viewed as [a, 1], an [a, 1]
  column broadcast to [a, b] — are stated first; then a row reduction over the second axis at row `i`; then the
  composite.  Nothing here depends on a particular kernel: shapes are generic in `a` and `b`.
-/
import Idealize.ShloMosaic.PureOps.Ideal.Laws
import Idealize.ShloMosaic.Lib.ValueIdx
import Idealize.ShloMosaic.Lib.Pipeline.Value

noncomputable section

namespace Cert.Lib.SoftmaxRows

open Idealize.ShloMosaic Idealize.ShloMosaic.ValueIdx

variable {α : Type} {a b : ℕ}

/-! ## Two column forms of a layout operation -/

/-- An [a] vector viewed as an [a, 1] column reads, at (i, u), the vector at i: both have row-major position i. -/
theorem colCast_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast across [a, b] reads, at (i, j), the column at (i, 0). -/
theorem colBroadcast_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ fun c => match c with
    | ⟨0, _⟩ => by
        show i.val = if a = 1 then 0 else i.val
        have := i.isLt
        split_ifs <;> omega
    | ⟨1, _⟩ => by
        show (0 : ℕ) = if (1 : ℕ) = 1 then 0 else j.val
        rw [if_pos rfl]

/-! ## A reduction over the second axis, at row i -/

/-- Row i's index with the column coordinate j put back is (i, j). -/
theorem lift_row (h : (⟨2, ![a, b]⟩ : Shape).Reduces [1] ⟨1, ![a]⟩) (i : Fin a) (j : Fin b) :
    h.lift (ix1 i) j = ix2 i j :=
  funext fun c => Fin.ext (by match c with | ⟨0, _⟩ => rfl | ⟨1, _⟩ => rfl)

variable {φ : FTy}

/-- A maximum-reduction over the second axis is, at row i, the fold of `max` from the accumulator's value over the
    row's entries. -/
theorem rowMax_apply (s : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ s acc h hφ hacc (ix1 i)
      = (Finset.univ : Finset (Fin b)).fold max (Ideal.ofBits φ acc) (fun j => s (ix2 i j)) := by
  rw [Ideal.multiReduction_maximumf_single]
  have e : (s ∘ h.lift (ix1 i)) = fun j : Fin b => s (ix2 i j) := funext fun j => congrArg s (lift_row h i j)
  rw [e]
  rfl

/-- A sum-reduction over the second axis is, at row i, the sum of the row's entries. -/
theorem rowSum_apply (s : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ s acc h hφ hacc (ix1 i) = ∑ j : Fin b, s (ix2 i j) := by
  rw [Ideal.multiReduction_add_single]
  exact Finset.sum_congr rfl fun j _ => congrArg s (lift_row h i j)

/-! ## The same row maximum as a host reduction over the last axis of a rank-three array -/

/-- Row (p, i)'s index with the last coordinate j put back is (p, i, j). -/
theorem lift_row3 {c : ℕ} (h : (⟨3, ![a, b, c]⟩ : Shape).Reduces [2] ⟨2, ![a, b]⟩) (p : Fin a) (i : Fin b) (j : Fin c) :
    h.lift (ix2 p i) j = ix3 p i j :=
  funext fun d => Fin.ext (by match d with | ⟨0, _⟩ => rfl | ⟨1, _⟩ => rfl | ⟨2, _⟩ => rfl)

/-- A host reduction by `max` over the last axis is, at (p, i), the fold of `max` from the initial value over the
    entries (p, i, ·). -/
theorem hostRowMax_apply {c : ℕ} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (i : Fin b) :
    Host.reduce (FloatOps.maximumf (F := Ideal) (φ := φ)) x init h' hu (ix2 p i)
      = (Finset.univ : Finset (Fin c)).fold max (init (Shape.Idx.first hu)) (fun j => x (ix3 p i j)) := by
  refine (Host.reduce_eq_fold_single (FloatOps.maximumf (F := Ideal) (φ := φ)) x init h' h hu (ix2 p i)).trans ?_
  have e : (x ∘ h.lift (ix2 p i)) = fun j : Fin c => x (ix3 p i j) := funext fun j => congrArg x (lift_row3 h p i j)
  rw [e]
  rfl

/-! ## The composite -/

/-- The f32 pattern of -∞, which every maximum here starts from. -/
abbrev negInf : EReal := Ideal.ofBits .f32 0xFF800000#32

/-- A row's maximum as the program takes it: the fold of `max` from -∞ over the row, joined with -∞ once more. -/
def rowTop (r : Fin b → EReal) : EReal := max negInf ((Finset.univ : Finset (Fin b)).fold max negInf r)

/-- A row's softmax weight at column j: the exponential of the entry less the row's maximum, over the sum of the
    row's such exponentials (the extended reals' quotient). -/
def rowWeight (r : Fin b → EReal) (j : Fin b) : EReal :=
  Ideal.div (Ideal.exp (r j - rowTop r)) (∑ j' : Fin b, Ideal.exp (r j' - rowTop r))

section Program
variable (s : FVec Ideal ⟨2, ![a, b]⟩ .f32) (hr : (⟨2, ![a, b]⟩ : Shape).Reduces [1] ⟨1, ![a]⟩)
  (hc : (⟨1, ![a]⟩ : Shape).ShapeCasts ⟨2, ![a, 1]⟩) (hb : (⟨2, ![a, 1]⟩ : Shape).Broadcasts ⟨2, ![a, b]⟩)

/-- The vector of row maxima, in the program's operations. -/
def rowTopVec : FVec Ideal ⟨1, ![a]⟩ .f32 :=
  maximumf (broadcast ⟨1, ![a]⟩ (Scalar.ofBits .f32 0xFF800000#32))
    (multiReduction .maximumf [1] ⟨1, ![a]⟩ s 0xFF800000#32 hr (.inl rfl) rfl)

/-- The exponentials of the entries less their row's maximum, in the program's operations. -/
def expRows : FVec Ideal ⟨2, ![a, b]⟩ .f32 :=
  exp (subf s (broadcastTo ⟨2, ![a, b]⟩ (shapeCast ⟨2, ![a, 1]⟩ (rowTopVec s hr) hc) hb))

/-- Softmax along the rows, in the program's operations. -/
def softmaxRows : FVec Ideal ⟨2, ![a, b]⟩ .f32 :=
  divf (expRows s hr hc hb)
    (broadcastTo ⟨2, ![a, b]⟩ (shapeCast ⟨2, ![a, 1]⟩
      (multiReduction .add [1] ⟨1, ![a]⟩ (expRows s hr hc hb) 0x00000000#32 hr (.inl rfl) rfl) hc) hb)

theorem rowTopVec_apply (i : Fin a) : rowTopVec s hr (ix1 i) = rowTop fun j => s (ix2 i j) := by
  unfold rowTopVec rowTop
  exact congrArg (max negInf) (rowMax_apply s 0xFF800000#32 hr (.inl rfl) rfl i)

theorem expRows_apply (i : Fin a) (j : Fin b) :
    expRows s hr hc hb (ix2 i j) = Ideal.exp (s (ix2 i j) - rowTop fun j' => s (ix2 i j')) := by
  unfold expRows
  show Ideal.exp (s (ix2 i j) - broadcastTo ⟨2, ![a, b]⟩ (shapeCast ⟨2, ![a, 1]⟩ (rowTopVec s hr) hc) hb (ix2 i j)) = _
  rw [colBroadcast_apply, colCast_apply, rowTopVec_apply]

/-- Entry (i, j) of the program's softmax is row i's weight at column j. -/
theorem softmaxRows_apply (i : Fin a) (j : Fin b) :
    softmaxRows s hr hc hb (ix2 i j) = rowWeight (fun j' => s (ix2 i j')) j := by
  unfold softmaxRows rowWeight
  rw [divf_apply, colBroadcast_apply, colCast_apply]
  refine congrArg₂ Ideal.div (expRows_apply s hr hc hb i j) ?_
  refine (rowSum_apply (expRows s hr hc hb) 0x00000000#32 hr (.inl rfl) rfl i).trans ?_
  exact Finset.sum_congr rfl fun j' _ => expRows_apply s hr hc hb i j'

end Program

end Cert.Lib.SoftmaxRows

end
-- ==== Proof.Region0.lean ====
/-
  The first region's result array. Its grid is 2 × 8: core `q` walks tiles `8q … 8q + 7` of 4096 rows each, and keeps
  one [512, 256] block of sums, zeroed at its first tile, to which every tile adds, for each label `k` and feature `d`,
  the sum over the tile's rows `r` of `[label r = k] · x r d` (a matrix product with the 0/1 matrix of the labels). The
  block is written back after the core's last tile, as slab `q` of the [2, 512, 256] result: so entry `(q, k, d)` ends
  at the sum of `x n d` over the rows `n` of half `q` labelled `k`.

  In order: what the body leaves in the block in its two cases (a first tile, a later tile), as the update's arithmetic
  applied to the blocks it loads; that arithmetic read at an entry (k, d) — the old entry plus a sum over the tile's 4096
  rows of a 0/1 factor times a feature —; where a tile's rows sit in the whole arrays; half q's sum regrouped by tiles;
  the induction over a core's tiles; and the slab a core's last tile writes back, read in the result array.
-/
import proofs.«428232_j56435870269925_3_alg».proof.Proof.Gen.KernelIdeal.Frame
import proofs.«428232_j56435870269925_3_alg».proof.Proof.Spec
import proofs.«428232_j56435870269925_3_alg».proof.Proof.LibTileSum
import proofs.«428232_j56435870269925_3_alg».proof.Proof.LibSoftmaxRows
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Mathlib.Algebra.BigOperators.Group.Finset.Basic
import Mathlib.Algebra.BigOperators.Group.Finset.Piecewise

set_option maxRecDepth 16384

noncomputable section

namespace Cert.KernelIdeal.Reg0

open Cert.KernelIdeal Cert.KernelIdeal.Gen Cert.ProtoLoss
open Idealize.ShloMosaic Idealize.ShloMosaic.TcCoe Idealize.ShloMosaic.ValueIdx Idealize.SL.Sem
open Idealize.ShloMosaic.Pipeline (Dat)

/-! ## What the body leaves in the block, in its two cases -/

section Pieces

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later tile: the block holding `xo` is left at the update of `xo` by the tile's labels `x1` and rows `x0`. -/
theorem out_B (c : Dev nD) (i : grid0.Coords) (a2 : Memref sig .tc .vmem S4096x256 .f32) (h2 : a2.IsWhole)
    (a3 : Memref sig .tc .vmem S4096x1 .i32) (h3 : a3.IsWhole) (a4 : Memref sig .tc .vmem S1x512x256 .f32) (h4 : a4.IsWhole)
    (hc : ¬cond0_0 i) (x0 : Vec F S4096x256 .f32) (x1 : Vec F S4096x1 .i32) (xo : Vec F S1x512x256 .f32) :
    out0_B_2 c i a2 h2 a3 h3 a4 h4 hc x0 x1 xo = k0_pay2 x1 x0 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S4096x256) hz2,
    View.ld_unit_zero (S := S4096x1) hz2, View.ld_unit_zero (S := S1x512x256) hz3]

/-- A first tile: the block is set to the zero block, read back, and left at the update of the zero block. -/
theorem out_A (c : Dev nD) (i : grid0.Coords) (a2 : Memref sig .tc .vmem S4096x256 .f32) (h2 : a2.IsWhole)
    (a3 : Memref sig .tc .vmem S4096x1 .i32) (h3 : a3.IsWhole) (a4 : Memref sig .tc .vmem S1x512x256 .f32) (h4 : a4.IsWhole)
    (hc : cond0_0 i) (x0 : Vec F S4096x256 .f32) (x1 : Vec F S4096x1 .i32) :
    out0_A_2 c i a2 h2 a3 h3 a4 h4 hc x0 x1 = k0_pay2 x1 x0 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x512x256) hz3, View.readCov_unit_zero (S := S1x512x256) _ hz3]
  simp only [View.readAt_eq_ld, h2.read_unread, h3.read_unread, View.ld_unit_zero (S := S4096x256) hz2,
    View.ld_unit_zero (S := S4096x1) hz2]

end Pieces

/-! ## The update read at an entry -/

/-- A 0/1 word of a comparison, widened and read as a real, is the indicator of the equality. -/
theorem onehot_eq (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  unfold IntOp.cmpi
  by_cases h : a = b
  · rw [if_pos h]; subst h
    simp
  · rw [if_neg h]
    have : (a == b) = false := by simpa using h
    simp [this]

theorem lhs_oh_0 (j : S512x256.Idx) (q : dot_S4096x512_S4096x256_S512x256_0_0_1_1_n_n.contr.Idx) :
    (dot_S4096x512_S4096x256_S512x256_0_0_1_1_n_n.lhsIdx j q 0).val = (q ⟨0, by decide⟩).val :=
  dot_S4096x512_S4096x256_S512x256_0_0_1_1_n_n.lhsIdx_val_of_single rfl j q
theorem lhs_oh_1 (j : S512x256.Idx) (q : dot_S4096x512_S4096x256_S512x256_0_0_1_1_n_n.contr.Idx) :
    (dot_S4096x512_S4096x256_S512x256_0_0_1_1_n_n.lhsIdx j q 1).val = (j 0).val := by
  unfold DotDims.lhsIdx
  rw [dif_neg (show ¬(1 : Fin S4096x512.rank) ∈ dot_S4096x512_S4096x256_S512x256_0_0_1_1_n_n.lhsBatch by decide), dif_pos (show (1 : Fin S4096x512.rank) ∈ dot_S4096x512_S4096x256_S512x256_0_0_1_1_n_n.lhsNonContracting by decide)]
  rfl
theorem rhs_x_0 (j : S512x256.Idx) (q : dot_S4096x512_S4096x256_S512x256_0_0_1_1_n_n.contr.Idx) :
    (dot_S4096x512_S4096x256_S512x256_0_0_1_1_n_n.rhsIdx j q 0).val = (q ⟨0, by decide⟩).val :=
  dot_S4096x512_S4096x256_S512x256_0_0_1_1_n_n.rhsIdx_val_of_single rfl j q
theorem rhs_x_1 (j : S512x256.Idx) (q : dot_S4096x512_S4096x256_S512x256_0_0_1_1_n_n.contr.Idx) :
    (dot_S4096x512_S4096x256_S512x256_0_0_1_1_n_n.rhsIdx j q 1).val = (j 1).val := by
  unfold DotDims.rhsIdx
  rw [dif_neg (show ¬(1 : Fin S4096x256.rank) ∈ dot_S4096x512_S4096x256_S512x256_0_0_1_1_n_n.rhsBatch by decide), dif_pos (show (1 : Fin S4096x256.rank) ∈ dot_S4096x512_S4096x256_S512x256_0_0_1_1_n_n.rhsNonContracting by decide)]
  rfl

/-- The product of a transposed [4096, 512] matrix with a [4096, 256] one, into zero, at (k, d): the sum over the 4096
    rows of the two entries' products. -/
theorem matmul_rows_apply (A : FVec Ideal S4096x512 .bf16) (B : FVec Ideal S4096x256 .bf16) (k : Fin 512) (d : Fin 256) :
    matmul dot_S4096x512_S4096x256_S512x256_0_0_1_1_n_n none A B (constant (F := Ideal) S512x256 .f32 0x00000000#32) (ix2 k d)
      = ∑ r : Fin 4096, A (ix2 r k) * B (ix2 r d) := by
  simp only [matmul]
  rw [Ideal.matmul_constant_zero_apply, ← Equiv.sum_comp (ValueIdx.contrEquiv1 dot_S4096x512_S4096x256_S512x256_0_0_1_1_n_n 4096 rfl rfl).symm]
  refine Finset.sum_congr rfl fun r _ => ?_
  have hr := ValueIdx.contrEquiv1_symm_val dot_S4096x512_S4096x256_S512x256_0_0_1_1_n_n 4096 rfl rfl r
  have el : dot_S4096x512_S4096x256_S512x256_0_0_1_1_n_n.lhsIdx (ix2 k d) ((ValueIdx.contrEquiv1 dot_S4096x512_S4096x256_S512x256_0_0_1_1_n_n 4096 rfl rfl).symm r) = ix2 r k := funext fun a => Fin.ext (by
    match a with
    | ⟨0, _⟩ => exact (lhs_oh_0 _ _).trans hr
    | ⟨1, _⟩ => exact lhs_oh_1 _ _)
  have er : dot_S4096x512_S4096x256_S512x256_0_0_1_1_n_n.rhsIdx (ix2 k d) ((ValueIdx.contrEquiv1 dot_S4096x512_S4096x256_S512x256_0_0_1_1_n_n 4096 rfl rfl).symm r) = ix2 r d := funext fun a => Fin.ext (by
    match a with
    | ⟨0, _⟩ => exact (rhs_x_0 _ _).trans hr
    | ⟨1, _⟩ => exact rhs_x_1 _ _)
  rw [el, er]

theorem tail_ix3 (k : Fin 512) (d : Fin 256) :
    (fun a : Fin 2 => (ix3 (0 : Fin 1) k d : S1x512x256.Idx) a.succ) = (ix2 k d : S512x256.Idx) :=
  funext fun a => match a with | ⟨0, _⟩ => rfl | ⟨1, _⟩ => rfl
theorem cons_ix2_zero (k : Fin 512) (d : Fin 256) :
    (Fin.cons (⟨0, Nat.one_pos⟩ : Fin 1) (ix2 k d : S512x256.Idx) : S1x512x256.Idx) = ix3 (0 : Fin 1) k d :=
  funext fun a => match a with | ⟨0, _⟩ => rfl | ⟨1, _⟩ => rfl | ⟨2, _⟩ => rfl

/-- Entry (r, k) of the labels' 0/1 matrix: 1 where row r's label is the word of k. -/
theorem onehot_apply (v3 : Vec Ideal S4096x1 .i32) (r : Fin 4096) (k : Fin 512) :
    (truncf .bf16 (sitofp (F := Ideal) .f32 (extui 32 (cmpi .eq (broadcastTo S4096x512 (shapeCast S4096x1 v3 shapeCasts_S4096x1_S4096x1) broadcasts_S4096x1_S4096x512) (iota .tc S4096x512 32 [1] iota_S4096x512_d1_w32)) natLt_1_32)) bitsLt_bf16_f32 : FVec Ideal S4096x512 .bf16) (ix2 r k)
      = if v3 (ix2 r (0 : Fin 1)) = BitVec.ofNat 32 k.val then 1 else 0 := by
  show FloatOps.sitofp (F := Ideal) .f32 ((IntOp.cmpi .eq (broadcastTo S4096x512 (shapeCast S4096x1 v3 shapeCasts_S4096x1_S4096x1) broadcasts_S4096x1_S4096x512 (ix2 r k)) (iota .tc S4096x512 32 [1] iota_S4096x512_d1_w32 (ix2 r k))).setWidth 32) = _
  rw [onehot_eq, Cert.Lib.SoftmaxRows.colBroadcast_apply, shapeCast_self, iota_single_apply]

/-- The update's payload at (0, k, d): the block's entry plus the sum over the tile's rows labelled k of feature d. -/
theorem pay2_apply (v3 : Vec Ideal S4096x1 .i32) (v11 : Vec Ideal S4096x256 .f32) (v14 : Vec Ideal S1x512x256 .f32)
    (k : Fin 512) (d : Fin 256) :
    k0_pay2 (F := Ideal) v3 v11 v14 (ix3 (0 : Fin 1) k d)
      = v14 (ix3 (0 : Fin 1) k d)
        + ∑ r : Fin 4096, (if v3 (ix2 r (0 : Fin 1)) = BitVec.ofNat 32 k.val then (1 : EReal) else 0) * v11 (ix2 r d) := by
  unfold k0_pay2
  refine (shapeCast_addUnit_apply ![512, 256] _ shapeCasts_S512x256_S1x512x256 (ix3 (0 : Fin 1) k d)).trans ?_
  refine (congrArg _ (tail_ix3 k d)).trans ?_
  refine (addf_apply _ _ (ix2 k d)).trans ?_
  refine congrArg₂ (· + ·) ?_ ?_
  · refine (shapeCast_dropUnit_apply ![512, 256] v14 shapeCasts_S1x512x256_S512x256 (ix2 k d)).trans ?_
    exact congrArg v14 (cons_ix2_zero k d)
  · refine (matmul_rows_apply _ _ k d).trans ?_
    refine Finset.sum_congr rfl fun r _ => ?_
    exact congrArg₂ (· * ·) (onehot_apply v3 r k) rfl

/-- The reset's payload is zero everywhere. -/
theorem pay1_apply (j : S1x512x256.Idx) : k0_pay1 (F := Ideal) j = 0 := by
  unfold k0_pay1
  show Ideal.ofBits .f32 0x00000000#32 = 0
  exact Ideal.ofBits_zero_f32

/-! ## Where a tile's rows sit in the arrays -/

-- The buffer contents the region is entered with: a parameter, as in the frame.
variable (V : (c : Dev nD) → (b : Ref sig .tc) → Buf (Elt Ideal) ((c : Thread nD τ).loc b))

/-- Point t's block of rows, and of labels. -/
abbrev xblk (c : Dev nD) (t : Fin cfg0.N) : Vec Ideal S4096x256 .f32 := iblk0 V c 0 t
abbrev lblk (c : Dev nD) (t : Fin cfg0.N) : Vec Ideal S4096x1 .i32 := iblk0 V c 1 t

/-- The index maps over the grid: point t reads tile t of the rows and of the labels, and holds slab t / 8 of the result. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 8 ∧ win0_2.index t (1 : Fin 3) = 0 ∧ win0_2.index t (2 : Fin 3) = 0 :=
  (by decide +kernel : ∀ t : Fin grid0.N, _)

/-- Row r of point t's block of rows is row 4096 t + r of the array. -/
theorem xblk_apply (c : Dev nD) (t : Fin cfg0.N) (r : Fin 4096) (d : Fin 256) (n : Fin 65536)
    (hn : n.val = 4096 * t.val + r.val) : xblk V c t (ix2 r d) = V c main_arg0 (ix2 n d) := by
  obtain ⟨e0, e1, -⟩ := idx_facts t
  show iblk0 V c 0 t (ix2 r d) = _
  unfold iblk0
  rw [View.read_apply]
  show V c main_arg0 _ = V c main_arg0 _
  refine congrArg (V c main_arg0) (funext fun a => Fin.ext ?_)
  match a with
  | ⟨0, _⟩ => show win0_0.index t (0 : Fin 2) * 4096 + 1 * r.val = n.val; omega
  | ⟨1, _⟩ => show win0_0.index t (1 : Fin 2) * 256 + 1 * d.val = d.val; omega

/-- Row r of point t's block of labels is row 4096 t + r of the labels' column. -/
theorem lblk_apply (c : Dev nD) (t : Fin cfg0.N) (r : Fin 4096) (n : Fin 65536)
    (hn : n.val = 4096 * t.val + r.val) : lblk V c t (ix2 r (0 : Fin 1)) = V c main_v0 (ix2 n (0 : Fin 1)) := by
  obtain ⟨-, -, e0, e1, -⟩ := idx_facts t
  show iblk0 V c 1 t (ix2 r (0 : Fin 1)) = _
  unfold iblk0
  rw [View.read_apply]
  show V c main_v0 _ = V c main_v0 _
  refine congrArg (V c main_v0) (funext fun a => Fin.ext ?_)
  match a with
  | ⟨0, _⟩ => show win0_1.index t (0 : Fin 2) * 4096 + 1 * r.val = n.val; omega
  | ⟨1, _⟩ => show win0_1.index t (1 : Fin 2) * 1 + 1 * 0 = 0; omega

/-! ## Half q's sum, regrouped by tiles -/

section Sums

variable (x : Fin 65536 → Fin 256 → EReal) (lab : Fin 65536 → Fin 512)

/-- Row e's share of label k's sum of feature d (nothing past the array's end). -/
def term (k : Fin 512) (d : Fin 256) (e : ℕ) : EReal :=
  if h : e < 65536 then (if lab ⟨e, h⟩ = k then x ⟨e, h⟩ d else 0) else 0

theorem term_val (k : Fin 512) (d : Fin 256) (n : Fin 65536) :
    term x lab k d n.val = if lab n = k then x n d else 0 := by
  unfold term
  rw [dif_pos n.isLt]

/-- Half q's sum is the sum of the shares of its 8 · 4096 rows, counted from the half's first row. -/
theorem partSum_eq_rows (q : Fin 2) (k : Fin 512) (d : Fin 256) :
    partSum x lab q k d = ∑ e : Fin (4096 * 8), term x lab k d (32768 * q.val + e.val) := by
  have hq := q.isLt
  unfold partSum
  -- the sum over all rows, each row's share kept only in its half
  have e1 : (∑ n : Fin 65536, if n.val / 32768 = q.val then (if lab n = k then x n d else 0) else 0)
      = ∑ n : Fin (4096 * 8 * 2), (fun e : ℕ => if e / 32768 = q.val then term x lab k d e else 0) n.val :=
    Finset.sum_congr rfl fun n _ => by
      show _ = if n.val / 32768 = q.val then term x lab k d n.val else 0
      rw [term_val x lab k d n]
  rw [e1, ← Cert.Lib.sum_fin_tiles (4096 * 8) 2 (fun e : ℕ => if e / 32768 = q.val then term x lab k d e else 0)]
  -- a half other than q contributes nothing
  have e2 : ∀ s : ℕ, (∑ r : Fin (4096 * 8), (fun e : ℕ => if e / 32768 = q.val then term x lab k d e else 0) (4096 * 8 * s + r.val))
      = if q.val = s then ∑ r : Fin (4096 * 8), term x lab k d (32768 * s + r.val) else 0 := fun s => by
    by_cases hs : q.val = s
    · rw [if_pos hs]
      refine Finset.sum_congr rfl fun r _ => ?_
      have hr : r.val < 32768 := r.isLt
      show (if (4096 * 8 * s + r.val) / 32768 = q.val then term x lab k d (4096 * 8 * s + r.val) else 0) = _
      rw [if_pos (by omega), show 4096 * 8 * s + r.val = 32768 * s + r.val from by omega]
    · rw [if_neg hs]
      refine Finset.sum_eq_zero fun r _ => ?_
      have hr : r.val < 32768 := r.isLt
      show (if (4096 * 8 * s + r.val) / 32768 = q.val then term x lab k d (4096 * 8 * s + r.val) else 0) = _
      rw [if_neg (by omega)]
  rw [Finset.sum_congr rfl fun s _ => e2 s, Finset.sum_ite_eq, if_pos (Finset.mem_range.mpr hq)]

end Sums

/-! ## The induction over a core's tiles -/

section Value

variable (c : Dev nD) (x : Fin 65536 → Fin 256 → EReal) (lab : Fin 65536 → Fin 512)
  (hx : ∀ (n : Fin 65536) (d : Fin 256), V c main_arg0 (ix2 n d) = x n d)
  (ht : ∀ n : Fin 65536, V c main_v0 (ix2 n (0 : Fin 1)) = BitVec.ofNat 32 (lab n).val)

/-- Two labels are one exactly when their 32-bit words are: both are below 2 ^ 32. -/
theorem word_eq_iff (a b : Fin 512) : BitVec.ofNat 32 a.val = BitVec.ofNat 32 b.val ↔ a = b := by
  constructor
  · intro h
    have h' := congrArg BitVec.toNat h
    simp only [BitVec.toNat_ofNat] at h'
    have ha := a.isLt
    have hb := b.isLt
    exact Fin.ext (by omega)
  · rintro rfl; rfl

include hx ht in
/-- The 0/1 matrix product of point t's tile at (k, d): the shares of the tile's 4096 rows, which are rows
    4096 t … 4096 t + 4095 of the array. -/
theorem tile_sum (t : Fin cfg0.N) (k : Fin 512) (d : Fin 256) :
    (∑ r : Fin 4096, (if lblk V c t (ix2 r (0 : Fin 1)) = BitVec.ofNat 32 k.val then (1 : EReal) else 0) * xblk V c t (ix2 r d))
      = ∑ r : Fin 4096, term x lab k d (4096 * t.val + r.val) := by
  have hN : t.val < 16 := lt_of_lt_of_eq t.isLt (show cfg0.N = 16 from N_0)
  refine Finset.sum_congr rfl fun r _ => ?_
  have hr := r.isLt
  have hn : 4096 * t.val + r.val < 65536 := by omega
  rw [lblk_apply V c t r ⟨4096 * t.val + r.val, hn⟩ rfl, xblk_apply V c t r d ⟨4096 * t.val + r.val, hn⟩ rfl, ht, hx,
    Cert.Lib.indicator_mul (word_eq_iff (lab ⟨4096 * t.val + r.val, hn⟩) k)]
  exact (term_val x lab k d ⟨4096 * t.val + r.val, hn⟩).symm

include hx ht in
/-- At a core's first tile the block is zeroed and then updated: its entry (k, d) is that tile's sum. -/
theorem first_eq (k : Fin 512) (d : Fin 256) (n : ℕ) (h : n < cfg0.N) (h0 : n % 8 = 0) :
    outsAt0 V c n h (ix3 (0 : Fin 1) k d)
      = ∑ s ∈ Finset.range (n % 8 + 1), ∑ r : Fin 4096, term x lab k d (4096 * (8 * (n / 8) + s) + r.val) := by
  refine (congrFun (outsAt0_A V c ⟨n, h⟩ h0) (ix3 (0 : Fin 1) k d)).trans ?_
  refine (congrFun (out_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
    ((hcond0_0 ⟨n, h⟩).mpr h0) (xblk V c ⟨n, h⟩) (lblk V c ⟨n, h⟩)) (ix3 (0 : Fin 1) k d)).trans ?_
  refine (pay2_apply (lblk V c ⟨n, h⟩) (xblk V c ⟨n, h⟩) (k0_pay1 (F := Ideal)) k d).trans ?_
  rw [pay1_apply, zero_add, tile_sum V c x lab hx ht ⟨n, h⟩ k d, h0, Finset.sum_range_one]
  refine Finset.sum_congr rfl fun r _ => congrArg (term x lab k d) ?_
  show 4096 * n + r.val = _
  omega

include hx ht in
/-- After point n — tile n % 8 of core n / 8 — the block's entry (k, d) is the sum of the shares of the rows of the core's
    tiles 0 … n % 8: by induction on the point, a later tile adding its sum to what the tile before left. -/
theorem outsAt_eq (k : Fin 512) (d : Fin 256) : ∀ (n : ℕ) (h : n < cfg0.N),
    outsAt0 V c n h (ix3 (0 : Fin 1) k d)
      = ∑ s ∈ Finset.range (n % 8 + 1), ∑ r : Fin 4096, term x lab k d (4096 * (8 * (n / 8) + s) + r.val) := by
  intro n
  induction n with
  | zero => exact fun h => first_eq V c x lab hx ht k d 0 h rfl
  | succ m ih =>
    intro h
    by_cases h0 : (m + 1) % 8 = 0
    · exact first_eq V c x lab hx ht k d (m + 1) h h0
    · refine (congrFun (outsAt0_B V c ⟨m + 1, h⟩ h0) (ix3 (0 : Fin 1) k d)).trans ?_
      refine (congrFun (out_B (F := Ideal) c (grid0.coords ⟨m + 1, h⟩) (ms0_0 ⟨m + 1, h⟩) (hs0_0 ⟨m + 1, h⟩) (ms0_1 ⟨m + 1, h⟩) (hs0_1 ⟨m + 1, h⟩) (ms0_2 ⟨m + 1, h⟩) (hs0_2 ⟨m + 1, h⟩)
        (fun hh => h0 ((hcond0_0 ⟨m + 1, h⟩).mp hh)) (xblk V c ⟨m + 1, h⟩) (lblk V c ⟨m + 1, h⟩) (outsAt0 V c m (Nat.lt_of_succ_lt h))) (ix3 (0 : Fin 1) k d)).trans ?_
      refine (pay2_apply (lblk V c ⟨m + 1, h⟩) (xblk V c ⟨m + 1, h⟩) (outsAt0 V c m (Nat.lt_of_succ_lt h)) k d).trans ?_
      rw [ih (Nat.lt_of_succ_lt h), tile_sum V c x lab hx ht ⟨m + 1, h⟩ k d]
      have e1 : (m + 1) % 8 = m % 8 + 1 := by omega
      have e2 : (m + 1) / 8 = m / 8 := by omega
      rw [e1, e2, Finset.sum_range_succ _ (m % 8 + 1)]
      refine congrArg₂ (· + ·) rfl (Finset.sum_congr rfl fun r _ => congrArg (term x lab k d) ?_)
      show 4096 * (m + 1) + r.val = _
      omega

end Value

/-! ## The slab a core's last tile writes back, and the result array -/

section Final

variable (c : Dev nD) (x : Fin 65536 → Fin 256 → EReal) (lab : Fin 65536 → Fin 512)
  (hx : ∀ (n : Fin 65536) (d : Fin 256), V c main_arg0 (ix2 n d) = x n d)
  (ht : ∀ n : Fin 65536, V c main_v0 (ix2 n (0 : Fin 1)) = BitVec.ofNat 32 (lab n).val)

/-- What the result array ends holding: entry (q, k, d) is half q's sum of the rows labelled k, feature d. -/
abbrev result : Buf (Elt Ideal) ((c : Thread nD τ).loc main_v1) := fun i => partSum x lab (i 0) (i 1) (i 2)

include hx ht in
/-- After a core's last tile the block's entry (k, d) is the core's half's sum. -/
theorem last_eq (t : Fin cfg0.N) (h7 : t.val % 8 = 7) (q : Fin 2) (hq : q.val = t.val / 8) (y : S1x512x256.Idx) :
    outsAt0 V c t.val t.isLt y = partSum x lab q (y 1) (y 2) := by
  obtain ⟨u, k, d, rfl⟩ : ∃ (u : Fin 1) (k : Fin 512) (d : Fin 256), y = ix3 u k d := ⟨y 0, y 1, y 2, eq_ix3 y⟩
  obtain rfl : u = 0 := Subsingleton.elim _ _
  show _ = partSum x lab q k d
  rw [outsAt_eq V c x lab hx ht k d t.val t.isLt, h7, partSum_eq_rows,
    ← Cert.Lib.sum_fin_tiles 4096 8 (fun e => term x lab k d (32768 * q.val + e))]
  refine Finset.sum_congr rfl fun s _ => Finset.sum_congr rfl fun r _ => congrArg (term x lab k d) ?_
  omega

include hx ht in
/-- What a core's last point writes back is its slab of the result. -/
theorem flushed_eq (t : Fin cfg0.N) (hf : (cfg0.win 2).flush t = true) :
    (dat0 V c).flushed 2 t = ((cfg0.win 2).blk t).view.read (Elt Ideal) (result c x lab) := by
  have hN : t.val < 16 := lt_of_lt_of_eq t.isLt (show cfg0.N = 16 from N_0)
  have h7 : t.val % 8 = 7 := (flush0_2 t).mp hf
  obtain ⟨-, -, -, -, e0, e1, e2⟩ := idx_facts t
  have hX : ∀ y : S1x512x256.Idx, outsAt0 V c t.val t.isLt y = partSum x lab ⟨t.val / 8, by omega⟩ (y 1) (y 2) :=
    last_eq V c x lab hx ht t h7 ⟨t.val / 8, by omega⟩ rfl
  show (cfg0.win 2).cut (grid0.coords t) ((dat0 V c).after 2 t) = _
  rw [after0_2]
  generalize outsAt0 V c t.val t.isLt = X at hX
  funext j
  rw [View.read_apply]
  refine (hX _).trans ?_
  refine Eq.trans ?_ (cast_eq _ _).symm
  show partSum x lab _ _ _ = partSum x lab _ _ _
  have hj0 : (j 0).val < 1 := (j 0).isLt
  refine congr (congr (congrArg (partSum x lab) (Fin.ext ?_)) (Fin.ext ?_)) (Fin.ext ?_)
  · show t.val / 8 = win0_2.index t (0 : Fin 3) * 1 + 1 * (j 0).val; omega
  · show (j 1).val = win0_2.index t (1 : Fin 3) * 512 + 1 * (j 1).val; omega
  · show (j 2).val = win0_2.index t (2 : Fin 3) * 256 + 1 * (j 2).val; omega

end Final

/-- Entry `(q, k, d)` of the first region's result array is half `q`'s sum of the rows labelled `k`, feature `d`. -/
theorem final (c : Dev nD) (x : Fin 65536 → Fin 256 → EReal) (lab : Fin 65536 → Fin 512)
    (hx : ∀ (n : Fin 65536) (d : Fin 256), V c main_arg0 (ix2 n d) = x n d)
    (ht : ∀ n : Fin 65536, V c main_v0 (ix2 n (0 : Fin 1)) = BitVec.ofNat 32 (lab n).val)
    (q : Fin 2) (k : Fin 512) (d : Fin 256) :
    (dat0 (F := Ideal) V c).arrAt 2 cfg0.N (ix3 q k d) = partSum x lab q k d := by
  have hq := q.isLt
  have hN : cfg0.N = 16 := N_0
  have hlt : 8 * q.val + 7 < cfg0.N := by rw [hN]; omega
  obtain ⟨-, -, -, -, e0, e1, e2⟩ := idx_facts ⟨8 * q.val + 7, hlt⟩
  have hf : (cfg0.win 2).flush ⟨8 * q.val + 7, hlt⟩ = true := (flush0_2 ⟨8 * q.val + 7, hlt⟩).mpr (by show (8 * q.val + 7) % 8 = 7; omega)
  refine (dat0 V c).arrAt_apply_of_mem 2 (result c x lab) (fun t hft => flushed_eq V c x lab hx ht t hft) cfg0.N
    ⟨8 * q.val + 7, hlt⟩ (ix3 q k d) hlt hf ?_
  show (ix3 q k d : S2x512x256.Idx) ∈ ((View.whole main_v1).slice (win0_2.rect ⟨8 * q.val + 7, hlt⟩)).set
  rw [View.set_slice_whole, Rect.mem_set_unit]
  intro a
  have hk := k.isLt
  have hd := d.isLt
  match a with
  | ⟨0, _⟩ =>
    show win0_2.index ⟨8 * q.val + 7, hlt⟩ (0 : Fin 3) * 1 ≤ q.val ∧ q.val < win0_2.index ⟨8 * q.val + 7, hlt⟩ (0 : Fin 3) * 1 + 1
    rw [e0]; show (8 * q.val + 7) / 8 * 1 ≤ q.val ∧ q.val < (8 * q.val + 7) / 8 * 1 + 1; omega
  | ⟨1, _⟩ =>
    show win0_2.index ⟨8 * q.val + 7, hlt⟩ (1 : Fin 3) * 512 ≤ k.val ∧ k.val < win0_2.index ⟨8 * q.val + 7, hlt⟩ (1 : Fin 3) * 512 + 512
    rw [e1]; omega
  | ⟨2, _⟩ =>
    show win0_2.index ⟨8 * q.val + 7, hlt⟩ (2 : Fin 3) * 256 ≤ d.val ∧ d.val < win0_2.index ⟨8 * q.val + 7, hlt⟩ (2 : Fin 3) * 256 + 256
    rw [e2]; omega

end Cert.KernelIdeal.Reg0

end
-- ==== Proof.Region1.lean ====
/-
  The second region's result array. Its grid is 2 × 16: core `q` walks tiles `16q … 16q + 15` of 2048 rows each, and
  keeps one [8, 128] block, zeroed at its first tile, to every entry of which each tile adds the sum over its rows of
  the row's loss `(M + log ∑ₖ exp (simₖ − M)) − ∑ₖ [label = k] · simₖ`, the similarities formed from the row, the
  prototypes and the prototypes' norms the region is handed. The block is written back after the core's last tile, as
  slab `q` of the [2, 8, 128] result: so every entry `(q, ·, ·)` ends at half `q`'s sum of the row losses.
-/
import proofs.«428232_j56435870269925_3_alg».proof.Proof.Gen.KernelIdeal.Frame
import proofs.«428232_j56435870269925_3_alg».proof.Proof.Spec
import proofs.«428232_j56435870269925_3_alg».proof.Proof.LibTileSum
import proofs.«428232_j56435870269925_3_alg».proof.Proof.LibSoftmaxRows
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Reg1

open Cert.KernelIdeal Cert.KernelIdeal.Gen Cert.ProtoLoss
open Idealize.ShloMosaic Idealize.ShloMosaic.TcCoe Idealize.ShloMosaic.ValueIdx Idealize.SL.Sem
open Idealize.ShloMosaic.Pipeline (Dat)

/-! ## What the body leaves in the result block, in its two cases -/

section Pieces
variable {F : FTy → Type} [FloatOps F]

/-- The zero offsets of a whole block of rank two … -/
theorem hz2 : (![0, 0] : Fin 2 → Nat) = fun _ => 0 := funext fun a => by fin_cases a <;> rfl
/-- … and of rank three. -/
theorem hz3 : (![0, 0, 0] : Fin 3 → Nat) = fun _ => 0 := funext fun a => by fin_cases a <;> rfl

/-- At a later tile of a core the block ends as the accumulation step applied to the tile's loss column and to what
    the block held: the body's one store covers the block, and its loads read whole buffers. -/
theorem out_B (c : Dev nD) (i : grid1.Coords) (a2 : Memref sig .tc .vmem S2048x256 .f32) (h2 : a2.IsWhole)
    (a3 : Memref sig .tc .vmem S2048x1 .i32) (h3 : a3.IsWhole) (a4 : Memref sig .tc .vmem S512x256 .f32) (h4 : a4.IsWhole)
    (a5 : Memref sig .tc .vmem S1x512 .f32) (h5 : a5.IsWhole) (a6 : Memref sig .tc .vmem S1x8x128 .f32) (h6 : a6.IsWhole)
    (hc : ¬cond1_0 i) (x0 : Vec F S2048x256 .f32) (x1 : Vec F S2048x1 .i32) (x2 : Vec F S512x256 .f32)
    (x3 : Vec F S1x512 .f32) (xo : Vec F S1x8x128 .f32) :
    out1_B_4 c i a2 h2 a3 h3 a4 h4 a5 h5 a6 h6 hc x0 x1 x2 x3 xo = k1_pay1 (k1_pay3 x0 x1 x2 x3) xo := by
  unfold out1_B_4
  rw [View.read_writes_eq_canon _ _ _ (cover1_B_4 c i a2 h2 a3 h3 a4 h4 a5 h5 a6 h6 hc x0 x1 x2 x3 xo)]
  unfold kernelRun1_B
  dsimp only
  sl_unfold_words
  rw [View.canon_unit_zero hz3]
  simp only [View.readAt_eq_ld, h2.read_unread, h3.read_unread, h4.read_unread, h5.read_unread, h6.read_unread,
    View.ld_unit_zero (S := S2048x256) hz2, View.ld_unit_zero (S := S2048x1) hz2, View.ld_unit_zero (S := S512x256) hz2,
    View.ld_unit_zero (S := S1x512) hz2, View.ld_unit_zero (S := S1x8x128) hz3]

/-- At a core's first tile the block is first set to zero; the accumulation step then reads that zero block back. -/
theorem out_A (c : Dev nD) (i : grid1.Coords) (a2 : Memref sig .tc .vmem S2048x256 .f32) (h2 : a2.IsWhole)
    (a3 : Memref sig .tc .vmem S2048x1 .i32) (h3 : a3.IsWhole) (a4 : Memref sig .tc .vmem S512x256 .f32) (h4 : a4.IsWhole)
    (a5 : Memref sig .tc .vmem S1x512 .f32) (h5 : a5.IsWhole) (a6 : Memref sig .tc .vmem S1x8x128 .f32) (h6 : a6.IsWhole)
    (hc : cond1_0 i) (x0 : Vec F S2048x256 .f32) (x1 : Vec F S2048x1 .i32) (x2 : Vec F S512x256 .f32)
    (x3 : Vec F S1x512 .f32) :
    out1_A_4 c i a2 h2 a3 h3 a4 h4 a5 h5 a6 h6 hc x0 x1 x2 x3 = k1_pay1 (k1_pay3 x0 x1 x2 x3) (k1_pay2 (F := F)) := by
  unfold out1_A_4
  rw [View.read_writes_eq_canon _ _ _ (cover1_A_4 c i a2 h2 a3 h3 a4 h4 a5 h5 a6 h6 hc x0 x1 x2 x3)]
  unfold kernelRun1_A
  dsimp only
  sl_unfold_words
  rw [View.canon_cons_unit_zero (S := S1x8x128) hz3]
  simp only [View.readAt_eq_ld, h2.read_unread, h3.read_unread, h4.read_unread, h5.read_unread,
    View.ld_unit_zero (S := S2048x256) hz2, View.ld_unit_zero (S := S2048x1) hz2, View.ld_unit_zero (S := S512x256) hz2,
    View.ld_unit_zero (S := S1x512) hz2, View.readCov_unit_zero (S := S1x8x128) _ hz3]

end Pieces

section LossColumn
variable {F : FTy → Type} [FloatOps F]

/-- A tile's scores: each row against each prototype, the dot product over the floored product of the two norms. -/
def simBlk (x3 : FVec F S2048x256 .f32) (p6 : FVec F S512x256 .f32) (n8 : FVec F S1x512 .f32) : FVec F S2048x512 .f32 :=
  divf
    (matmul dot_S2048x256_S512x256_S2048x512_1_1_0_0_n_n none (truncf .bf16 x3 bitsLt_bf16_f32)
      (truncf .bf16 (shapeCast S512x256 p6 shapeCasts_S512x256_S512x256) bitsLt_bf16_f32)
      (constant S2048x512 .f32 0x00000000#32))
    (maximumf
      (mulf
        (broadcastTo S2048x512
          (sqrt (shapeCast S2048x1
            (multiReduction .add [1] S2048 (mulf x3 x3) 0x00000000#32 reduces_S2048x256_S2048 (.inl rfl) rfl)
            shapeCasts_S2048_S2048x1))
          broadcasts_S2048x1_S2048x512)
        (broadcastTo S2048x512 (shapeCast S1x512 n8 shapeCasts_S1x512_S1x512) broadcasts_S1x512_S2048x512))
      (broadcast S2048x512 (Scalar.ofBits .f32 0x322BCC77#32)))

/-- The column of row maxima of a tile of scores. -/
def topCol (s : FVec F S2048x512 .f32) : FVec F S2048x1 .f32 :=
  shapeCast S2048x1 (multiReduction .maximumf [1] S2048 s 0xFF800000#32 reduces_S2048x512_S2048 (.inl rfl) rfl)
    shapeCasts_S2048_S2048x1

/-- The column of row losses of a tile of scores `s` with labels `t5`: maximum plus log-sum-exp, less the label's score. -/
def lossCol (s : FVec F S2048x512 .f32) (t5 : IVec S2048x1 32) : FVec F S2048x1 .f32 :=
  subf
    (addf (topCol s)
      (log (shapeCast S2048x1
        (multiReduction .add [1] S2048
          (exp (subf s (broadcastTo S2048x512 (topCol s) broadcasts_S2048x1_S2048x512)))
          0x00000000#32 reduces_S2048x512_S2048 (.inl rfl) rfl)
        shapeCasts_S2048_S2048x1)))
    (shapeCast S2048x1
      (multiReduction .add [1] S2048
        (select
          (cmpi .eq (broadcastTo S2048x512 t5 broadcasts_S2048x1_S2048x512)
            (iota .tc S2048x512 32 [1] iota_S2048x512_d1_w32))
          s (broadcast S2048x512 (Scalar.ofBits .f32 0x00000000#32)))
        0x00000000#32 reduces_S2048x512_S2048 (.inl rfl) rfl)
      shapeCasts_S2048_S2048x1)

/-- The kernel's loss column of a tile is the loss column of the tile's scores. -/
theorem pay3_eq (x3 : Vec F S2048x256 .f32) (t4 : Vec F S2048x1 .i32) (p6 : Vec F S512x256 .f32) (n8 : Vec F S1x512 .f32) :
    k1_pay3 x3 t4 p6 n8 = lossCol (simBlk x3 p6 n8) (shapeCast S2048x1 t4 shapeCasts_S2048x1_S2048x1) := rfl

end LossColumn

/-! ## The matrix product of a tile with the prototypes, at an entry -/

/-- The operand indices of the product at output entry `i` and contraction position `q`, axis by axis: the row
    operand reads row `i 0` at feature `q`, the prototype operand prototype `i 1` at feature `q`. -/
theorem lhs_dot_0 (i : S2048x512.Idx) (q : dot_S2048x256_S512x256_S2048x512_1_1_0_0_n_n.contr.Idx) :
    (dot_S2048x256_S512x256_S2048x512_1_1_0_0_n_n.lhsIdx i q 0).val = (i 0).val := by
  unfold DotDims.lhsIdx
  rw [dif_neg (show ¬(0 : Fin S2048x256.rank) ∈ dot_S2048x256_S512x256_S2048x512_1_1_0_0_n_n.lhsBatch by decide), dif_pos (show (0 : Fin S2048x256.rank) ∈ dot_S2048x256_S512x256_S2048x512_1_1_0_0_n_n.lhsNonContracting by decide)]
  rfl
theorem lhs_dot_1 (i : S2048x512.Idx) (q : dot_S2048x256_S512x256_S2048x512_1_1_0_0_n_n.contr.Idx) :
    (dot_S2048x256_S512x256_S2048x512_1_1_0_0_n_n.lhsIdx i q 1).val = (q ⟨0, by decide⟩).val :=
  dot_S2048x256_S512x256_S2048x512_1_1_0_0_n_n.lhsIdx_val_of_single rfl i q
theorem rhs_dot_0 (i : S2048x512.Idx) (q : dot_S2048x256_S512x256_S2048x512_1_1_0_0_n_n.contr.Idx) :
    (dot_S2048x256_S512x256_S2048x512_1_1_0_0_n_n.rhsIdx i q 0).val = (i 1).val := by
  unfold DotDims.rhsIdx
  rw [dif_neg (show ¬(0 : Fin S512x256.rank) ∈ dot_S2048x256_S512x256_S2048x512_1_1_0_0_n_n.rhsBatch by decide), dif_pos (show (0 : Fin S512x256.rank) ∈ dot_S2048x256_S512x256_S2048x512_1_1_0_0_n_n.rhsNonContracting by decide)]
  rfl
theorem rhs_dot_1 (i : S2048x512.Idx) (q : dot_S2048x256_S512x256_S2048x512_1_1_0_0_n_n.contr.Idx) :
    (dot_S2048x256_S512x256_S2048x512_1_1_0_0_n_n.rhsIdx i q 1).val = (q ⟨0, by decide⟩).val :=
  dot_S2048x256_S512x256_S2048x512_1_1_0_0_n_n.rhsIdx_val_of_single rfl i q

/-- Entry (r, k) of the product: row r of the tile against prototype k, summed over the 256 features. -/
theorem dots_apply (x3 : FVec Ideal S2048x256 .f32) (p6 : FVec Ideal S512x256 .f32) (r : Fin 2048) (k : Fin 512) :
    matmul dot_S2048x256_S512x256_S2048x512_1_1_0_0_n_n none (truncf .bf16 x3 bitsLt_bf16_f32)
      (truncf .bf16 (shapeCast S512x256 p6 shapeCasts_S512x256_S512x256) bitsLt_bf16_f32)
      (constant (F := Ideal) S2048x512 .f32 0x00000000#32) (ix2 r k)
      = ∑ d : Fin 256, x3 (ix2 r d) * p6 (ix2 k d) := by
  rw [shapeCast_self]
  simp only [matmul]
  rw [Ideal.matmul_constant_zero_apply, ← Equiv.sum_comp (contrEquiv1 dot_S2048x256_S512x256_S2048x512_1_1_0_0_n_n 256 rfl rfl).symm]
  refine Finset.sum_congr rfl fun d _ => ?_
  have hk := contrEquiv1_symm_val dot_S2048x256_S512x256_S2048x512_1_1_0_0_n_n 256 rfl rfl d
  have el : dot_S2048x256_S512x256_S2048x512_1_1_0_0_n_n.lhsIdx (ix2 r k) ((contrEquiv1 dot_S2048x256_S512x256_S2048x512_1_1_0_0_n_n 256 rfl rfl).symm d) = ix2 r d := funext fun a => Fin.ext (by
    match a with
    | ⟨0, _⟩ => exact lhs_dot_0 _ _
    | ⟨1, _⟩ => exact (lhs_dot_1 _ _).trans hk)
  have er : dot_S2048x256_S512x256_S2048x512_1_1_0_0_n_n.rhsIdx (ix2 r k) ((contrEquiv1 dot_S2048x256_S512x256_S2048x512_1_1_0_0_n_n 256 rfl rfl).symm d) = ix2 k d := funext fun a => Fin.ext (by
    match a with
    | ⟨0, _⟩ => exact rhs_dot_0 _ _
    | ⟨1, _⟩ => exact (rhs_dot_1 _ _).trans hk)
  show x3 _ * p6 _ = _
  rw [el, er]

/-- The label test at lane k: the word of label l against the word of k, both below 2³². -/
theorem select_label {α : Type} (l k : Fin 512) (A B : α) :
    Scalar.select (IntOp.cmpi .eq (BitVec.ofNat 32 l.val) (BitVec.ofNat 32 k.val)) A B = if l = k then A else B := by
  by_cases h : l = k
  · subst h; rw [if_pos rfl]; unfold Scalar.select IntOp.cmpi; simp
  · rw [if_neg h]
    have hne : BitVec.ofNat 32 l.val ≠ BitVec.ofNat 32 k.val := by
      intro e
      have e' := congrArg BitVec.toNat e
      rw [BitVec.toNat_ofNat, BitVec.toNat_ofNat, Nat.mod_eq_of_lt (by have := l.isLt; omega),
        Nat.mod_eq_of_lt (by have := k.isLt; omega)] at e'
      exact h (Fin.ext e')
    have hb : (BitVec.ofNat 32 l.val == BitVec.ofNat 32 k.val) = false := beq_eq_false_iff_ne.mpr hne
    show (if BitVec.ofBool (BitVec.ofNat 32 l.val == BitVec.ofNat 32 k.val) = 1#1 then A else B) = B
    rw [hb]
    exact if_neg (by decide)

/-! ## The stages of a tile's loss column, each at an entry -/

/-- The word of −∞ is the extended reals' bottom. -/
theorem negInf_eq_bot : Ideal.ofBits .f32 0xFF800000#32 = (⊥ : EReal) := by simp [Ideal.ofBits, Ideal.ieee]

/-- Row r's entry of the column of row maxima is the supremum of the row. -/
theorem topCol_apply (s : FVec Ideal S2048x512 .f32) (r : Fin 2048) :
    topCol s (ix2 r (0 : Fin 1)) = rowMax fun k : Fin 512 => s (ix2 r k) := by
  unfold topCol rowMax
  refine (Cert.Lib.SoftmaxRows.colCast_apply _ _ r 0).trans ?_
  refine (Cert.Lib.SoftmaxRows.rowMax_apply s 0xFF800000#32 reduces_S2048x512_S2048 (.inl rfl) rfl r).trans ?_
  rw [negInf_eq_bot]
  rfl

/-- Row r's entry of the column of row norms. -/
theorem normCol_apply (x3 : FVec Ideal S2048x256 .f32) (r : Fin 2048) :
    sqrt (shapeCast S2048x1
      (multiReduction .add [1] S2048 (mulf x3 x3) 0x00000000#32 reduces_S2048x256_S2048 (.inl rfl) rfl)
      shapeCasts_S2048_S2048x1) (ix2 r (0 : Fin 1))
      = Ideal.sqrt (∑ d : Fin 256, x3 (ix2 r d) * x3 (ix2 r d)) := by
  show Ideal.sqrt (shapeCast S2048x1 _ shapeCasts_S2048_S2048x1 (ix2 r (0 : Fin 1))) = _
  refine congrArg Ideal.sqrt ?_
  refine (Cert.Lib.SoftmaxRows.colCast_apply _ _ r 0).trans ?_
  exact Cert.Lib.SoftmaxRows.rowSum_apply (mulf x3 x3) 0x00000000#32 reduces_S2048x256_S2048 (.inl rfl) rfl r

/-- Entry (r, k) of the tile's scores. -/
theorem simBlk_apply (x3 : FVec Ideal S2048x256 .f32) (p6 : FVec Ideal S512x256 .f32) (n8 : FVec Ideal S1x512 .f32)
    (r : Fin 2048) (k : Fin 512) :
    simBlk x3 p6 n8 (ix2 r k)
      = Ideal.div (∑ d : Fin 256, x3 (ix2 r d) * p6 (ix2 k d))
          (max (Ideal.sqrt (∑ d : Fin 256, x3 (ix2 r d) * x3 (ix2 r d)) * n8 (ix2 (0 : Fin 1) k))
            (Ideal.ofBits .f32 0x322BCC77#32)) := by
  unfold simBlk
  rw [divf_apply, maximumf_apply, mulf_apply]
  refine congrArg₂ Ideal.div (dots_apply x3 p6 r k) ?_
  refine congrArg₂ max ?_ rfl
  refine congrArg₂ (· * ·) ?_ ?_
  · exact (Cert.Lib.SoftmaxRows.colBroadcast_apply _ _ r k).trans (normCol_apply x3 r)
  · refine (broadcastTo_1b_ab_apply _ _ r k).trans ?_
    rw [shapeCast_self]

/-- Row r's entry of the loss column, for a row whose label word is that of `l`. -/
theorem lossCol_apply (s : FVec Ideal S2048x512 .f32) (t5 : IVec S2048x1 32) (r : Fin 2048) (l : Fin 512)
    (hl : t5 (ix2 r (0 : Fin 1)) = BitVec.ofNat 32 l.val) :
    lossCol s t5 (ix2 r (0 : Fin 1))
      = (rowMax (fun k : Fin 512 => s (ix2 r k)) + logSumExp (fun k : Fin 512 => s (ix2 r k)))
          - ∑ k : Fin 512, if l = k then s (ix2 r k) else 0 := by
  unfold lossCol
  rw [subf_apply, addf_apply]
  refine congrArg₂ (· - ·) (congrArg₂ (· + ·) (topCol_apply s r) ?_) ?_
  · unfold logSumExp
    show Ideal.log (shapeCast S2048x1 _ shapeCasts_S2048_S2048x1 (ix2 r (0 : Fin 1))) = _
    refine congrArg Ideal.log ?_
    refine (Cert.Lib.SoftmaxRows.colCast_apply _ _ r 0).trans ?_
    refine (Cert.Lib.SoftmaxRows.rowSum_apply _ 0x00000000#32 reduces_S2048x512_S2048 (.inl rfl) rfl r).trans ?_
    refine Finset.sum_congr rfl fun k _ => ?_
    show Ideal.exp (s (ix2 r k) - broadcastTo S2048x512 (topCol s) broadcasts_S2048x1_S2048x512 (ix2 r k)) = _
    refine congrArg (fun m => Ideal.exp (s (ix2 r k) - m)) ?_
    exact (Cert.Lib.SoftmaxRows.colBroadcast_apply _ _ r k).trans (topCol_apply s r)
  · refine (Cert.Lib.SoftmaxRows.colCast_apply _ _ r 0).trans ?_
    refine (Cert.Lib.SoftmaxRows.rowSum_apply _ 0x00000000#32 reduces_S2048x512_S2048 (.inl rfl) rfl r).trans ?_
    refine Finset.sum_congr rfl fun k _ => ?_
    show Scalar.select (IntOp.cmpi .eq (broadcastTo S2048x512 t5 broadcasts_S2048x1_S2048x512 (ix2 r k))
      (iota .tc S2048x512 32 [1] iota_S2048x512_d1_w32 (ix2 r k))) (s (ix2 r k)) (Ideal.ofBits .f32 0x00000000#32) = _
    rw [Cert.Lib.SoftmaxRows.colBroadcast_apply, hl, iota_single_apply, Ideal.ofBits_zero_f32]
    exact select_label l k _ _

/-! ## One row's loss, as a function of the row alone -/

/-- A row's scores against the prototypes `p`. -/
def simRow (xr : Fin 256 → EReal) (eps : EReal) (p : Fin 512 → Fin 256 → EReal) (k : Fin 512) : EReal :=
  Ideal.div (∑ d : Fin 256, xr d * p k d) (max (Ideal.sqrt (∑ d : Fin 256, xr d * xr d) * normP p k) eps)

/-- A row's loss: maximum plus log-sum-exp of its scores, less the score of its label. -/
def lossRow (xr : Fin 256 → EReal) (l : Fin 512) (eps : EReal) (p : Fin 512 → Fin 256 → EReal) : EReal :=
  (rowMax (simRow xr eps p) + logSumExp (simRow xr eps p)) - ∑ k : Fin 512, if l = k then simRow xr eps p k else 0

/-- The specification's loss of row n is the loss of that row and its label. -/
theorem nllK_eq (x : Fin 65536 → Fin 256 → EReal) (lab : Fin 65536 → Fin 512) (eps : EReal)
    (p : Fin 512 → Fin 256 → EReal) (n : Fin 65536) : nllK x lab eps p n = lossRow (x n) (lab n) eps p := rfl

/-- Row r of the kernel's loss column of a tile whose row r is `xr` with label `l`, over prototypes `p` and their
    norms, is that row's loss. -/
theorem pay3_apply (x3 : Vec Ideal S2048x256 .f32) (t4 : Vec Ideal S2048x1 .i32) (p6 : Vec Ideal S512x256 .f32)
    (n8 : Vec Ideal S1x512 .f32) (xr : Fin 256 → EReal) (l : Fin 512) (p : Fin 512 → Fin 256 → EReal) (r : Fin 2048)
    (hx : ∀ d : Fin 256, x3 (ix2 r d) = xr d) (ht : t4 (ix2 r (0 : Fin 1)) = BitVec.ofNat 32 l.val)
    (hp : ∀ (k : Fin 512) (d : Fin 256), p6 (ix2 k d) = p k d) (hn : ∀ k : Fin 512, n8 (ix2 (0 : Fin 1) k) = normP p k) :
    k1_pay3 (F := Ideal) x3 t4 p6 n8 (ix2 r (0 : Fin 1)) = lossRow xr l (Ideal.ofBits .f32 0x322BCC77#32) p := by
  refine (congrFun (pay3_eq (F := Ideal) x3 t4 p6 n8) (ix2 r (0 : Fin 1))).trans ?_
  refine (lossCol_apply (simBlk x3 p6 n8) _ r l (by rw [shapeCast_self]; exact ht)).trans ?_
  have hs : ∀ k : Fin 512, simBlk (F := Ideal) x3 p6 n8 (ix2 r k) = simRow xr (Ideal.ofBits .f32 0x322BCC77#32) p k :=
    fun k => by
      rw [simBlk_apply]
      unfold simRow
      simp only [hx, hp, hn]
  simp only [hs]
  rfl

/-! ## The accumulation step at an entry -/

/-- A one-entry array broadcast to [a, b] reads that entry everywhere. -/
theorem bcast11_apply {α : Type} {a b : ℕ} (x : (⟨2, ![1, 1]⟩ : Shape).Idx → α)
    (h : (⟨2, ![1, 1]⟩ : Shape).Broadcasts ⟨2, ![a, b]⟩) (i : Fin a) (j : Fin b) :
    broadcastTo ⟨2, ![a, b]⟩ x h (ix2 i j) = x (ix2 (0 : Fin 1) (0 : Fin 1)) :=
  broadcastTo_apply x h _ _ fun c => match c with
    | ⟨0, _⟩ => by
        show (0 : ℕ) = if (1 : ℕ) = 1 then 0 else i.val
        rw [if_pos rfl]
    | ⟨1, _⟩ => by
        show (0 : ℕ) = if (1 : ℕ) = 1 then 0 else j.val
        rw [if_pos rfl]

/-- The first axis put back into the one index of a [1] vector: row r of the [2048, 1] column. -/
theorem lift_col (r : Fin 2048) : reduces_S2048x1_S1.lift (ix1 (0 : Fin 1)) r = ix2 r (0 : Fin 1) :=
  funext fun c => Fin.ext (by match c with | ⟨0, _⟩ => rfl | ⟨1, _⟩ => rfl)

/-- The step at entry (0, a, b): the block's entry plus the sum of the tile's 2048 row losses. -/
theorem pay1_apply (v39 : FVec Ideal S2048x1 .f32) (v42 : Vec Ideal S1x8x128 .f32) (a : Fin 8) (b : Fin 128) :
    k1_pay1 (F := Ideal) v39 v42 (ix3 (0 : Fin 1) a b)
      = v42 (ix3 (0 : Fin 1) a b) + ∑ r : Fin 2048, v39 (ix2 r (0 : Fin 1)) := by
  unfold k1_pay1
  refine (shapeCast_ab_1ab_apply _ _ 0 a b).trans ?_
  rw [addf_apply]
  refine congrArg₂ (· + ·) (shapeCast_1ab_ab_apply v42 _ a b) ?_
  refine (bcast11_apply _ _ a b).trans ?_
  rw [shapeCast_self]
  refine (Cert.Lib.SoftmaxRows.colCast_apply _ _ (0 : Fin 1) (0 : Fin 1)).trans ?_
  refine (Ideal.multiReduction_add_single v39 0x00000000#32 reduces_S2048x1_S1 (.inl rfl) rfl (ix1 (0 : Fin 1))).trans ?_
  exact Finset.sum_congr rfl fun r _ => congrArg v39 (lift_col r)

/-- The zero block's entry is 0. -/
theorem pay2_apply (a : Fin 8) (b : Fin 128) : k1_pay2 (F := Ideal) (ix3 (0 : Fin 1) a b) = 0 := by
  unfold k1_pay2
  refine (shapeCast_ab_1ab_apply _ _ 0 a b).trans ?_
  exact Ideal.ofBits_zero_f32

-- The buffer contents the region is entered with: a parameter, as in the frame.
variable (V : (c : Dev nD) → (b : Ref sig .tc) → Buf (Elt Ideal) ((c : Thread nD τ).loc b))

/-! ## The window blocks at a point, read at coordinates -/

/-- The four input blocks at point t, at their literal shapes. -/
abbrev xblk (c : Dev nD) (t : Fin cfg1.N) : Vec Ideal S2048x256 .f32 := iblk1 V c 0 t
abbrev tblk (c : Dev nD) (t : Fin cfg1.N) : Vec Ideal S2048x1 .i32 := iblk1 V c 1 t
abbrev pblk (c : Dev nD) (t : Fin cfg1.N) : Vec Ideal S512x256 .f32 := iblk1 V c 2 t
abbrev nblk (c : Dev nD) (t : Fin cfg1.N) : Vec Ideal S1x512 .f32 := iblk1 V c 3 t

/-- The block index of every window at every point: rows and labels move with the point, prototypes and norms
    stay, the result's slab is the point's core. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val / 16 ∧ win1_4.index t (1 : Fin 3) = 0 ∧ win1_4.index t (2 : Fin 3) = 0 :=
  (by decide +kernel : ∀ t : Fin grid1.N, _)

/-- Row r of tile t, on the whole row axis. -/
def row (t : Fin cfg1.N) (r : Fin 2048) : Fin 65536 :=
  ⟨2048 * t.val + r.val, by have hN : cfg1.N = 32 := N_1; have := t.isLt; have := r.isLt; omega⟩

/-- Entry (r, d) of tile t's row block is row `2048 t + r` of the rows, feature d. -/
theorem xblk_apply (c : Dev nD) (t : Fin cfg1.N) (r : Fin 2048) (d : Fin 256) :
    xblk V c t (ix2 r d) = V c main_arg0 (ix2 (row t r) d) := by
  obtain ⟨e0, e1, -⟩ := idx_facts t
  show ((cfg1.win 0).blk t).view.read (Elt Ideal) (V c (Pipeline.arrRef spec1 0)) (ix2 r d) = _
  rw [View.read_apply]
  show V c main_arg0 (((cfg1.win 0).blk t).view.emb (ix2 r d)) = V c main_arg0 _
  refine congrArg (V c main_arg0) ?_
  funext a; apply Fin.ext
  match a with
  | ⟨0, _⟩ => show win1_0.index t (0 : Fin 2) * 2048 + 1 * r.val = 2048 * t.val + r.val; rw [e0]; omega
  | ⟨1, _⟩ => show win1_0.index t (1 : Fin 2) * 256 + 1 * d.val = d.val; rw [e1]; omega

/-- Entry r of tile t's label block is the label of row `2048 t + r`. -/
theorem tblk_apply (c : Dev nD) (t : Fin cfg1.N) (r : Fin 2048) :
    tblk V c t (ix2 r (0 : Fin 1)) = V c main_v0 (ix2 (row t r) (0 : Fin 1)) := by
  obtain ⟨-, -, e0, e1, -⟩ := idx_facts t
  show ((cfg1.win 1).blk t).view.read (Elt Ideal) (V c (Pipeline.arrRef spec1 1)) (ix2 r (0 : Fin 1)) = _
  rw [View.read_apply]
  show V c main_v0 (((cfg1.win 1).blk t).view.emb (ix2 r (0 : Fin 1))) = V c main_v0 _
  refine congrArg (V c main_v0) ?_
  funext a; apply Fin.ext
  match a with
  | ⟨0, _⟩ => show win1_1.index t (0 : Fin 2) * 2048 + 1 * r.val = 2048 * t.val + r.val; rw [e0]; omega
  | ⟨1, _⟩ => show win1_1.index t (1 : Fin 2) * 1 + 1 * 0 = 0; rw [e1]

/-- The prototypes' block is the whole prototype array at every point. -/
theorem pblk_apply (c : Dev nD) (t : Fin cfg1.N) (k : Fin 512) (d : Fin 256) :
    pblk V c t (ix2 k d) = V c main_v11 (ix2 k d) := by
  obtain ⟨-, -, -, -, e0, e1, -⟩ := idx_facts t
  show ((cfg1.win 2).blk t).view.read (Elt Ideal) (V c (Pipeline.arrRef spec1 2)) (ix2 k d) = _
  rw [View.read_apply]
  show V c main_v11 (((cfg1.win 2).blk t).view.emb (ix2 k d)) = V c main_v11 _
  refine congrArg (V c main_v11) ?_
  funext a; apply Fin.ext
  match a with
  | ⟨0, _⟩ => show win1_2.index t (0 : Fin 2) * 512 + 1 * k.val = k.val; rw [e0]; omega
  | ⟨1, _⟩ => show win1_2.index t (1 : Fin 2) * 256 + 1 * d.val = d.val; rw [e1]; omega

/-- The norms' block is the whole row of norms at every point. -/
theorem nblk_apply (c : Dev nD) (t : Fin cfg1.N) (k : Fin 512) :
    nblk V c t (ix2 (0 : Fin 1) k) = V c main_v13 (ix2 (0 : Fin 1) k) := by
  obtain ⟨-, -, -, -, -, -, e0, e1, -⟩ := idx_facts t
  show ((cfg1.win 3).blk t).view.read (Elt Ideal) (V c (Pipeline.arrRef spec1 3)) (ix2 (0 : Fin 1) k) = _
  rw [View.read_apply]
  show V c main_v13 (((cfg1.win 3).blk t).view.emb (ix2 (0 : Fin 1) k)) = V c main_v13 _
  refine congrArg (V c main_v13) ?_
  funext a; apply Fin.ext
  match a with
  | ⟨0, _⟩ => show win1_3.index t (0 : Fin 2) * 1 + 1 * 0 = 0; rw [e0]
  | ⟨1, _⟩ => show win1_3.index t (1 : Fin 2) * 512 + 1 * k.val = k.val; rw [e1]; omega

/-! ## Sums of row losses over tiles and halves -/

section Sums
variable (x : Fin 65536 → Fin 256 → EReal) (lab : Fin 65536 → Fin 512) (eps : EReal) (p : Fin 512 → Fin 256 → EReal)

/-- The row losses along the row axis, as a function of every natural (0 past the end). -/
def lossAt (e : ℕ) : EReal := if h : e < 65536 then nllK x lab eps p ⟨e, h⟩ else 0

/-- The sum of tile t's 2048 row losses. -/
def tileLoss (t : ℕ) : EReal := ∑ r : Fin 2048, lossAt x lab eps p (2048 * t + r.val)

/-- The 16 tiles of half q hold its 32768 rows: their tile sums add up to the half's share of the loss. -/
theorem half_sum (q : Fin 2) :
    ∑ s ∈ Finset.range 16, tileLoss x lab eps p (16 * q.val + s) = partLoss x lab eps p q := by
  have hq := q.isLt
  have hL : ∑ s ∈ Finset.range 16, tileLoss x lab eps p (16 * q.val + s)
      = ∑ e : Fin 32768, lossAt x lab eps p (32768 * q.val + e.val) := by
    refine Eq.trans (Finset.sum_congr rfl fun s _ => ?_)
      (Cert.Lib.sum_fin_tiles 2048 16 (fun e => lossAt x lab eps p (32768 * q.val + e)))
    unfold tileLoss
    refine Finset.sum_congr rfl fun r _ => ?_
    show lossAt x lab eps p (2048 * (16 * q.val + s) + r.val) = lossAt x lab eps p (32768 * q.val + (2048 * s + r.val))
    congr 1
    omega
  have hR : partLoss x lab eps p q = ∑ e : Fin 32768, lossAt x lab eps p (32768 * q.val + e.val) := by
    unfold partLoss
    have h2 : ∀ n : Fin 65536, (if n.val / 32768 = q.val then nllK x lab eps p n else 0)
        = (fun e : ℕ => if e / 32768 = q.val then lossAt x lab eps p e else 0) n.val := fun n => by
      show _ = if n.val / 32768 = q.val then lossAt x lab eps p n.val else 0
      unfold lossAt
      rw [dif_pos n.isLt]
    refine (Finset.sum_congr rfl fun n _ => h2 n).trans ?_
    refine (Cert.Lib.sum_fin_tiles 32768 2 (fun e : ℕ => if e / 32768 = q.val then lossAt x lab eps p e else 0)).symm.trans ?_
    have inner : ∀ s ∈ Finset.range 2,
        (∑ k : Fin 32768, (fun e : ℕ => if e / 32768 = q.val then lossAt x lab eps p e else 0) (32768 * s + k.val))
          = if s = q.val then ∑ k : Fin 32768, lossAt x lab eps p (32768 * s + k.val) else 0 := by
      intro s _
      by_cases hs : s = q.val
      · rw [if_pos hs]
        refine Finset.sum_congr rfl fun k _ => ?_
        show (if (32768 * s + k.val) / 32768 = q.val then _ else 0) = _
        rw [if_pos (by have := k.isLt; omega)]
      · rw [if_neg hs]
        refine Finset.sum_eq_zero fun k _ => ?_
        show (if (32768 * s + k.val) / 32768 = q.val then _ else 0) = 0
        rw [if_neg (by have := k.isLt; omega)]
    rw [Finset.sum_congr rfl inner, Finset.sum_ite_eq' (Finset.range 2) q.val, if_pos (Finset.mem_range.mpr hq)]
  rw [hL, hR]

/-- Half `q`'s share of the loss, the half named by a natural. -/
def partLossN (qn : ℕ) : EReal := ∑ n : Fin 65536, if n.val / 32768 = qn then nllK x lab eps p n else 0

theorem partLoss_eq (q : Fin 2) : partLoss x lab eps p q = partLossN x lab eps p q.val := rfl

end Sums

/-! ## One tile's step, and the running sum after each point -/

/-- The floor under the product of norms, as the kernel spells it. -/
abbrev epsK : EReal := Ideal.ofBits .f32 0x322BCC77#32

/-- Row r of the loss column of tile t is the loss of that row of the whole array. -/
theorem tile_rows (c : Dev nD) (x : Fin 65536 → Fin 256 → EReal) (lab : Fin 65536 → Fin 512) (p : Fin 512 → Fin 256 → EReal)
    (hx : ∀ (n : Fin 65536) (d : Fin 256), V c main_arg0 (ix2 n d) = x n d)
    (ht : ∀ n : Fin 65536, V c main_v0 (ix2 n (0 : Fin 1)) = BitVec.ofNat 32 (lab n).val)
    (hp : ∀ (k : Fin 512) (d : Fin 256), V c main_v11 (ix2 k d) = p k d)
    (hn : ∀ k : Fin 512, V c main_v13 (ix2 (0 : Fin 1) k) = normP p k)
    (t : Fin cfg1.N) (r : Fin 2048) :
    k1_pay3 (F := Ideal) (xblk V c t) (tblk V c t) (pblk V c t) (nblk V c t) (ix2 r (0 : Fin 1))
      = lossAt x lab epsK p (2048 * t.val + r.val) := by
  have hlt : 2048 * t.val + r.val < 65536 := (row t r).isLt
  refine (pay3_apply (xblk V c t) (tblk V c t) (pblk V c t) (nblk V c t) (x (row t r)) (lab (row t r)) p r
    (fun d => (xblk_apply V c t r d).trans (hx _ d)) ((tblk_apply V c t r).trans (ht _))
    (fun k d => (pblk_apply V c t k d).trans (hp k d)) (fun k => (nblk_apply V c t k).trans (hn k))).trans ?_
  unfold lossAt
  rw [dif_pos hlt]
  exact (nllK_eq x lab epsK p (row t r)).symm

/-- CASE A (a core's first tile): the block is zeroed, then the tile's sum added. -/
theorem step_A (c : Dev nD) (x : Fin 65536 → Fin 256 → EReal) (lab : Fin 65536 → Fin 512) (p : Fin 512 → Fin 256 → EReal)
    (hx : ∀ (n : Fin 65536) (d : Fin 256), V c main_arg0 (ix2 n d) = x n d)
    (ht : ∀ n : Fin 65536, V c main_v0 (ix2 n (0 : Fin 1)) = BitVec.ofNat 32 (lab n).val)
    (hp : ∀ (k : Fin 512) (d : Fin 256), V c main_v11 (ix2 k d) = p k d)
    (hn : ∀ k : Fin 512, V c main_v13 (ix2 (0 : Fin 1) k) = normP p k)
    (t : Fin cfg1.N) (h0 : t.val % 16 = 0) (a : Fin 8) (b : Fin 128) :
    outsAt1 V c t.val t.isLt (ix3 (0 : Fin 1) a b) = tileLoss x lab epsK p t.val := by
  rw [outsAt1_A V c t h0]
  refine (congrFun (out_A (F := Ideal) c (grid1.coords t) (ms1_0 t) (hs1_0 t) (ms1_1 t) (hs1_1 t) (ms1_2 t) (hs1_2 t)
    (ms1_3 t) (hs1_3 t) (ms1_4 t) (hs1_4 t) ((hcond1_0 t).mpr h0) (xblk V c t) (tblk V c t) (pblk V c t) (nblk V c t))
    (ix3 (0 : Fin 1) a b)).trans ?_
  refine (pay1_apply _ _ a b).trans ?_
  rw [pay2_apply, zero_add]
  exact Finset.sum_congr rfl fun r _ => tile_rows V c x lab p hx ht hp hn t r

/-- CASE B (a later tile of the core): the tile's sum is added to what the point before left. -/
theorem step_B (c : Dev nD) (x : Fin 65536 → Fin 256 → EReal) (lab : Fin 65536 → Fin 512) (p : Fin 512 → Fin 256 → EReal)
    (hx : ∀ (n : Fin 65536) (d : Fin 256), V c main_arg0 (ix2 n d) = x n d)
    (ht : ∀ n : Fin 65536, V c main_v0 (ix2 n (0 : Fin 1)) = BitVec.ofNat 32 (lab n).val)
    (hp : ∀ (k : Fin 512) (d : Fin 256), V c main_v11 (ix2 k d) = p k d)
    (hn : ∀ k : Fin 512, V c main_v13 (ix2 (0 : Fin 1) k) = normP p k)
    (t : Fin cfg1.N) (h0 : ¬t.val % 16 = 0) (a : Fin 8) (b : Fin 128) :
    outsAt1 V c t.val t.isLt (ix3 (0 : Fin 1) a b)
      = outsAt1 V c (t.val - 1) (Nat.lt_of_le_of_lt (Nat.sub_le _ _) t.isLt) (ix3 (0 : Fin 1) a b)
        + tileLoss x lab epsK p t.val := by
  rw [outsAt1_B V c t h0]
  refine (congrFun (out_B (F := Ideal) c (grid1.coords t) (ms1_0 t) (hs1_0 t) (ms1_1 t) (hs1_1 t) (ms1_2 t) (hs1_2 t)
    (ms1_3 t) (hs1_3 t) (ms1_4 t) (hs1_4 t) (fun h => h0 ((hcond1_0 t).mp h)) (xblk V c t) (tblk V c t) (pblk V c t)
    (nblk V c t) (outsAt1 V c (t.val - 1) (Nat.lt_of_le_of_lt (Nat.sub_le _ _) t.isLt))) (ix3 (0 : Fin 1) a b)).trans ?_
  refine (pay1_apply _ _ a b).trans ?_
  exact congrArg (_ + ·) (Finset.sum_congr rfl fun r _ => tile_rows V c x lab p hx ht hp hn t r)

/-- THE RUNNING SUM: after point n every entry of the block is the sum of the tile sums of the core's tiles so far. -/
theorem outsAt_eq (c : Dev nD) (x : Fin 65536 → Fin 256 → EReal) (lab : Fin 65536 → Fin 512) (p : Fin 512 → Fin 256 → EReal)
    (hx : ∀ (n : Fin 65536) (d : Fin 256), V c main_arg0 (ix2 n d) = x n d)
    (ht : ∀ n : Fin 65536, V c main_v0 (ix2 n (0 : Fin 1)) = BitVec.ofNat 32 (lab n).val)
    (hp : ∀ (k : Fin 512) (d : Fin 256), V c main_v11 (ix2 k d) = p k d)
    (hn : ∀ k : Fin 512, V c main_v13 (ix2 (0 : Fin 1) k) = normP p k) :
    ∀ (n : ℕ) (h : n < cfg1.N) (a : Fin 8) (b : Fin 128),
      outsAt1 V c n h (ix3 (0 : Fin 1) a b)
        = ∑ s ∈ Finset.range (n % 16 + 1), tileLoss x lab epsK p (16 * (n / 16) + s)
  | 0, h, a, b => by
    rw [step_A V c x lab p hx ht hp hn ⟨0, h⟩ rfl a b]
    simp
  | n + 1, h, a, b => by
    by_cases h0 : (n + 1) % 16 = 0
    · rw [step_A V c x lab p hx ht hp hn ⟨n + 1, h⟩ h0 a b, h0]
      have e : 16 * ((n + 1) / 16) + 0 = n + 1 := by omega
      simp only [Nat.zero_add, Finset.sum_range_one, e]
    · rw [step_B V c x lab p hx ht hp hn ⟨n + 1, h⟩ h0 a b]
      show outsAt1 V c n _ (ix3 (0 : Fin 1) a b) + tileLoss x lab epsK p (n + 1) = _
      rw [outsAt_eq c x lab p hx ht hp hn n (Nat.lt_of_succ_lt h) a b]
      have e1 : (n + 1) % 16 = n % 16 + 1 := by omega
      have e2 : (n + 1) / 16 = n / 16 := by omega
      rw [e1, e2, Finset.sum_range_succ _ (n % 16 + 1)]
      congr 2
      omega

/-! ## The write-back, and the result array -/

/-- What the result array ends holding: every entry of slab q at half q's share of the loss. -/
def resArr (c : Dev nD) (x : Fin 65536 → Fin 256 → EReal) (lab : Fin 65536 → Fin 512) (p : Fin 512 → Fin 256 → EReal) :
    Buf (Elt Ideal) ((c : Thread nD τ).loc main_v14) :=
  fun i : S2x8x128.Idx => partLossN x lab epsK p (i 0).val

/-- A core's last tile writes back its block of that array: the running sum over all 16 of the core's tiles. -/
theorem flushed_eq (c : Dev nD) (x : Fin 65536 → Fin 256 → EReal) (lab : Fin 65536 → Fin 512) (p : Fin 512 → Fin 256 → EReal)
    (hx : ∀ (n : Fin 65536) (d : Fin 256), V c main_arg0 (ix2 n d) = x n d)
    (ht : ∀ n : Fin 65536, V c main_v0 (ix2 n (0 : Fin 1)) = BitVec.ofNat 32 (lab n).val)
    (hp : ∀ (k : Fin 512) (d : Fin 256), V c main_v11 (ix2 k d) = p k d)
    (hn : ∀ k : Fin 512, V c main_v13 (ix2 (0 : Fin 1) k) = normP p k)
    (t : Fin cfg1.N) (hf : (cfg1.win 4).flush t = true) :
    (dat1 V c).flushed 4 t = ((cfg1.win 4).blk t).view.read (Elt Ideal) (resArr c x lab p) := by
  have hN : cfg1.N = 32 := N_1
  have h15 : t.val % 16 = 15 := (flush1_4 t).mp hf
  have htl := t.isLt
  obtain ⟨-, -, -, -, -, -, -, -, e0, e1, e2⟩ := idx_facts t
  show (cfg1.win 4).cut (grid1.coords t) ((dat1 V c).after 4 t) = _
  rw [after1_4]
  funext y
  rw [View.read_apply]
  have hy0 : (y 0).val = 0 := by have : (y 0).val < 1 := (y 0).isLt; omega
  have hy : (cfg1.win 4).xinj (grid1.coords t) y
      = ix3 (0 : Fin 1) (⟨(y 1).val, (y 1).isLt⟩ : Fin 8) (⟨(y 2).val, (y 2).isLt⟩ : Fin 128) :=
    funext fun ax => Fin.ext (by match ax with | ⟨0, _⟩ => exact hy0 | ⟨1, _⟩ => rfl | ⟨2, _⟩ => rfl)
  have hq : t.val / 16 < 2 := by omega
  have he : ((((cfg1.win 4).blk t).view.emb y) 0).val = t.val / 16 := by
    show win1_4.index t (0 : Fin 3) * 1 + 1 * (y 0).val = t.val / 16
    rw [e0, hy0]; omega
  refine Eq.trans (b := partLossN x lab epsK p (t.val / 16)) ?_ ?_
  · refine Eq.trans (congrArg (outsAt1 V c t.val t.isLt) hy) ?_
    rw [outsAt_eq V c x lab p hx ht hp hn t.val t.isLt, h15]
    exact half_sum x lab epsK p ⟨t.val / 16, hq⟩
  · refine Eq.trans ?_ (cast_eq _ _).symm
    exact congrArg (partLossN x lab epsK p) he.symm

/-- Every entry `(q, a, b)` of the second region's result array is half `q`'s sum of the row losses, for whatever
    prototypes `p` the region is handed together with their norms. -/
theorem final (c : Dev nD) (x : Fin 65536 → Fin 256 → EReal) (lab : Fin 65536 → Fin 512) (p : Fin 512 → Fin 256 → EReal)
    (hx : ∀ (n : Fin 65536) (d : Fin 256), V c main_arg0 (ix2 n d) = x n d)
    (ht : ∀ n : Fin 65536, V c main_v0 (ix2 n (0 : Fin 1)) = BitVec.ofNat 32 (lab n).val)
    (hp : ∀ (k : Fin 512) (d : Fin 256), V c main_v11 (ix2 k d) = p k d)
    (hn : ∀ k : Fin 512, V c main_v13 (ix2 (0 : Fin 1) k) = normP p k)
    (q : Fin 2) (a : Fin 8) (b : Fin 128) :
    (dat1 (F := Ideal) V c).arrAt 4 cfg1.N (ix3 q a b)
      = partLoss x lab (Ideal.ofBits .f32 0x322BCC77#32) p q := by
  have hN : cfg1.N = 32 := N_1
  have hq := q.isLt
  obtain ⟨t, htv⟩ : ∃ t : Fin cfg1.N, t.val = 16 * q.val + 15 := ⟨⟨16 * q.val + 15, by omega⟩, rfl⟩
  have hf : (cfg1.win 4).flush t = true := (flush1_4 t).mpr (by omega)
  obtain ⟨-, -, -, -, -, -, -, -, e0, e1, e2⟩ := idx_facts t
  refine ((dat1 V c).arrAt_apply_of_mem 4 (resArr c x lab p) (fun t hf => flushed_eq V c x lab p hx ht hp hn t hf)
    cfg1.N t (ix3 q a b) t.isLt hf ?_).trans rfl
  show ix3 q a b ∈ ((View.whole main_v14).slice (win1_4.rect t)).set
  rw [View.set_slice_whole, Rect.mem_set_unit]
  intro ax
  match ax with
  | ⟨0, _⟩ =>
    show win1_4.index t (0 : Fin 3) * 1 ≤ q.val ∧ q.val < win1_4.index t (0 : Fin 3) * 1 + 1
    rw [e0]; omega
  | ⟨1, _⟩ =>
    show win1_4.index t (1 : Fin 3) * 8 ≤ a.val ∧ a.val < win1_4.index t (1 : Fin 3) * 8 + 8
    rw [e1]; have := a.isLt; omega
  | ⟨2, _⟩ =>
    show win1_4.index t (2 : Fin 3) * 128 ≤ b.val ∧ b.val < win1_4.index t (2 : Fin 3) * 128 + 128
    rw [e2]; have := b.isLt; omega

end Cert.KernelIdeal.Reg1

end
-- ==== Proof.KValue.lean ====
/-
  The kernel program's result, at the extended reals, is `lossK` of the rows and labels it was launched with: the first
  region leaves the two halves of the label sums, the host stretch between the regions turns them and the label counts
  into the kernel's prototypes and their norms, the second region leaves the two halves of the summed row losses, and
  the last stretch adds the halves and divides by the number of rows.
-/
import proofs.«428232_j56435870269925_3_alg».proof.Proof.GlueIn
import proofs.«428232_j56435870269925_3_alg».proof.Proof.Region0
import proofs.«428232_j56435870269925_3_alg».proof.Proof.Region1
import proofs.«428232_j56435870269925_3_alg».proof.Proof.LibSoftmaxRows

set_option maxRecDepth 16384

noncomputable section

namespace Cert.KernelIdeal.KValue

open Cert.KernelIdeal Cert.KernelIdeal.Gen Cert.ProtoLoss
open Idealize.ShloMosaic Idealize.ShloMosaic.TcCoe Idealize.ShloMosaic.ValueIdx Idealize.SL.Sem

variable (m : (ℓ : Loc nD τ sig) → Buf (Elt Ideal) ℓ) (ρ : Dev nD → PrngReg)

/-- The kernel's result buffer at the end of its run holds `lossK`. -/
theorem result_eq (c : Dev nD) (x : Fin 65536 → Fin 256 → EReal) (lab : Fin 65536 → Fin 512)
    (hx : ∀ (n : Fin 65536) (d : Fin 256), m ((c : Thread nD τ).loc main_arg0) (ix2 n d) = x n d)
    (ht : ∀ n : Fin 65536, m ((c : Thread nD τ).loc main_arg1) (ix1 n) = BitVec.ofNat 32 (lab n).val) :
    W7 m ρ c (Proc.devRef .tc main_v20) ix0
      = lossK x lab (Ideal.ofBits .f32 0x322BCC77#32) (Ideal.ofBits .f32 0x47800000#32) := by
  -- the labels as the column both regions read
  have hcol : ∀ n : Fin 65536, shapeCast S65536x1 (m ((c : Thread nD τ).loc main_arg1)) shapeCasts_S65536_S65536x1
      (ix2 n (0 : Fin 1)) = BitVec.ofNat 32 (lab n).val :=
    fun n => (Cert.Lib.SoftmaxRows.colCast_apply _ shapeCasts_S65536_S65536x1 n 0).trans (ht n)
  -- the first region
  have hx1 : ∀ (n : Fin 65536) (d : Fin 256), V1 m ρ c main_arg0 (ix2 n d) = x n d := fun n d => by
    show W1 m ρ c (Proc.devRef .tc main_arg0) (ix2 n d) = _
    rw [Glue.W1_arg0]; exact hx n d
  have ht1 : ∀ n : Fin 65536, V1 m ρ c main_v0 (ix2 n (0 : Fin 1)) = BitVec.ofNat 32 (lab n).val := fun n => by
    show W1 m ρ c (Proc.devRef .tc main_v0) (ix2 n (0 : Fin 1)) = _
    rw [Glue.W1_v0]; exact hcol n
  have hP : ∀ (q : Fin 2) (k : Fin 512) (d : Fin 256),
      W2 m ρ c (Proc.devRef .tc main_v1) (ix3 q k d) = partSum x lab q k d := fun q k d => by
    rw [Glue.W2_v1]; exact Reg0.final (V1 m ρ) c x lab hx1 ht1 q k d
  -- between the regions
  have ht2 : ∀ n : Fin 65536, W2 m ρ c (Proc.devRef .tc main_arg1) (ix1 n) = BitVec.ofNat 32 (lab n).val := fun n => by
    rw [Glue.W2_arg1]; exact ht n
  have hQ : ∀ (k : Fin 512) (d : Fin 256), W3 m ρ c (Proc.devRef .tc main_v11) (ix2 k d) = protoK x lab k d := fun k d => by
    rw [Glue.W3_v11]; exact Glue.protosOf_apply x lab _ _ hP ht2 k d
  -- the second region
  have hx5 : ∀ (n : Fin 65536) (d : Fin 256), V5 m ρ c main_arg0 (ix2 n d) = x n d := fun n d => by
    show W5 m ρ c (Proc.devRef .tc main_arg0) (ix2 n d) = _
    rw [Glue.W5_arg0]; exact hx n d
  have ht5 : ∀ n : Fin 65536, V5 m ρ c main_v0 (ix2 n (0 : Fin 1)) = BitVec.ofNat 32 (lab n).val := fun n => by
    show W5 m ρ c (Proc.devRef .tc main_v0) (ix2 n (0 : Fin 1)) = _
    rw [Glue.W5_v0]; exact hcol n
  have hp5 : ∀ (k : Fin 512) (d : Fin 256), V5 m ρ c main_v11 (ix2 k d) = protoK x lab k d := fun k d => by
    show W5 m ρ c (Proc.devRef .tc main_v11) (ix2 k d) = _
    rw [Glue.W5_v11]; exact hQ k d
  have hn5 : ∀ k : Fin 512, V5 m ρ c main_v13 (ix2 (0 : Fin 1) k) = normP (protoK x lab) k := fun k => by
    show W5 m ρ c (Proc.devRef .tc main_v13) (ix2 (0 : Fin 1) k) = _
    rw [Glue.W5_v13]; exact Glue.normsOf_apply _ _ hQ k
  have hL : ∀ (q : Fin 2) (a : Fin 8) (b : Fin 128), W6 m ρ c (Proc.devRef .tc main_v14) (ix3 q a b)
      = partLoss x lab (Ideal.ofBits .f32 0x322BCC77#32) (protoK x lab) q := fun q a b => by
    rw [Glue.W6_v14]; exact Reg1.final (V5 m ρ) c x lab (protoK x lab) hx5 ht5 hp5 hn5 q a b
  -- the tail
  rw [Glue.W7_v20]
  exact Glue.meanOf_apply x lab _ _ hL

end Cert.KernelIdeal.KValue

end
-- ==== Proof.RefCasts.lean ====
/-
  The reference program calls four functions. A called function names its values through typed references, and a value
  crossing a call — an argument handed in, a result handed back, and the operand of a reshape inside the callee — is
  transported along the equation between the buffer's type and the value's type. For each of the nine buffers where such
  a transport is left standing alone the two types are the same type, so the transport is the identity.
-/
import proofs.«428232_j56435870269925_3_alg».proof.Proof.Gen.ReferenceIdeal
import Idealize.ShloMosaic.Lib.StableHlo

noncomputable section

namespace Cert.ReferenceIdeal.Casts

open Cert.ReferenceIdeal Idealize.ShloMosaic Idealize.ShloMosaic.StableHlo

variable {F : FTy → Type} [FloatOps F]

theorem toBuf_main_v24 (h1 : (main_v24 : Ref sig .tc).ty = (⟨S65536x1, .f32⟩ : BufTy)) (h2 h3) (v : (⟨S65536x1, .f32⟩ : BufTy).Contents (Elt F)) :
    (TRef.of (sig := sig) (T := ⟨S65536x1, .f32⟩) main_v24 h1 h2 h3).toBuf v = v := rfl
theorem toBuf_main_call3_v4 (h1 : (main_call3_v4 : Ref sig .tc).ty = (⟨S65536x1, .i32⟩ : BufTy)) (h2 h3) (v : (⟨S65536x1, .i32⟩ : BufTy).Contents (Elt F)) :
    (TRef.of (sig := sig) (T := ⟨S65536x1, .i32⟩) main_call3_v4 h1 h2 h3).toBuf v = v := rfl
theorem toBuf_main_v12 (h1 : (main_v12 : Ref sig .tc).ty = (⟨S65536, .f32⟩ : BufTy)) (h2 h3) (v : (⟨S65536, .f32⟩ : BufTy).Contents (Elt F)) :
    (TRef.of (sig := sig) (T := ⟨S65536, .f32⟩) main_v12 h1 h2 h3).toBuf v = v := rfl
theorem toBuf_main_v13 (h1 : (main_v13 : Ref sig .tc).ty = (⟨S512, .f32⟩ : BufTy)) (h2 h3) (v : (⟨S512, .f32⟩ : BufTy).Contents (Elt F)) :
    (TRef.of (sig := sig) (T := ⟨S512, .f32⟩) main_v13 h1 h2 h3).toBuf v = v := rfl
theorem ofBuf_main_call3_v5 (h1 : (main_call3_v5 : Ref sig .tc).ty = (⟨S65536x1x1, .i32⟩ : BufTy)) (h2 h3) (v : (⟨S65536x1x1, .i32⟩ : BufTy).Contents (Elt F)) :
    (TRef.of (sig := sig) (T := ⟨S65536x1x1, .i32⟩) main_call3_v5 h1 h2 h3).ofBuf v = v := rfl
theorem ofBuf_main_v23 (h1 : (main_v23 : Ref sig .tc).ty = (⟨S65536x1, .i32⟩ : BufTy)) (h2 h3) (v : (⟨S65536x1, .i32⟩ : BufTy).Contents (Elt F)) :
    (TRef.of (sig := sig) (T := ⟨S65536x1, .i32⟩) main_v23 h1 h2 h3).ofBuf v = v := rfl
theorem ofBuf_main_v21 (h1 : (main_v21 : Ref sig .tc).ty = (⟨S65536x512, .f32⟩ : BufTy)) (h2 h3) (v : (⟨S65536x512, .f32⟩ : BufTy).Contents (Elt F)) :
    (TRef.of (sig := sig) (T := ⟨S65536x512, .f32⟩) main_v21 h1 h2 h3).ofBuf v = v := rfl
theorem ofBuf_main_arg0 (h1 : (main_arg0 : Ref sig .tc).ty = (⟨S65536x256, .f32⟩ : BufTy)) (h2 h3) (v : (⟨S65536x256, .f32⟩ : BufTy).Contents (Elt F)) :
    (TRef.of (sig := sig) (T := ⟨S65536x256, .f32⟩) main_arg0 h1 h2 h3).ofBuf v = v := rfl
theorem ofBuf_main_v9 (h1 : (main_v9 : Ref sig .tc).ty = (⟨S512x256, .f32⟩ : BufTy)) (h2 h3) (v : (⟨S512x256, .f32⟩ : BufTy).Contents (Elt F)) :
    (TRef.of (sig := sig) (T := ⟨S512x256, .f32⟩) main_v9 h1 h2 h3).ofBuf v = v := rfl

end Cert.ReferenceIdeal.Casts

end
-- ==== Proof.RefValue.lean ====
/-
  What the reference program computes, as the mathematics of Proof/Spec.lean: for real rows and labels that are words of
  numbers below 512 its one result is `lossR` — the segment sums and counts by scatter, the prototypes their quotient,
  the similarities a matrix product over floored norms, the row's log-softmax, the label's entry picked by a gather whose
  index is in range (so neither the wrap of a negative index nor the out-of-range fill is met), negated, summed over the
  rows and divided by their number.
-/
import proofs.«428232_j56435870269925_3_alg».proof.Proof.RefRead
import proofs.«428232_j56435870269925_3_alg».proof.Proof.Spec
import proofs.«428232_j56435870269925_3_alg».proof.Proof.SegmentSum
import proofs.«428232_j56435870269925_3_alg».proof.Proof.LibSoftmaxRows
import Idealize.ShloMosaic.Lib.Pipeline.Value
import Idealize.ShloMosaic.Lib.ValueIdx
import Idealize.ShloMosaic.Lib.ValueIdxRank1
import Idealize.ShloMosaic.Lib.ValueLayout
import Idealize.ShloMosaic.Lib.IdealHost
import Idealize.ShloMosaic.Lib.Affine
import Idealize.ShloMosaic.PureOps.Ideal.Laws

set_option maxRecDepth 16384

noncomputable section

namespace Cert.ReferenceIdeal.RefV

open Cert.ReferenceIdeal Cert.ReferenceIdeal.Gen Cert.ReferenceIdeal.ReadP Cert.ProtoLoss
open Idealize.ShloMosaic Idealize.ShloMosaic.TcCoe Idealize.ShloMosaic.ValueIdx Idealize.SL.Sem

section Stages

variable (xv : (⟨S65536x256, .f32⟩ : BufTy).Contents (Elt Ideal)) (tv : (⟨S65536, .i32⟩ : BufTy).Contents (Elt Ideal))
  (x : Fin 65536 → Fin 256 → EReal) (lab : Fin 65536 → Fin 512)

/-! ## The prototypes: segment sums over counts -/

/-- The label column the count's scatter reads holds, in row n, the label word of row n. -/
theorem labelCol_v5 (n : Fin 65536) : val_main_v5 (F := Ideal) tv (ix2 n (0 : Fin 1)) = tv (ix1 n) := by
  rw [val_main_v5_apply]
  exact congrArg tv (funext fun a => Fin.ext (by match a with | ⟨0, _⟩ => rfl))

/-- So does the one the sum's scatter reads. -/
theorem labelCol_v1 (n : Fin 65536) : val_main_v1 (F := Ideal) tv (ix2 n (0 : Fin 1)) = tv (ix1 n) := by
  rw [val_main_v1_apply]
  exact congrArg tv (funext fun a => Fin.ext (by match a with | ⟨0, _⟩ => rfl))

/-- A label word read signed is k exactly when the label is k. -/
theorem label_test (ht : ∀ n : Fin 65536, tv (ix1 n) = BitVec.ofNat 32 (lab n).val) (n : Fin 65536) (k : Fin 512) :
    ((tv (ix1 n)).toInt = (k.val : ℤ)) ↔ lab n = k := by
  rw [ht n, SegmentSum.toInt_label]
  constructor
  · intro h; exact Fin.ext (by exact_mod_cast h)
  · intro h; rw [h]

/-- The scatter of ones into zeros counts the rows of each label. -/
theorem count_eq (ht : ∀ n : Fin 65536, tv (ix1 n) = BitVec.ofNat 32 (lab n).val) (k : Fin 512) :
    val_main_v6 (F := Ideal) tv (ix1 k) = ProtoLoss.count lab k := by
  unfold val_main_v6
  show Ideal.hostScatterAdd SegmentSum.vecDims (val_main_v4 (F := Ideal)) (val_main_v5 (F := Ideal) tv) (val_main_v3 (F := Ideal)) (ix1 k) = _
  rw [SegmentSum.scatterAdd_vec, val_main_v4_apply, val_main_cst_1_apply, Ideal.ofBits_def, Ideal.ofBits_zero_f32, zero_add]
  unfold ProtoLoss.count
  refine Finset.sum_congr rfl fun n _ => ?_
  rw [labelCol_v5, val_main_v3_apply, val_main_cst_0_apply, Ideal.ofBits_def, Ideal.ofBits_one_f32]
  exact if_congr (label_test tv lab ht n k) rfl rfl

/-- The scatter of the rows into zeros sums the rows of each label. -/
theorem segSum_eq (hx : ∀ (n : Fin 65536) (d : Fin 256), xv (ix2 n d) = x n d)
    (ht : ∀ n : Fin 65536, tv (ix1 n) = BitVec.ofNat 32 (lab n).val) (k : Fin 512) (d : Fin 256) :
    val_main_v2 (F := Ideal) xv tv (ix2 k d) = segSum x lab k d := by
  unfold val_main_v2
  show Ideal.hostScatterAdd SegmentSum.rowDims (val_main_v0 (F := Ideal)) (val_main_v1 (F := Ideal) tv) xv (ix2 k d) = _
  rw [SegmentSum.scatterAdd_rows, val_main_v0_apply, val_main_cst_apply, Ideal.ofBits_def, Ideal.ofBits_zero_f32, zero_add]
  unfold segSum
  refine Finset.sum_congr rfl fun n _ => ?_
  rw [labelCol_v1, hx]
  exact if_congr (label_test tv lab ht n k) rfl rfl

/-- Prototype k, feature d: the label's sum over its count. -/
theorem proto_eq (hx : ∀ (n : Fin 65536) (d : Fin 256), xv (ix2 n d) = x n d)
    (ht : ∀ n : Fin 65536, tv (ix1 n) = BitVec.ofNat 32 (lab n).val) (k : Fin 512) (d : Fin 256) :
    val_main_v9 (F := Ideal) xv tv (ix2 k d) = protoR x lab k d := by
  rw [val_main_v9_apply, Ideal.hostDivf_def, segSum_eq xv tv x lab hx ht, val_main_v8_apply, val_main_v7_apply]
  have e : idx_main_v7 (idx_main_v8 (ix2 k d)) = ix1 k := funext fun a => Fin.ext (by match a with | ⟨0, _⟩ => rfl)
  rw [e, count_eq tv lab ht]
  rfl

/-! ## The similarities: a matrix product over floored norms -/

/-- The matrix product of the rows with the transposed prototypes. -/
theorem dot_eq (hx : ∀ (n : Fin 65536) (d : Fin 256), xv (ix2 n d) = x n d)
    (ht : ∀ n : Fin 65536, tv (ix1 n) = BitVec.ofNat 32 (lab n).val) (n : Fin 65536) (k : Fin 512) :
    val_main_v11 (F := Ideal) xv tv (ix2 n k) = ∑ d : Fin 256, x n d * protoR x lab k d := by
  rw [val_main_v11_apply]
  refine Finset.sum_congr rfl fun d _ => ?_
  have el : lidx_main_v11 (ix2 n k) d = ix2 n d := funext fun a => Fin.ext (by match a with | ⟨0, _⟩ => rfl | ⟨1, _⟩ => rfl)
  have er : idx_main_v10 (ridx_main_v11 (ix2 n k) d) = ix2 k d := funext fun a => Fin.ext (by match a with | ⟨0, _⟩ => rfl | ⟨1, _⟩ => rfl)
  rw [el, hx, val_main_v10_apply, er, proto_eq xv tv x lab hx ht]

/-- The norm of row n. -/
theorem normX_eq (hx : ∀ (n : Fin 65536) (d : Fin 256), xv (ix2 n d) = x n d) (n : Fin 65536) :
    val_main_v12 (F := Ideal) xv (ix1 n) = normX x n := by
  rw [val_main_v12_apply, Ideal.hostUnary_sqrt_def, val_main_call0_v1_apply, val_main_call0_cst_apply, Ideal.ofBits_def,
    Ideal.ofBits_zero_f32, zero_add]
  unfold normX
  refine congrArg Ideal.sqrt (Finset.sum_congr rfl fun d _ => ?_)
  have e : idx_main_call0_v1 (ix1 n) d = ix2 n d := funext fun a => Fin.ext (by match a with | ⟨0, _⟩ => rfl | ⟨1, _⟩ => rfl)
  rw [val_main_call0_v0_apply, Ideal.mulf_def, e, hx]

/-- The norm of prototype k. -/
theorem normP_eq (hx : ∀ (n : Fin 65536) (d : Fin 256), xv (ix2 n d) = x n d)
    (ht : ∀ n : Fin 65536, tv (ix1 n) = BitVec.ofNat 32 (lab n).val) (k : Fin 512) :
    val_main_v13 (F := Ideal) xv tv (ix1 k) = normP (protoR x lab) k := by
  rw [val_main_v13_apply, Ideal.hostUnary_sqrt_def, val_main_call1_v1_apply, val_main_call1_cst_apply, Ideal.ofBits_def,
    Ideal.ofBits_zero_f32, zero_add]
  unfold normP
  refine congrArg Ideal.sqrt (Finset.sum_congr rfl fun d _ => ?_)
  have e : idx_main_call1_v1 (ix1 k) d = ix2 k d := funext fun a => Fin.ext (by match a with | ⟨0, _⟩ => rfl | ⟨1, _⟩ => rfl)
  rw [val_main_call1_v0_apply, Ideal.mulf_def, e, proto_eq xv tv x lab hx ht]

/-- The similarity of row n and prototype k. -/
theorem sim_eq (hx : ∀ (n : Fin 65536) (d : Fin 256), xv (ix2 n d) = x n d)
    (ht : ∀ n : Fin 65536, tv (ix1 n) = BitVec.ofNat 32 (lab n).val) (n : Fin 65536) (k : Fin 512) :
    val_main_v21 (F := Ideal) xv tv (ix2 n k)
      = sim x (Ideal.ofBits .f32 0x322BCC77#32) (protoR x lab) n k := by
  have e16 : idx_main_v14 (idx_main_v16 (ix2 n k)) = ix1 n := funext fun a => Fin.ext (by match a with | ⟨0, _⟩ => rfl)
  have e17 : idx_main_v15 (idx_main_v17 (ix2 n k)) = ix1 k := funext fun a => Fin.ext (by match a with | ⟨0, _⟩ => rfl)
  rw [val_main_v21_apply, Ideal.hostDivf_def, dot_eq xv tv x lab hx ht, val_main_v20_apply, Ideal.maximumf_def,
    val_main_v18_apply, Ideal.mulf_def, val_main_v16_apply, val_main_v14_apply, e16, normX_eq xv x hx,
    val_main_v17_apply, val_main_v15_apply, e17, normP_eq xv tv x lab hx ht, val_main_v19_apply, val_main_cst_2_apply,
    Ideal.ofBits_def]
  unfold sim
  rfl

/-! ## The log-softmax of a row -/

/-- The f32 pattern of -∞ is the least extended real. -/
theorem ofBits_negInf : Ideal.ofBits .f32 0xFF800000#32 = (⊥ : EReal) := by simp [Ideal.ofBits, Ideal.ieee]

/-- The row maximum as the program takes it — a fold of max from -∞ over the row, joined with -∞ once more — is the
    supremum of the row's entries. -/
theorem rowMaxStage (n : Fin 65536) :
    val_main_call2_v2 (F := Ideal) xv tv (ix1 n) = rowMax (fun k : Fin 512 => val_main_v21 (F := Ideal) xv tv (ix2 n k)) := by
  have hr : S65536x512.Reduces [1] S65536 := by decide
  have e : (val_main_v21 (F := Ideal) xv tv ∘ hr.lift (ix1 n)) = fun k : Fin 512 => val_main_v21 (F := Ideal) xv tv (ix2 n k) :=
    funext fun k => congrArg (val_main_v21 (F := Ideal) xv tv) (Cert.Lib.SoftmaxRows.lift_row hr n k)
  rw [val_main_call2_v2_apply, val_main_call2_v1_apply, val_main_call2_cst_0_apply, Ideal.maximumf_def, Ideal.ofBits_def,
    ofBits_negInf, max_bot_left]
  unfold val_main_call2_v0
  rw [Host.reduce_eq_fold_single (FloatOps.maximumf (F := Ideal) (φ := .f32)) _ _ reducesTo_S65536x512_S65536_d1 hr h_S_ (ix1 n),
    e, val_main_call2_cst_apply, Ideal.ofBits_def, ofBits_negInf]
  rfl

/-- An entry less its row's maximum. -/
theorem shifted_eq (n : Fin 65536) (k : Fin 512) :
    val_main_call2_v5 (F := Ideal) xv tv (ix2 n k)
      = val_main_v21 (F := Ideal) xv tv (ix2 n k) - rowMax (fun k' : Fin 512 => val_main_v21 (F := Ideal) xv tv (ix2 n k')) := by
  have e : idx_main_call2_v3 (idx_main_call2_v4 (ix2 n k)) = ix1 n := funext fun a => Fin.ext (by match a with | ⟨0, _⟩ => rfl)
  rw [val_main_call2_v5_apply, Ideal.subf_def, val_main_call2_v4_apply, val_main_call2_v3_apply, e, rowMaxStage]

/-- The logarithm of the row's sum of exponentials. -/
theorem logSum_eq (n : Fin 65536) (k : Fin 512) :
    val_main_call2_v10 (F := Ideal) xv tv (ix2 n k)
      = logSumExp (fun k' : Fin 512 => val_main_v21 (F := Ideal) xv tv (ix2 n k')) := by
  have e : idx_main_call2_v8 (idx_main_call2_v10 (ix2 n k)) = ix1 n := funext fun a => Fin.ext (by match a with | ⟨0, _⟩ => rfl)
  rw [val_main_call2_v10_apply, val_main_call2_v9_apply, Ideal.hostUnary_log_def, val_main_call2_v8_apply, e,
    val_main_call2_v7_apply, val_main_call2_cst_1_apply, Ideal.ofBits_def, Ideal.ofBits_zero_f32, zero_add]
  unfold logSumExp
  refine congrArg Ideal.log (Finset.sum_congr rfl fun k' _ => ?_)
  have e' : idx_main_call2_v7 (ix1 n) k' = ix2 n k' := funext fun a => Fin.ext (by match a with | ⟨0, _⟩ => rfl | ⟨1, _⟩ => rfl)
  rw [val_main_call2_v6_apply, Ideal.hostUnary_exp_def, e', shifted_eq]

/-- The log-softmax of row n at column k. -/
theorem logSoftmax_eq (hx : ∀ (n : Fin 65536) (d : Fin 256), xv (ix2 n d) = x n d)
    (ht : ∀ n : Fin 65536, tv (ix1 n) = BitVec.ofNat 32 (lab n).val) (n : Fin 65536) (k : Fin 512) :
    val_main_v22 (F := Ideal) xv tv (ix2 n k)
      = (sim x (Ideal.ofBits .f32 0x322BCC77#32) (protoR x lab) n k
          - rowMax (sim x (Ideal.ofBits .f32 0x322BCC77#32) (protoR x lab) n))
        - logSumExp (sim x (Ideal.ofBits .f32 0x322BCC77#32) (protoR x lab) n) := by
  have es : (fun k' : Fin 512 => val_main_v21 (F := Ideal) xv tv (ix2 n k'))
      = sim x (Ideal.ofBits .f32 0x322BCC77#32) (protoR x lab) n := funext fun k' => sim_eq xv tv x lab hx ht n k'
  rw [val_main_v22_apply, Ideal.subf_def, shifted_eq, logSum_eq, es, sim_eq xv tv x lab hx ht]

/-! ## The label's entry, picked by a gather whose index is in range -/

/-- The start-index array of the gather holds, in row m, the label word of row m: the wrap of a negative index is not
    met, a label read signed being no less than zero. -/
theorem startIdx_eq (ht : ∀ n : Fin 65536, tv (ix1 n) = BitVec.ofNat 32 (lab n).val) (m : Fin 65536) (a b : Fin 1) :
    val_main_call3_v5 (F := Ideal) tv (ix3 m a b) = BitVec.ofNat 32 (lab m).val := by
  have e : idx_main_call3_v5 (ix3 m a b) = ix2 m (0 : Fin 1) := funext fun c => Fin.ext (by
    match c with
    | ⟨0, _⟩ =>
      show ((m.val * 1 + a.val) * 1 + b.val) / 1 = m.val
      have := a.isLt; have := b.isLt; omega
    | ⟨1, _⟩ => rfl)
  have e23 : idx_main_v23 (ix2 m (0 : Fin 1)) = ix1 m := funext fun c => Fin.ext (by match c with | ⟨0, _⟩ => rfl)
  have hneg : IntOp.cmpi .slt (BitVec.ofNat 32 (lab m).val) 0#32 = 0#1 := by
    refine eq_zero_of_ne_one fun h => ?_
    rw [IntOp.cmpi_slt, SegmentSum.toInt_label] at h
    have h0 : (0#32 : BitVec 32).toInt = 0 := by decide
    rw [h0] at h
    omega
  rw [val_main_call3_v5_apply, e, val_main_call3_v4_apply, val_main_call3_v1_apply, val_main_v23_apply, e23, ht,
    val_main_call3_v0_apply, val_main_call3_c_apply, hneg, select_zero]

/-- Every start index is in range: no less than zero and no more than 511. -/
theorem inRange_all (ht : ∀ n : Fin 65536, tv (ix1 n) = BitVec.ofNat 32 (lab n).val) (i : S65536x1x1.Idx) :
    val_main_call3_v11 (F := Ideal) tv i = 1#1 := by
  obtain ⟨m, a, b, rfl⟩ : ∃ (m : Fin 65536) (a b : Fin 1), i = ix3 m a b := ⟨i 0, i 1, i 2, eq_ix3 i⟩
  have h0 : (0#32 : BitVec 32).toInt = 0 := by decide
  have h511 : (511#32 : BitVec 32).toInt = 511 := by decide
  rw [val_main_call3_v11_apply, IntOp.andi_eq_one, val_main_call3_v7_apply, val_main_call3_v10_apply,
    startIdx_eq tv lab ht, val_main_call3_v6_apply, val_main_call3_c_2_apply, val_main_call3_v9_apply,
    val_main_call3_v8_apply, val_main_call3_c_1_apply, IntOp.cmpi_sge, IntOp.cmpi_sle, SegmentSum.toInt_label, h0, h511]
  have := (lab m).isLt
  constructor <;> omega

/-- A fold of and from 1 over words that are all 1 is 1. -/
theorem foldl_andi_ones {ι : Type} (f : ι → BitVec 1) (hf : ∀ i, f i = 1#1) :
    ∀ l : List ι, l.foldl (fun r i => IntOp.andi r (f i)) 1#1 = 1#1
  | [] => rfl
  | a :: l => by
    rw [List.foldl_cons, hf a]
    exact foldl_andi_ones f hf l

/-- The range test of row n holds. -/
theorem inRange_eq (ht : ∀ n : Fin 65536, tv (ix1 n) = BitVec.ofNat 32 (lab n).val) (n : Fin 65536) :
    val_main_call3_v12 (F := Ideal) tv (ix2 n (0 : Fin 1)) = 1#1 := by
  unfold val_main_call3_v12
  rw [Host.reduce_eq_foldl, val_main_call3_c_3_apply]
  exact foldl_andi_ones _ (inRange_all tv lab ht) _

/-- The gather reads, in row n, the log-softmax entry at the row's label: the label is in range, so the clamp of the
    start index leaves it as it is. -/
theorem gather_eq (ht : ∀ n : Fin 65536, tv (ix1 n) = BitVec.ofNat 32 (lab n).val) (n : Fin 65536) :
    val_main_call3_v13 (F := Ideal) xv tv (ix2 n (0 : Fin 1)) = val_main_v22 (F := Ideal) xv tv (ix2 n (lab n)) := by
  unfold val_main_call3_v13 Host.gather
  refine congrArg (val_main_v22 (F := Ideal) xv tv) (funext fun a => Fin.ext ?_)
  match a with
  | ⟨0, _⟩ =>
    show gather_S65536x512_S65536x1x1_S65536x1_n_1_0_0_1_2_11.start (ix2 n (0 : Fin 1)) (val_main_call3_v5 (F := Ideal) tv) 0
        + gather_S65536x512_S65536x1x1_S65536x1_n_1_0_0_1_2_11.batchCoord (ix2 n (0 : Fin 1)) 0
        + gather_S65536x512_S65536x1x1_S65536x1_n_1_0_0_1_2_11.offCoord (ix2 n (0 : Fin 1)) 0 = n.val
    rw [GatherDims.start_batching _ _ _ _ (by decide),
      GatherDims.offCoord_eq_zero _ _ _ (fun h => ((GatherDims.mem_sKept _ _).mp h).2 (by decide))]
    simp only [Nat.zero_add, Nat.add_zero]
    rfl
  | ⟨1, _⟩ =>
    show gather_S65536x512_S65536x1x1_S65536x1_n_1_0_0_1_2_11.start (ix2 n (0 : Fin 1)) (val_main_call3_v5 (F := Ideal) tv) 1
        + gather_S65536x512_S65536x1x1_S65536x1_n_1_0_0_1_2_11.batchCoord (ix2 n (0 : Fin 1)) 1
        + gather_S65536x512_S65536x1x1_S65536x1_n_1_0_0_1_2_11.offCoord (ix2 n (0 : Fin 1)) 1 = (lab n).val
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (1 : Fin S65536x512.rank) ∈ gather_S65536x512_S65536x1x1_S65536x1_n_1_0_0_1_2_11.startIndexMap by decide)]
    have hsi : gather_S65536x512_S65536x1x1_S65536x1_n_1_0_0_1_2_11.siIdx (ix2 n (0 : Fin 1))
        ⟨List.idxOf (1 : Fin S65536x512.rank) gather_S65536x512_S65536x1x1_S65536x1_n_1_0_0_1_2_11.startIndexMap,
          List.idxOf_lt_length_iff.2 (by decide)⟩ = ix3 n (0 : Fin 1) (0 : Fin 1) := by
      funext b; refine Fin.ext ?_
      match b with
      | ⟨0, _⟩ => rfl
      | ⟨1, _⟩ => rfl
      | ⟨2, _⟩ => rfl
    rw [hsi, startIdx_eq tv lab ht, SegmentSum.toInt_label, Int.toNat_natCast]
    have := (lab n).isLt
    show min (lab n).val (512 - 1) = (lab n).val
    omega

/-! ## The mean of the rows' losses -/

/-- Row n's picked entry: the range test holds, so the select returns the gathered entry. -/
theorem picked_eq (ht : ∀ n : Fin 65536, tv (ix1 n) = BitVec.ofNat 32 (lab n).val) (n : Fin 65536) :
    val_main_v24 (F := Ideal) xv tv (ix2 n (0 : Fin 1)) = val_main_v22 (F := Ideal) xv tv (ix2 n (lab n)) := by
  rw [val_main_v24_apply, inRange_eq tv lab ht, select_one, gather_eq xv tv lab ht]

/-- Row n's loss. -/
theorem rowLoss_eq (hx : ∀ (n : Fin 65536) (d : Fin 256), xv (ix2 n d) = x n d)
    (ht : ∀ n : Fin 65536, tv (ix1 n) = BitVec.ofNat 32 (lab n).val) (n : Fin 65536) :
    val_main_v26 (F := Ideal) xv tv (ix1 n)
      = nllR x lab (Ideal.ofBits .f32 0x322BCC77#32) (protoR x lab) n := by
  have e25 : idx_main_v25 (ix1 n) = ix2 n (0 : Fin 1) := funext fun a => Fin.ext (by
    match a with
    | ⟨0, _⟩ => exact Nat.div_one _
    | ⟨1, _⟩ => rfl)
  rw [val_main_v26_apply, Ideal.hostNegf_def, Ideal.negf_def, val_main_v25_apply, e25, picked_eq xv tv lab ht,
    logSoftmax_eq xv tv x lab hx ht]
  rfl

end Stages

/-- The reference's result is `lossR` of the rows and labels. -/
theorem result_eq (xv : (⟨S65536x256, .f32⟩ : BufTy).Contents (Elt Ideal)) (tv : (⟨S65536, .i32⟩ : BufTy).Contents (Elt Ideal))
    (x : Fin 65536 → Fin 256 → EReal) (lab : Fin 65536 → Fin 512)
    (hx : ∀ (n : Fin 65536) (d : Fin 256), xv (ix2 n d) = x n d)
    (ht : ∀ n : Fin 65536, tv (ix1 n) = BitVec.ofNat 32 (lab n).val) :
    val_main_v28 (F := Ideal) xv tv ix0
      = lossR x lab (Ideal.ofBits .f32 0x322BCC77#32) (Ideal.ofBits .f32 0x47800000#32) := by
  rw [val_main_v28_apply, Ideal.hostDivf_def, val_main_v27_apply, val_main_cst_3_apply, Ideal.ofBits_def,
    Ideal.ofBits_zero_f32, zero_add, val_main_cst_4_apply, Ideal.ofBits_def,
    ← Equiv.sum_comp (idxEquiv1 (n := 65536)).symm]
  unfold lossR
  refine congrArg (fun s => Ideal.div s (Ideal.ofBits .f32 0x47800000#32)) (Finset.sum_congr rfl fun n _ => ?_)
  exact rowLoss_eq xv tv x lab hx ht n

end Cert.ReferenceIdeal.RefV

end
-- ==== Proof.Law.lean ====
/-
  The two results of Proof/Spec.lean are one extended real when the rows are real and the floor is a positive real.

  The road. Real rows make every label's sum and count real, the count a natural number `m`. For `m ≥ 1` the
  floored and the bare count are the same, so the two prototypes, hence the two similarities, are the same. For
  `m = 0` the label's sum is `0`: the kernel's prototype is `0 / 1 = 0`, its similarity `0 / eps = 0`; the
  reference's prototype is `0 / 0 = ⊥`, its norm `√(∑ ⊥·⊥) = √⊤ = ⊤`, and its similarity is `J · ⊤⁻¹ = 0` against
  a nonzero row, `0 / eps = 0` against a zero row. So the two score tables agree entry by entry, and every entry
  is real (the kernel's prototypes are real, the denominators positive reals). For a row of real scores
  `M`, `log Σ` and the label's score are real, and `(M + L) − a = −((a − M) − L)` in `ℝ`.
-/
import proofs.«428232_j56435870269925_3_alg».proof.Proof.Spec

noncomputable section

namespace Cert.ProtoLoss

open Idealize.ShloMosaic

namespace Law

/-- A finite sum of reals, read in the extended reals, is the real sum. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A nonempty finite sum of `⊤` is `⊤`. -/
theorem sum_top {ι : Type} (s : Finset ι) (hs : s.Nonempty) : (∑ _i ∈ s, (⊤ : EReal)) = ⊤ := by
  induction hs using Finset.Nonempty.cons_induction with
  | singleton a => simp
  | cons a s ha hs ih => rw [Finset.sum_cons, ih, EReal.top_add_top]

/-- The square root of a sum of real squares is the real square root. -/
theorem sqrt_sumsq {ι : Type} [Fintype ι] (f : ι → ℝ) :
    Ideal.sqrt (∑ i, (f i : EReal) * (f i : EReal)) = ((Real.sqrt (∑ i, f i * f i) : ℝ) : EReal) := by
  have h : ∀ i, (f i : EReal) * (f i : EReal) = ((f i * f i : ℝ) : EReal) := fun i => (EReal.coe_mul _ _).symm
  simp_rw [h, coe_sum, Ideal.sqrt_coe]
  rw [if_neg (not_lt.2 (Finset.sum_nonneg (fun i _ => mul_self_nonneg (f i))))]

/-- Zero over a positive extended real is zero. -/
theorem div_zero_num {y : EReal} (hy : 0 < y) : Ideal.div 0 y = 0 := by
  rw [Ideal.div, if_neg hy.ne', zero_mul]

/-- Anything over `⊤` is zero. -/
theorem div_top (j : EReal) : Ideal.div j ⊤ = 0 := by
  simp [Ideal.div]

/-- The larger of two reals, read in the extended reals. -/
theorem coe_max (a b : ℝ) : ((max a b : ℝ) : EReal) = max (a : EReal) (b : EReal) :=
  EReal.coe_strictMono.monotone.map_max

/-- A sum of indicators counts: it is the (real) number of indices satisfying the condition. -/
theorem sum_indicator_one {ι : Type} (s : Finset ι) (p : ι → Prop) [DecidablePred p] :
    (∑ n ∈ s, if p n then (1 : EReal) else 0) = (((s.filter p).card : ℝ) : EReal) := by
  have h : ∀ n, (if p n then (1 : EReal) else 0) = (((if p n then (1 : ℝ) else 0) : ℝ) : EReal) := by
    intro n; split_ifs <;> simp
  simp_rw [h, coe_sum, Finset.sum_boole]

/-- A sum of reals against an indicator is real. -/
theorem sum_indicator_coe {ι : Type} (s : Finset ι) (p : ι → Prop) [DecidablePred p] (f : ι → ℝ) :
    (∑ n ∈ s, if p n then (f n : EReal) else 0) = ((∑ n ∈ s, if p n then f n else 0 : ℝ) : EReal) := by
  have h : ∀ n, (if p n then (f n : EReal) else 0) = (((if p n then f n else 0) : ℝ) : EReal) := by
    intro n; split_ifs <;> simp
  simp_rw [h, coe_sum]

section

variable (r : Fin 65536 → Fin 256 → ℝ) (lab : Fin 65536 → Fin 512)

/-- The count of a label is the (real) number of rows carrying it. -/
theorem count_eq (k : Fin 512) :
    count lab k = (((Finset.univ.filter (fun n => lab n = k)).card : ℝ) : EReal) := by
  exact sum_indicator_one _ _

/-- The sum of the real rows carrying a label is real. -/
theorem segSum_eq (k : Fin 512) (d : Fin 256) :
    segSum (fun n d => (r n d : EReal)) lab k d = ((∑ n, if lab n = k then r n d else 0 : ℝ) : EReal) := by
  exact sum_indicator_coe _ _ _

/-- For a label no row carries, the sum of its rows is zero. -/
theorem segSum_empty (x : Fin 65536 → Fin 256 → EReal) (k : Fin 512) (hk : ∀ n, lab n ≠ k) (d : Fin 256) :
    segSum x lab k d = 0 := by
  unfold segSum
  exact Finset.sum_eq_zero (fun n _ => if_neg (hk n))

/-- For a label no row carries, the count is zero. -/
theorem count_empty (k : Fin 512) (hk : ∀ n, lab n ≠ k) : count lab k = 0 := by
  unfold count
  exact Finset.sum_eq_zero (fun n _ => if_neg (hk n))

/-- For a label some row carries, the count is at least one. -/
theorem count_ge_one (k : Fin 512) (n₀ : Fin 65536) (hk : lab n₀ = k) : (1 : EReal) ≤ count lab k := by
  rw [count_eq]
  have : 1 ≤ (Finset.univ.filter (fun n => lab n = k)).card :=
    Finset.card_pos.2 ⟨n₀, by simp [hk]⟩
  have h1 : (1 : ℝ) ≤ ((Finset.univ.filter (fun n => lab n = k)).card : ℝ) := by exact_mod_cast this
  exact_mod_cast h1

/-- The kernel's prototype of real rows is real. -/
theorem protoK_real (k : Fin 512) (d : Fin 256) :
    ∃ q : ℝ, protoK (fun n d => (r n d : EReal)) lab k d = (q : EReal) := by
  unfold protoK
  rw [segSum_eq, count_eq, ← EReal.coe_one, ← coe_max]
  have hne : max (((Finset.univ.filter (fun n => lab n = k)).card : ℝ)) 1 ≠ 0 :=
    (lt_of_lt_of_le one_pos (le_max_right _ _)).ne'
  rw [Ideal.div_coe hne, ← EReal.coe_mul]
  exact ⟨_, rfl⟩

/-- The norm of a real row is the real square root of its sum of squares. -/
theorem normX_eq (n : Fin 65536) :
    normX (fun n d => (r n d : EReal)) n = ((Real.sqrt (∑ d, r n d * r n d) : ℝ) : EReal) := by
  unfold normX
  exact sqrt_sumsq _

/-- The similarity of a real row against a real prototype, over a positive real floor, is real. -/
theorem sim_real (e : ℝ) (he : 0 < e) (p : Fin 512 → Fin 256 → EReal) (k : Fin 512)
    (hp : ∀ d, ∃ q : ℝ, p k d = (q : EReal)) (n : Fin 65536) :
    ∃ σ : ℝ, sim (fun n d => (r n d : EReal)) (e : EReal) p n k = (σ : EReal) := by
  choose q hq using hp
  unfold sim
  rw [normX_eq]
  unfold normP
  simp_rw [hq]
  rw [sqrt_sumsq]
  have h : ∀ d, (r n d : EReal) * (q d : EReal) = ((r n d * q d : ℝ) : EReal) := fun d => (EReal.coe_mul _ _).symm
  simp_rw [h, coe_sum]
  rw [← EReal.coe_mul, ← coe_max]
  have hne : max (Real.sqrt (∑ d, r n d * r n d) * Real.sqrt (∑ d, q d * q d)) e ≠ 0 :=
    (lt_of_lt_of_le he (le_max_right _ _)).ne'
  rw [Ideal.div_coe hne, ← EReal.coe_mul]
  exact ⟨_, rfl⟩

/-- Against the kernel's prototype of a label no row carries, every similarity is zero. -/
theorem simK_empty (e : ℝ) (he : 0 < e) (k : Fin 512) (hk : ∀ n, lab n ≠ k) (n : Fin 65536) :
    sim (fun n d => (r n d : EReal)) (e : EReal) (protoK (fun n d => (r n d : EReal)) lab) n k = 0 := by
  have hp : ∀ d, protoK (fun n d => (r n d : EReal)) lab k d = 0 := by
    intro d
    unfold protoK
    rw [segSum_empty lab _ k hk, count_empty lab k hk]
    exact div_zero_num (lt_of_lt_of_le one_pos (le_max_right _ _))
  unfold sim
  simp_rw [hp, mul_zero, Finset.sum_const_zero]
  exact div_zero_num (lt_of_lt_of_le (EReal.coe_pos.2 he) (le_max_right _ _))

/-- Against the reference's prototype of a label no row carries, every similarity is zero. -/
theorem simR_empty (e : ℝ) (he : 0 < e) (k : Fin 512) (hk : ∀ n, lab n ≠ k) (n : Fin 65536) :
    sim (fun n d => (r n d : EReal)) (e : EReal) (protoR (fun n d => (r n d : EReal)) lab) n k = 0 := by
  have hp : ∀ d, protoR (fun n d => (r n d : EReal)) lab k d = ⊥ := by
    intro d
    unfold protoR
    rw [segSum_empty lab _ k hk, count_empty lab k hk]
    simp [Ideal.div]
  have hN : normP (protoR (fun n d => (r n d : EReal)) lab) k = ⊤ := by
    unfold normP
    simp_rw [hp, EReal.bot_mul_bot]
    rw [sum_top _ Finset.univ_nonempty, Ideal.sqrt_top]
  unfold sim
  rw [hN, normX_eq]
  rcases (Real.sqrt_nonneg (∑ d, r n d * r n d)).eq_or_lt with h0 | hpos
  · -- a zero row: every entry is zero, the numerator vanishes and the floor is the denominator
    have hS : ∑ d, r n d * r n d = 0 :=
      (Real.sqrt_eq_zero (Finset.sum_nonneg (fun d _ => mul_self_nonneg (r n d)))).1 h0.symm
    have hz : ∀ d, r n d = 0 := by
      intro d
      have := (Finset.sum_eq_zero_iff_of_nonneg (fun d _ => mul_self_nonneg (r n d))).1 hS d (Finset.mem_univ d)
      exact mul_self_eq_zero.1 this
    rw [← h0]
    simp_rw [hz, hp]
    simp only [EReal.coe_zero, zero_mul, Finset.sum_const_zero]
    exact div_zero_num (lt_of_lt_of_le (EReal.coe_pos.2 he) (le_max_right _ _))
  · -- a nonzero row: the denominator is `⊤`
    rw [EReal.coe_mul_top_of_pos hpos, max_eq_left le_top]
    exact div_top _

/-- Against the prototype of a label some row carries, the two similarities are one. -/
theorem sim_nonempty (x : Fin 65536 → Fin 256 → EReal) (eps : EReal) (k : Fin 512) (n₀ : Fin 65536)
    (hk : lab n₀ = k) (n : Fin 65536) :
    sim x eps (protoK x lab) n k = sim x eps (protoR x lab) n k := by
  have hp : ∀ d, protoK x lab k d = protoR x lab k d := by
    intro d
    unfold protoK protoR
    rw [max_eq_left (count_ge_one lab k n₀ hk)]
  unfold sim normP
  simp_rw [hp]

end

section rows

variable (s : Fin 512 → EReal) (hs : ∀ k, ∃ σ : ℝ, s k = (σ : EReal))
include hs

/-- The largest of a row of real scores is one of them, so real. -/
theorem rowMax_real : ∃ M : ℝ, rowMax s = (M : EReal) := by
  unfold rowMax
  obtain ⟨i, _, hi⟩ := Finset.exists_mem_eq_sup Finset.univ Finset.univ_nonempty s
  obtain ⟨σ, hσ⟩ := hs i
  exact ⟨σ, hi.trans hσ⟩

/-- For a row of real scores `log ∑ₖ exp (sₖ − M)` is real: each exponential is a positive real, so is their sum. -/
theorem logSumExp_real : ∃ L : ℝ, logSumExp s = (L : EReal) := by
  obtain ⟨M, hM⟩ := rowMax_real s hs
  choose σ hσ using hs
  unfold logSumExp
  rw [hM]
  have h : ∀ k, Ideal.exp (s k - (M : EReal)) = ((Real.exp (σ k - M) : ℝ) : EReal) := by
    intro k; rw [hσ k, ← EReal.coe_sub, Ideal.exp_coe]
  simp_rw [h, coe_sum, Ideal.log_coe]
  have hpos : 0 < ∑ k : Fin 512, Real.exp (σ k - M) :=
    Finset.sum_pos (fun k _ => Real.exp_pos _) Finset.univ_nonempty
  rw [if_neg (not_le.2 hpos)]
  exact ⟨_, rfl⟩

/-- For a row of real scores, `(M + L) − s_l = −((s_l − M) − L)`, the label's score picked out by an indicator
    on the left. -/
theorem row_identity (l : Fin 512) :
    (rowMax s + logSumExp s) - (∑ k : Fin 512, if l = k then s k else 0)
      = -((s l - rowMax s) - logSumExp s) := by
  obtain ⟨M, hM⟩ := rowMax_real s hs
  obtain ⟨L, hL⟩ := logSumExp_real s hs
  obtain ⟨a, ha⟩ := hs l
  rw [Finset.sum_ite_eq, if_pos (Finset.mem_univ l), hM, hL, ha]
  rw [← EReal.coe_add, ← EReal.coe_sub, ← EReal.coe_sub, ← EReal.coe_sub, ← EReal.coe_neg]
  congr 1
  ring

end rows

end Law

open Law

variable (x : Fin 65536 → Fin 256 → EReal) (lab : Fin 65536 → Fin 512)

/-- For real rows and a positive real floor the two results are the same extended real. -/
theorem lossK_eq_lossR (eps cnt : EReal) (hx : ∀ n d, ∃ r : ℝ, x n d = (r : EReal))
    (heps : ∃ e : ℝ, 0 < e ∧ eps = (e : EReal)) : lossK x lab eps cnt = lossR x lab eps cnt := by
  choose r hr using hx
  obtain ⟨e, he, rfl⟩ := heps
  have hxr : x = fun n d => (r n d : EReal) := funext fun n => funext fun d => hr n d
  subst hxr
  -- the two score tables agree entry by entry
  have hsim : ∀ n k, sim (fun n d => (r n d : EReal)) (e : EReal) (protoR (fun n d => (r n d : EReal)) lab) n k
      = sim (fun n d => (r n d : EReal)) (e : EReal) (protoK (fun n d => (r n d : EReal)) lab) n k := by
    intro n k
    by_cases hk : ∃ n₀, lab n₀ = k
    · obtain ⟨n₀, hn₀⟩ := hk
      exact (sim_nonempty lab _ _ k n₀ hn₀ n).symm
    · have hk' : ∀ n, lab n ≠ k := fun n h => hk ⟨n, h⟩
      rw [simK_empty r lab e he k hk' n, simR_empty r lab e he k hk' n]
  -- so the row losses agree, by the identity for a row of real scores
  have hrow : ∀ n, nllK (fun n d => (r n d : EReal)) lab (e : EReal) (protoK (fun n d => (r n d : EReal)) lab) n
      = nllR (fun n d => (r n d : EReal)) lab (e : EReal) (protoR (fun n d => (r n d : EReal)) lab) n := by
    intro n
    unfold nllK nllR
    rw [funext (hsim n)]
    exact row_identity _ (fun k => sim_real r e he _ k (protoK_real r lab k) n) (lab n)
  unfold lossK lossR
  rw [Finset.sum_congr rfl (fun n _ => hrow n)]

end Cert.ProtoLoss

end
-- ==== Proof.PreDecode.lean ====
/-
  What the stated precondition says of the two argument arrays, at the extended reals: every entry of the rows is a
  real number, and every label is the word of a number below 512.

  The precondition is a conjunction of three universally quantified comparisons, each printed as a reduction by
  `and` over a whole array: |x| < +∞ entrywise, 0 ≤ t and t < 512 entrywise (signed). The conjunction being the one
  bit 1 gives each reduction the bit 1, hence each compared element the bit 1. At the extended reals |a| = max a (-a)
  is below ⊤ only when a is neither ⊤ nor ⊥, so a is a real; and a 32-bit word that is at least 0 and below 512 as a
  signed number has its sign bit clear, so its unsigned value is that same number below 512.
-/
import proofs.«428232_j56435870269925_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.ProtoLoss.Pre

open Idealize.ShloMosaic Idealize.ShloMosaic.ValueIdx Cert.Pre_finite_inputs

/-- The scalar shape has one index. -/
instance subsingleton_scalar_idx : Subsingleton S_.Idx := ⟨fun a b => funext fun d => d.elim0⟩

/-- The f32 pattern with all exponent bits set and no fraction bit denotes +∞. -/
theorem inf_word : Ideal.ofBits .f32 0x7F800000#32 = (⊤ : EReal) := by simp [Ideal.ofBits, Ideal.ieee]

/-- An extended real whose absolute value max a (-a) is strictly below +∞ is a real: at ⊤ and at ⊥ the maximum is ⊤. -/
theorem real_of_abs_lt_inf (a : EReal)
    (h : FloatOps.cmpf (F := Ideal) (φ := .f32) .olt (FloatOps.hostAbsf (F := Ideal) (φ := .f32) a)
      (Ideal.ofBits .f32 0x7F800000#32) = 1#1) :
    ∃ r : ℝ, a = (r : EReal) := by
  have h' : BitVec.ofBool (decide (max a (-a) < (⊤ : EReal))) = 1#1 := by
    rw [← inf_word]; exact h
  rw [StableHlo.Predicate.ofBool_eq_one_iff, decide_eq_true_eq] at h'
  induction a using EReal.rec with
  | bot => simp at h'
  | top => simp at h'
  | coe r => exact ⟨r, rfl⟩

/-- A 32-bit word that is, read signed, at least 0 and below 512 has unsigned value below 512: were its sign bit set
    its signed value would be negative. -/
theorem toNat_lt_of_range (w : BitVec 32) (h0 : IntOp.cmpi .sge w 0#32 = 1#1) (h1 : IntOp.cmpi .slt w 512#32 = 1#1) :
    w.toNat < 512 := by
  unfold IntOp.cmpi at h0 h1
  rw [StableHlo.Predicate.ofBool_eq_one_iff] at h0 h1
  simp only [BitVec.slt, BitVec.sle, decide_eq_true_eq] at h0 h1
  have z0 : (0#32 : BitVec 32).toInt = 0 := by decide
  have z1 : (512#32 : BitVec 32).toInt = 512 := by decide
  rw [z0] at h0
  rw [z1] at h1
  have h32 := w.isLt
  have e := BitVec.toInt_eq_toNat_cond w
  split at e <;> omega

variable [Cert.Pre_finite_inputs.Facts]

/-- The precondition read element by element: the three compared bits are 1 at every index. -/
theorem elementwise (x : FVec Ideal S65536x256 .f32) (t : IVec S65536 32)
    (h : Cert.Pre_finite_inputs.fn (F := Ideal) x t = fun _ => 1#1) :
    (∀ i : S65536x256.Idx, FloatOps.cmpf (F := Ideal) (φ := .f32) .olt (FloatOps.hostAbsf (x i))
        (Ideal.ofBits .f32 0x7F800000#32) = 1#1) ∧
    (∀ i : S65536.Idx, IntOp.cmpi .sge (t i) 0#32 = 1#1) ∧
    (∀ i : S65536.Idx, IntOp.cmpi .slt (t i) 512#32 = 1#1) := by
  have e := congrFun h ValueIdx.ix0
  unfold Cert.Pre_finite_inputs.fn at e
  dsimp only at e
  obtain ⟨hAB, hC⟩ := IntOp.andi_eq_one.1 e
  obtain ⟨hA, hB⟩ := IntOp.andi_eq_one.1 hAB
  exact ⟨fun i => Host.reduce_andi_all _ _ _ _ _ hA i, fun i => Host.reduce_andi_all _ _ _ _ _ hB i,
    fun i => Host.reduce_andi_all _ _ _ _ _ hC i⟩

/-- Under the precondition every entry of the rows is real. -/
theorem rows_real (x : FVec Ideal S65536x256 .f32) (t : IVec S65536 32)
    (h : Cert.Pre_finite_inputs.fn (F := Ideal) x t = fun _ => 1#1) (n : Fin 65536) (d : Fin 256) :
    ∃ r : ℝ, x (ix2 n d) = (r : EReal) :=
  real_of_abs_lt_inf _ ((elementwise x t h).1 (ix2 n d))

/-- Under the precondition every label is the 32-bit word of a number below 512. -/
theorem labels_inRange (x : FVec Ideal S65536x256 .f32) (t : IVec S65536 32)
    (h : Cert.Pre_finite_inputs.fn (F := Ideal) x t = fun _ => 1#1) :
    ∃ lab : Fin 65536 → Fin 512, ∀ n : Fin 65536, t (ix1 n) = BitVec.ofNat 32 (lab n).val := by
  obtain ⟨-, hB, hC⟩ := elementwise x t h
  refine ⟨fun n => ⟨(t (ix1 n)).toNat, toNat_lt_of_range _ (hB (ix1 n)) (hC (ix1 n))⟩, fun n => ?_⟩
  apply BitVec.eq_of_toNat_eq
  have h32 := (t (ix1 n)).isLt
  simp only [BitVec.toNat_ofNat]
  omega

end Cert.ProtoLoss.Pre

end
-- ==== Proof.lean ====
/-
  A kernel that scores 65536 rows of 256 features against 512 label prototypes and returns the mean cross-entropy of the
  cosine similarities, against its plain reference; the claim is stated for finite rows and labels below 512.

  Both programs run to the end whatever the input and leave their arguments as launched (the three frame claims). For the
  value, over the extended reals: the kernel's result is `lossK` of the rows and labels (Proof/KValue.lean: the two
  regions' result arrays by induction over their grid points, the host arithmetic around them read at an index), the
  reference's is `lossR` (Proof/RefValue.lean, stage by stage), and the two are one extended real for real rows
  (Proof/Law.lean): a label no row carries gives the reference a prototype `0 / 0`, whose infinite norm sends its
  similarities to the same zero the kernel's guarded prototype gives; and the row loss `(M + log Σ) − s` is
  `−((s − M) − log Σ)` for real scores. The precondition supplies the real rows and the labels (Proof/PreDecode.lean).
  The ideal pass rewrote nothing, so the idealization claim is trivial.
-/
import proofs.«428232_j56435870269925_3_alg».proof.Defs
import proofs.«428232_j56435870269925_3_alg».proof.Proof.Gen.Kernel
import proofs.«428232_j56435870269925_3_alg».proof.Proof.Gen.Kernel.Skeleton
import proofs.«428232_j56435870269925_3_alg».proof.Proof.Gen.Kernel.Launch
import proofs.«428232_j56435870269925_3_alg».proof.Proof.Gen.Kernel.Points
import proofs.«428232_j56435870269925_3_alg».proof.Proof.Gen.Kernel.Frame
import proofs.«428232_j56435870269925_3_alg».proof.Proof.Gen.KernelIdeal
import proofs.«428232_j56435870269925_3_alg».proof.Proof.Gen.KernelIdeal.Skeleton
import proofs.«428232_j56435870269925_3_alg».proof.Proof.Gen.KernelIdeal.Launch
import proofs.«428232_j56435870269925_3_alg».proof.Proof.Gen.KernelIdeal.Points
import proofs.«428232_j56435870269925_3_alg».proof.Proof.Gen.KernelIdeal.Frame
import proofs.«428232_j56435870269925_3_alg».proof.Proof.Gen.ReferenceIdeal
import proofs.«428232_j56435870269925_3_alg».proof.Proof.Gen.Pre_finite_inputs
import proofs.«428232_j56435870269925_3_alg».proof.Proof.KRun
import proofs.«428232_j56435870269925_3_alg».proof.Proof.KValue
import proofs.«428232_j56435870269925_3_alg».proof.Proof.GlueMath
import proofs.«428232_j56435870269925_3_alg».proof.Proof.RefRun
import proofs.«428232_j56435870269925_3_alg».proof.Proof.RefRead
import proofs.«428232_j56435870269925_3_alg».proof.Proof.RefValue
import proofs.«428232_j56435870269925_3_alg».proof.Proof.Law
import proofs.«428232_j56435870269925_3_alg».proof.Proof.PreDecode
import Idealize.ShloMosaic.Adequacy
import Idealize.ShloMosaic.Init

set_option maxRecDepth 16384

noncomputable section

namespace Cert.Proof

open Idealize.ShloMosaic Idealize.SL.Sem Idealize.ShloMosaic.ValueIdx Cert.ProtoLoss

/-- The two idealized programs, run from memories that agree on the rows and the labels, end with the same result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  -- the labels of each device's launch memory, as numbers below 512
  have hl := fun c : Dev Cert.KernelIdeal.nD => Cert.ProtoLoss.Pre.labels_inRange
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (hpre c)
  choose lab hlab using hl
  -- and its rows
  let xs : Dev Cert.KernelIdeal.nD → Fin 65536 → Fin 256 → EReal := fun c n d =>
    m ((c.tc : Thread Cert.KernelIdeal.nD Cert.KernelIdeal.τ).loc Cert.KernelIdeal.main_arg0) (ix2 n d)
  refine ⟨fun c _ => lossK (xs c) (lab c) (Ideal.ofBits .f32 0x322BCC77#32) (Ideal.ofBits .f32 0x47800000#32), ?_, ?_⟩
  · refine (θ_run Cert.KernelIdeal.defs _ _).mono (fun r h c => ⟨(h c).1.trans (funext fun i => ?_), (h c).2.1, (h c).2.2⟩)
      (Cert.KernelIdeal.RunV.run_result (F := Ideal) m ρ)
    rw [eq_ix0 i]
    exact Cert.KernelIdeal.KValue.result_eq m ρ c (xs c) (lab c) (fun _ _ => rfl) (hlab c)
  · refine (θ_run Cert.ReferenceIdeal.defs _ _).mono (fun r h c => ⟨(h c).1.trans ?_, (h c).2.1, (h c).2.2⟩)
      (Cert.ReferenceIdeal.ValueP.run (F := Ideal) m' ρ')
    rw [Cert.ReferenceIdeal.ReadP.val_main_v28_eq]
    funext i
    rw [eq_ix0 i, Cert.ReferenceIdeal.RefV.result_eq _ _ (xs c) (lab c)
      (fun n d => by rw [(hagree c).1]) (fun n => by rw [(hagree c).2]; exact hlab c n)]
    exact (lossK_eq_lossR (xs c) (lab c) _ _
      (fun n d => Cert.ProtoLoss.Pre.rows_real _ _ (hpre c) n d) Cert.KernelIdeal.Glue.eps_word).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
